-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8 : Shape := ⟨1, ![8]⟩
abbrev S512x2048 : Shape := ⟨2, ![512, 2048]⟩
abbrev S2048 : Shape := ⟨1, ![2048]⟩
abbrev S1536x512 : Shape := ⟨2, ![1536, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg5 : FVec F S512 .f32) (main_arg6 : FVec F S512 .f32) (main_arg7 : FVec F S512 .f32) (main_arg8 : FVec F S512 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_v33

def fn {F : FTy → Type} [FloatOps F] (main_arg0 : FVec F S8x2048x512 .f32) (main_arg1 : IVec S8 32) (main_arg2 : FVec F S512x2048 .f32) (main_arg3 : FVec F S2048 .f32) (main_arg4 : FVec F S1536x512 .f32) (main_arg5 : FVec F S512 .f32) (main_arg6 : FVec F S512 .f32) (main_arg7 : FVec F S512 .f32) (main_arg8 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1536x512 .f32 := Host.absf main_arg4
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg5 main_arg6 main_arg7 main_arg8 main_v13 main_v16
-- ==== Kernel.lean ====
abbrev S8x2048x512 : Shape := ⟨3, ![8, 2048, 512]⟩
abbrev S8 : Shape := ⟨1, ![8]⟩
abbrev S512x2048 : Shape := ⟨2, ![512, 2048]⟩
abbrev S2048 : Shape := ⟨1, ![2048]⟩
abbrev S1536x512 : Shape := ⟨2, ![1536, 512]⟩
abbrev S512 : Shape := ⟨1, ![512]⟩
abbrev S1x512x512 : Shape := ⟨3, ![1, 512, 512]⟩
abbrev S512x512 : Shape := ⟨2, ![512, 512]⟩
abbrev S512x1 : Shape := ⟨2, ![512, 1]⟩
abbrev S1x512 : Shape := ⟨2, ![1, 512]⟩
abbrev S1x2048 : Shape := ⟨2, ![1, 2048]⟩
abbrev S1 : Shape := ⟨1, ![1]⟩
abbrev S512x64 : Shape := ⟨2, ![512, 64]⟩
abbrev S64x512 : Shape := ⟨2, ![64, 512]⟩
abbrev S512x1536 : Shape := ⟨2, ![512, 1536]⟩

abbrev nBuf : Space → Nat
  | .hbm => 15
  | .vmem => 30
  | .smem => 1
  | _ => 0

abbrev bufTy : (tb : Table) → Fin (tcTables nBuf tb) → BufTy
  | .hbm, ⟨0, _⟩ => ⟨S8x2048x512, .f32⟩
  | .hbm, ⟨1, _⟩ => ⟨S512x2048, .f32⟩
  | .hbm, ⟨2, _⟩ => ⟨S2048, .f32⟩
  | .hbm, ⟨3, _⟩ => ⟨S1536x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x2048, .bf16⟩
  | .hbm, ⟨9, _⟩ => ⟨S1536x512, .bf16⟩
  | .hbm, ⟨10, _⟩ => ⟨S8x2048x512, .f32⟩
  | .hbm, ⟨11, _⟩ => ⟨S8x2048x512, .bf16⟩
  | .hbm, ⟨12, _⟩ => ⟨S8x2048x512, .bf16⟩
  | .hbm, ⟨13, _⟩ => ⟨S8x2048x512, .bf16⟩
  | .hbm, ⟨14, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S512, .f32⟩
  | .local _ .vmem, ⟨3, _⟩ => ⟨S512, .f32⟩
  | .local _ .vmem, ⟨4, _⟩ => ⟨S512x2048, .bf16⟩
  | .local _ .vmem, ⟨5, _⟩ => ⟨S2048, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1536x512, .bf16⟩
  | .local _ .vmem, ⟨25, _⟩ => ⟨S512, .f32⟩
  | .local _ .vmem, ⟨26, _⟩ => ⟨S512, .f32⟩
  | .local _ .vmem, ⟨27, _⟩ => ⟨S1x512x512, .f32⟩
  | .local _ .vmem, ⟨28, _⟩ => ⟨S1x512x512, .f32⟩
  | .local _ .vmem, ⟨29, _⟩ => ⟨S512x512, .f32⟩
  | .local _ .smem, ⟨0, _⟩ => ⟨S8, .i32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v3 : Ref sig .tc := ⟨.hbm, 14, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg8_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem8_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨3, ![8, 4, 4], ![false, false, false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k1_cond2 (i : grid1.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def k1_off1 (i : grid1.Coords) : Fin 1 → Nat :=
  let arg0 : BitVec 32 := BitVec.ofNat 32 (i 0).val
  let v18 : Index := Scalar.indexCast arg0
  ![v18.toNat]
def k1_cond3 (i : grid1.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 1 → Memref sig .tc .vmem S1536x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  broadcasts_S512x1_S512x512 : S512x1.Broadcasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  slices_S512x2048_o0_0_S512x512 : S512x2048.Slices ![0, 0] S512x512
  shapeCasts_S512x512_S1x512x512 : S512x512.ShapeCasts S1x512x512
  slices_S512x2048_o0_512_S512x512 : S512x2048.Slices ![0, 512] S512x512
  packedbf16_S1x512x512_S1x512x512_0_0_0 : (Rect.unit (s := S1x512x512) ![0, 0, 0] S1x512x512.size inb_S1x512x512_S1x512x512_0_0_0).PackedRows (EltTy.packing .bf16)
  slices_S512x2048_o0_1024_S512x512 : S512x2048.Slices ![0, 1024] S512x512
  slices_S512x2048_o0_1536_S512x512 : S512x2048.Slices ![0, 1536] S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  numel1_S1 : S1.numel = 1
  slices_S512x512_o0_0_S512x64 : S512x512.Slices ![0, 0] S512x64
  transposes_S512x64_p1_0_S64x512 : S512x64.Transposes [1, 0] S64x512
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  concatenates_S512x64_S512x64_S512x64_S512x64_S512x64_S512x64_S512x64_S512x64_S512x512_d1 : Shape.Concatenates [S512x64, S512x64, S512x64, S512x64, S512x64, S512x64, S512x64, S512x64] S512x512 1
  concatenates_S512x512_S512x512_S512x512_S512x1536_d1 : Shape.Concatenates [S512x512, S512x512, S512x512] S512x1536 1
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  dot_S512x512_S512x2048_S512x2048_1_0_0_1_n_n_wf : DotDims.WF S512x512 S512x2048 S512x2048 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x1536_S1536x512_S512x512_1_0_0_1_n_n_wf : DotDims.WF S512x1536 S1536x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S8x2048x512.size a
  hwx0_5 : ∀ i : grid0.Coords, EltTy.bits .f32 = 32 ∨ (Rect.block (s := S8x2048x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S8x2048x512.size a
  hwx0_6 : ∀ i : grid0.Coords, EltTy.bits .bf16 = 32 ∨ (Rect.block (s := S8x2048x512) S1x512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S8x2048x512.size a
  hwx0_7 : ∀ i : grid0.Coords, EltTy.bits .bf16 = 32 ∨ (Rect.block (s := S8x2048x512) S1x512x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S8x2048x512.size a
  hwx0_8 : ∀ i : grid0.Coords, EltTy.bits .bf16 = 32 ∨ (Rect.block (s := S8x2048x512) S1x512x512.size (cc0_transform_8 i) (hinb0_8 i)).WholeWords (EltTy.packing .bf16)
  hrank1 : 0 < grid1.rank
  k1_off1_inb : ∀ i : grid1.Coords, ∀ (k1_h2 : k1_cond2 i = 1#1), ∀ a, (k1_off1 i) a + S1.size a ≤ S8.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x512.size a ≤ S8x2048x512.size a
  hwx1_0 : ∀ i : grid1.Coords, EltTy.bits .bf16 = 32 ∨ (Rect.block (s := S8x2048x512) S1x512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x2048x512.size a
  hwx1_1 : ∀ i : grid1.Coords, EltTy.bits .bf16 = 32 ∨ (Rect.block (s := S8x2048x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S8x2048x512.size a
  hwx1_2 : ∀ i : grid1.Coords, EltTy.bits .bf16 = 32 ∨ (Rect.block (s := S8x2048x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x512.size a ≤ S8x2048x512.size a
  hwx1_3 : ∀ i : grid1.Coords, EltTy.bits .f32 = 32 ∨ (Rect.block (s := S8x2048x512) S1x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x512.size a ≤ S8x2048x512.size a
  hwx1_4 : ∀ i : grid1.Coords, EltTy.bits .f32 = 32 ∨ (Rect.block (s := S8x2048x512) S1x512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1536x512.size a ≤ S1536x512.size a
  hwx1_5 : ∀ i : grid1.Coords, EltTy.bits .bf16 = 32 ∨ (Rect.block (s := S1536x512) S1536x512.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S512.size a
  hwx1_6 : ∀ i : grid1.Coords, EltTy.bits .f32 = 32 ∨ (Rect.block (s := S512) S512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512x512.size a ≤ S8x2048x512.size a
  hwx1_8 : ∀ i : grid1.Coords, EltTy.bits .f32 = 32 ∨ (Rect.block (s := S8x2048x512) S1x512x512.size (cc1_transform_8 i) (hinb1_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S1x512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S1x512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S1x512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_3) S1x512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev spec1_0 : Pipeline.WinSpec sig grid1.rank :=
  Pipeline.WinSpec.ofSpec (Memref.whole main_v2_2) S1x512x512.size reads1_0 false false 2 stage1_0 sem1_0 nbuf1_0 hstage1_0

abbrev spec1_1 : Pipeline.WinSpec sig grid1.rank :=
  Pipeline.WinSpec.ofSpec (Memref.whole main_v2_3) S1x512x512.size reads1_1 false false 2 stage1_1 sem1_1 nbuf1_1 hstage1_1

abbrev spec1_2 : Pipeline.WinSpec sig grid1.rank :=
  Pipeline.WinSpec.ofSpec (Memref.whole main_v2_1) S1x512x512.size reads1_2 false false 2 stage1_2 sem1_2 nbuf1_2 hstage1_2

abbrev spec1_3 : Pipeline.WinSpec sig grid1.rank :=
  Pipeline.WinSpec.ofSpec (Memref.whole main_v2_0) S1x512x512.size reads1_3 false false 2 stage1_3 sem1_3 nbuf1_3 hstage1_3

abbrev spec1_4 : Pipeline.WinSpec sig grid1.rank :=
  Pipeline.WinSpec.ofSpec (Memref.whole main_arg0) S1x512x512.size reads1_4 false false 2 stage1_4 sem1_4 nbuf1_4 hstage1_4

abbrev spec1_5 : Pipeline.WinSpec sig grid1.rank :=
  Pipeline.WinSpec.ofSpec (Memref.whole main_v1) S1536x512.size reads1_5 false true 1 stage1_5 sem1_5 nbuf1_5 hstage1_5

abbrev spec1_6 : Pipeline.WinSpec sig grid1.rank :=
  Pipeline.WinSpec.ofSpec (Memref.whole main_arg7) S512.size reads1_6 false true 1 stage1_6 sem1_6 nbuf1_6 hstage1_6

abbrev spec1_7 : Pipeline.WinSpec sig grid1.rank :=
  Pipeline.WinSpec.ofSpec (Memref.whole main_arg8) S512.size reads1_7 false true 1 stage1_7 sem1_7 nbuf1_7 hstage1_7

abbrev spec1_8 : Pipeline.WinSpec sig grid1.rank :=
  Pipeline.WinSpec.ofSpec (Memref.whole main_v3) S1x512x512.size reads1_8 true false 2 stage1_8 sem1_8 nbuf1_8 hstage1_8

abbrev spec1 : Fin 9 → Pipeline.WinSpec sig grid1.rank := fun | 0 => spec1_0 | 1 => spec1_1 | 2 => spec1_2 | 3 => spec1_3 | 4 => spec1_4 | 5 => spec1_5 | 6 => spec1_6 | 7 => spec1_7 | 8 => spec1_8 | ⟨_ + 9, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | ⟨_ + 9, h⟩ => absurd h (Nat.not_lt.2 (Nat.le_add_left _ _))
abbrev ix1 (pf : pre1.Contents (Elt F)) : (w : Fin 9) → grid1.Coords → Fin (spec1 w).shape.rank → Nat := fun | 0 => cc1_transform_0 | 1 => cc1_transform_1 | 2 => cc1_transform_2 | 3 => cc1_transform_3 | 4 => cc1_transform_4 | 5 => cc1_transform_5 | 6 => cc1_transform_6 | 7 => cc1_transform_7 | 8 => cc1_transform_8 | ⟨_ + 9, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | 6 => hreads1_6 | 7 => hreads1_7 | 8 => hreads1_8 | ⟨_ + 9, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | 6 => hinb1_6 | 7 => hinb1_7 | 8 => hinb1_8 | ⟨_ + 9, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | 6 => hwx1_6 | 7 => hwx1_7 | 8 => hwx1_8 | ⟨_ + 9, h⟩ => absurd h (Nat.not_lt.2 (Nat.le_add_left _ _))
abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond3 i == 1#1) | ⟨_ + 9, h⟩ => absurd h (Nat.not_lt.2 (Nat.le_add_left _ _))

class Facts : Prop extends Facts₀ where
  harr1 : ∀ w, (spec1 w).arr.IsWhole

variable [Facts]
-- ==== ReferenceIdeal.lean ====
abbrev S8x2048x512 : Shape := ⟨3, ![8, 2048, 512]⟩
abbrev S8 : Shape := ⟨1, ![8]⟩
abbrev S512x2048 : Shape := ⟨2, ![512, 2048]⟩
abbrev S2048 : Shape := ⟨1, ![2048]⟩
abbrev S1536x512 : Shape := ⟨2, ![1536, 512]⟩
abbrev S512 : Shape := ⟨1, ![512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x2048x2048 : Shape := ⟨3, ![8, 2048, 2048]⟩
abbrev S1x1x2048 : Shape := ⟨3, ![1, 1, 2048]⟩
abbrev S8x2048x8x64 : Shape := ⟨4, ![8, 2048, 8, 64]⟩
abbrev S8x8x2048x64 : Shape := ⟨4, ![8, 8, 2048, 64]⟩
abbrev S8x8x2048x2048 : Shape := ⟨4, ![8, 8, 2048, 2048]⟩
abbrev S2048x1 : Shape := ⟨2, ![2048, 1]⟩
abbrev S1x2048 : Shape := ⟨2, ![1, 2048]⟩
abbrev S2048x2048 : Shape := ⟨2, ![2048, 2048]⟩
abbrev S8x1 : Shape := ⟨2, ![8, 1]⟩
abbrev S1x2048x2048 : Shape := ⟨3, ![1, 2048, 2048]⟩
abbrev S8x1x2048 : Shape := ⟨3, ![8, 1, 2048]⟩
abbrev S8x1x2048x2048 : Shape := ⟨4, ![8, 1, 2048, 2048]⟩
abbrev S8x2048x1536 : Shape := ⟨3, ![8, 2048, 1536]⟩

abbrev nBuf : Space → Nat
  | .hbm => 130
  | .vmem => 0
  | .smem => 0
  | _ => 0

abbrev hbmTy0_0 (i : Nat) : BufTy := match i % 128 with
  | 0 => ⟨S8x2048x512, .f32⟩
  | 1 => ⟨S8, .i32⟩
  | 2 => ⟨S512x2048, .f32⟩
  | 3 => ⟨S2048, .f32⟩
  | 4 => ⟨S1536x512, .f32⟩
  | 5 => ⟨S512, .f32⟩
  | 6 => ⟨S512, .f32⟩
  | 7 => ⟨S512, .f32⟩
  | 8 => ⟨S512, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S8x2048x512, .f32⟩
  | 16 => ⟨S8x2048x512, .f32⟩
  | 17 => ⟨S8x2048x512, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x512, .f32⟩
  | 25 => ⟨S8x2048x512, .f32⟩
  | 26 => ⟨S_, .f32⟩
  | 27 => ⟨S8x2048x1, .f32⟩
  | 28 => ⟨S8x2048x1, .f32⟩
  | 29 => ⟨S8x2048x1, .f32⟩
  | 30 => ⟨S8x2048x512, .f32⟩
  | 31 => ⟨S8x2048x512, .f32⟩
  | 32 => ⟨S1x1x512, .f32⟩
  | 33 => ⟨S8x2048x512, .f32⟩
  | 34 => ⟨S8x2048x512, .f32⟩
  | 35 => ⟨S1x1x512, .f32⟩
  | 36 => ⟨S8x2048x512, .f32⟩
  | 37 => ⟨S8x2048x512, .f32⟩
  | 38 => ⟨S8x2048x2048, .f32⟩
  | 39 => ⟨S1x1x2048, .f32⟩
  | 40 => ⟨S8x2048x2048, .f32⟩
  | 41 => ⟨S8x2048x2048, .f32⟩
  | 42 => ⟨S8x2048x512, .f32⟩
  | 43 => ⟨S8x2048x512, .f32⟩
  | 44 => ⟨S8x2048x512, .f32⟩
  | 45 => ⟨S_, .f32⟩
  | 46 => ⟨S8x2048x512, .f32⟩
  | 47 => ⟨S8x2048x512, .f32⟩
  | 48 => ⟨S_, .f32⟩
  | 49 => ⟨S8x2048x512, .f32⟩
  | 50 => ⟨S8x2048x512, .f32⟩
  | 51 => ⟨S8x2048x512, .f32⟩
  | 52 => ⟨S8x2048x512, .f32⟩
  | 53 => ⟨S8x2048x512, .f32⟩
  | 54 => ⟨S8x2048x512, .f32⟩
  | 55 => ⟨S8x2048x8x64, .f32⟩
  | 56 => ⟨S8x8x2048x64, .f32⟩
  | 57 => ⟨S8x2048x8x64, .f32⟩
  | 58 => ⟨S8x8x2048x64, .f32⟩
  | 59 => ⟨S8x2048x8x64, .f32⟩
  | 60 => ⟨S8x8x2048x64, .f32⟩
  | 61 => ⟨S8x8x2048x2048, .f32⟩
  | 62 => ⟨S_, .f32⟩
  | 63 => ⟨S8x8x2048x2048, .f32⟩
  | 64 => ⟨S8x8x2048x2048, .f32⟩
  | 65 => ⟨S8x8x2048x2048, .f32⟩
  | 66 => ⟨S8x8x2048x2048, .f32⟩
  | 67 => ⟨S_, .f32⟩
  | 68 => ⟨S8x8x2048x2048, .f32⟩
  | 69 => ⟨S8x8x2048x2048, .f32⟩
  | 70 => ⟨S_, .f32⟩
  | 71 => ⟨S8x8x2048x2048, .f32⟩
  | 72 => ⟨S8x8x2048x2048, .f32⟩
  | 73 => ⟨S8x8x2048x2048, .f32⟩
  | 74 => ⟨S2048, .i32⟩
  | 75 => ⟨S2048x1, .i32⟩
  | 76 => ⟨S1x2048, .i32⟩
  | 77 => ⟨S2048x2048, .i32⟩
  | 78 => ⟨S2048x2048, .i32⟩
  | 79 => ⟨S2048x2048, .i1⟩
  | 80 => ⟨S1x2048, .i32⟩
  | 81 => ⟨S8x1, .i32⟩
  | 82 => ⟨S8x2048, .i32⟩
  | 83 => ⟨S8x2048, .i32⟩
  | 84 => ⟨S8x2048, .i1⟩
  | 85 => ⟨S1x2048x2048, .i1⟩
  | 86 => ⟨S8x1x2048, .i1⟩
  | 87 => ⟨S8x2048x2048, .i1⟩
  | 88 => ⟨S8x2048x2048, .i1⟩
  | 89 => ⟨S8x2048x2048, .i1⟩
  | 90 => ⟨S8x2048x2048, .f32⟩
  | 91 => ⟨S8x1x2048x2048, .f32⟩
  | 92 => ⟨S8x8x2048x2048, .f32⟩
  | 93 => ⟨S8x8x2048x2048, .f32⟩
  | 94 => ⟨S8x8x2048x64, .f32⟩
  | 95 => ⟨S8x2048x8x64, .f32⟩
  | 96 => ⟨S8x2048x512, .f32⟩
  | 97 => ⟨S_, .f32⟩
  | 98 => ⟨S8x2048, .f32⟩
  | 99 => ⟨S8x2048x1, .f32⟩
  | 100 => ⟨S_, .f32⟩
  | 101 => ⟨S8x2048x1, .f32⟩
  | 102 => ⟨S8x2048x1, .f32⟩
  | 103 => ⟨S8x2048x512, .f32⟩
  | 104 => ⟨S8x2048x512, .f32⟩
  | 105 => ⟨S8x2048x512, .f32⟩
  | 106 => ⟨S_, .f32⟩
  | 107 => ⟨S8x2048, .f32⟩
  | 108 => ⟨S8x2048x1, .f32⟩
  | 109 => ⟨S_, .f32⟩
  | 110 => ⟨S8x2048x1, .f32⟩
  | 111 => ⟨S8x2048x1, .f32⟩
  | 112 => ⟨S8x2048x512, .f32⟩
  | 113 => ⟨S8x2048x512, .f32⟩
  | 114 => ⟨S_, .f32⟩
  | 115 => ⟨S8x2048x1, .f32⟩
  | 116 => ⟨S8x2048x1, .f32⟩
  | 117 => ⟨S8x2048x1, .f32⟩
  | 118 => ⟨S8x2048x512, .f32⟩
  | 119 => ⟨S8x2048x512, .f32⟩
  | 120 => ⟨S1x1x512, .f32⟩
  | 121 => ⟨S8x2048x512, .f32⟩
  | 122 => ⟨S8x2048x512, .f32⟩
  | 123 => ⟨S1x1x512, .f32⟩
  | 124 => ⟨S8x2048x512, .f32⟩
  | 125 => ⟨S8x2048x512, .f32⟩
  | 126 => ⟨S8x2048x512, .f32⟩
  | 127 => ⟨S8x2048x1536, .f32⟩
  | _ => ⟨S8x2048x512, .f32⟩

abbrev hbmTy0_1 (i : Nat) : BufTy := match i % 128 with
  | 0 => ⟨S8x2048x512, .f32⟩
  | 1 => ⟨S8x2048x512, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_5 : Ref sig .tc := ⟨.hbm, 97, rfl⟩
abbrev main_v66 : Ref sig .tc := ⟨.hbm, 98, rfl⟩
abbrev main_v67 : Ref sig .tc := ⟨.hbm, 99, rfl⟩
abbrev main_cst_6 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_7 : Ref sig .tc := ⟨.hbm, 106, rfl⟩
abbrev main_v73 : Ref sig .tc := ⟨.hbm, 107, rfl⟩
abbrev main_v74 : Ref sig .tc := ⟨.hbm, 108, rfl⟩
abbrev main_cst_8 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_9 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  reducesTo_S8x2048x512_S8x2048_d2 : S8x2048x512.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x512_0_1_2 : S8x2048x1.BroadcastsInDim S8x2048x512 (![0, 1, 2] : Fin 3 → Fin S8x2048x512.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  slices_S8x2048x2048_S8x2048x512_0_0_0 : S8x2048x2048.Slices ![0, 0, 0] S8x2048x512
  bcast_S_S8x2048x512 : S_.BroadcastsInDim S8x2048x512 (![] : Fin 0 → Fin S8x2048x512.rank)
  slices_S8x2048x2048_S8x2048x512_0_0_512 : S8x2048x2048.Slices ![0, 0, 512] S8x2048x512
  slices_S8x2048x2048_S8x2048x512_0_0_1024 : S8x2048x2048.Slices ![0, 0, 1024] S8x2048x512
  slices_S8x2048x2048_S8x2048x512_0_0_1536 : S8x2048x2048.Slices ![0, 0, 1536] S8x2048x512
  shapeCasts_S8x2048x512_S8x2048x8x64 : S8x2048x512.ShapeCasts S8x2048x8x64
  transposes_S8x2048x8x64_S8x8x2048x64_0_2_1_3 : S8x2048x8x64.Transposes [0, 2, 1, 3] S8x8x2048x64
  bcast_S_S8x8x2048x2048 : S_.BroadcastsInDim S8x8x2048x2048 (![] : Fin 0 → Fin S8x8x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S2048x2048_S1x2048x2048_1_2 : S2048x2048.BroadcastsInDim S1x2048x2048 (![1, 2] : Fin 2 → Fin S1x2048x2048.rank)
  bcast_S8x2048_S8x1x2048_0_2 : S8x2048.BroadcastsInDim S8x1x2048 (![0, 2] : Fin 2 → Fin S8x1x2048.rank)
  bcast_S1x2048x2048_S8x2048x2048_0_1_2 : S1x2048x2048.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S8x2048x2048_S8x1x2048x2048_0_2_3 : S8x2048x2048.BroadcastsInDim S8x1x2048x2048 (![0, 2, 3] : Fin 3 → Fin S8x1x2048x2048.rank)
  bcast_S8x1x2048x2048_S8x8x2048x2048_0_1_2_3 : S8x1x2048x2048.BroadcastsInDim S8x8x2048x2048 (![0, 1, 2, 3] : Fin 4 → Fin S8x8x2048x2048.rank)
  transposes_S8x8x2048x64_S8x2048x8x64_0_2_1_3 : S8x8x2048x64.Transposes [0, 2, 1, 3] S8x2048x8x64
  shapeCasts_S8x2048x8x64_S8x2048x512 : S8x2048x8x64.ShapeCasts S8x2048x512
  concatenates_S8x2048x512_S8x2048x512_S8x2048x512_S8x2048x1536_d2 : Shape.Concatenates [S8x2048x512, S8x2048x512, S8x2048x512] S8x2048x1536 2
  dot_S8x2048x512_S512x2048_S8x2048x2048_2_0_01_1_n_n_wf : DotDims.WF S8x2048x512 S512x2048 S8x2048x2048 [2] [0] [0, 1] [1] [] []
  dot_S8x8x2048x64_S8x8x2048x64_S8x8x2048x2048_3_3_2_2_01_01_wf : DotDims.WF S8x8x2048x64 S8x8x2048x64 S8x8x2048x2048 [3] [3] [2] [2] [0, 1] [0, 1]
  dot_S8x8x2048x2048_S8x8x2048x64_S8x8x2048x64_3_2_2_3_01_01_wf : DotDims.WF S8x8x2048x2048 S8x8x2048x64 S8x8x2048x64 [3] [2] [2] [3] [0, 1] [0, 1]
  dot_S8x2048x1536_S1536x512_S8x2048x512_2_0_01_1_n_n_wf : DotDims.WF S8x2048x1536 S1536x512 S8x2048x512 [2] [0] [0, 1] [1] [] []

variable [Facts₀]

def dot_S8x2048x512_S512x2048_S8x2048x2048_2_0_01_1_n_n : DotDims S8x2048x512 S512x2048 S8x2048x2048 where
  lhsContracting := [2]
  rhsContracting := [0]
  lhsNonContracting := [0, 1]
  rhsNonContracting := [1]
  lhsBatch := []
  rhsBatch := []
  wf := dot_S8x2048x512_S512x2048_S8x2048x2048_2_0_01_1_n_n_wf
def dot_S8x8x2048x64_S8x8x2048x64_S8x8x2048x2048_3_3_2_2_01_01 : DotDims S8x8x2048x64 S8x8x2048x64 S8x8x2048x2048 where
  lhsContracting := [3]
  rhsContracting := [3]
  lhsNonContracting := [2]
  rhsNonContracting := [2]
  lhsBatch := [0, 1]
  rhsBatch := [0, 1]
  wf := dot_S8x8x2048x64_S8x8x2048x64_S8x8x2048x2048_3_3_2_2_01_01_wf
def dot_S8x8x2048x2048_S8x8x2048x64_S8x8x2048x64_3_2_2_3_01_01 : DotDims S8x8x2048x2048 S8x8x2048x64 S8x8x2048x64 where
  lhsContracting := [3]
  rhsContracting := [2]
  lhsNonContracting := [2]
  rhsNonContracting := [3]
  lhsBatch := [0, 1]
  rhsBatch := [0, 1]
  wf := dot_S8x8x2048x2048_S8x8x2048x64_S8x8x2048x64_3_2_2_3_01_01_wf
def dot_S8x2048x1536_S1536x512_S8x2048x512_2_0_01_1_n_n : DotDims S8x2048x1536 S1536x512 S8x2048x512 where
  lhsContracting := [2]
  rhsContracting := [0]
  lhsNonContracting := [0, 1]
  rhsNonContracting := [1]
  lhsBatch := []
  rhsBatch := []
  wf := dot_S8x2048x1536_S1536x512_S8x2048x512_2_0_01_1_n_n_wf

class Facts : Prop extends Facts₀ where

variable [Facts]
-- ==== Proof.K.Pay.lean ====
/-
  What one grid point of each of the two kernels computes, as pure functions of the blocks it reads.

  Projection kernel, at a point (b, i): from the 512 rows of x it is handed, the layer-norm weights and the
  projection weights, the row tile `proj` = LN(x)·W + bias (512 × 2048); its four output blocks are
  silu of columns 0–511 (`uBlk`) and columns 512–1023, 1024–1535, 1536–2047 (`vBlk`, `qBlk`, `kBlk`).

  Attention kernel, at a point (b, qi, kvi): `zeroAcc` is the accumulator's reset value; `accStep` adds to the
  accumulator, head by head, the masked silu-scores of this (q tile, kv tile) pair times the v tile (the mask is
  causal in the absolute positions qi·512 + row ≥ kvi·512 + col and cuts columns at the row's sequence length);
  `finBlk` is the output tile from the finished accumulator: LN of it, gated by u, concatenated with u and x,
  times the output weights, plus x.
-/
import proofs.«419744_j566935683421_1_alg».proof.Proof.Gen.Kernel.Skeleton

noncomputable section

namespace Cert.Kernel.Hand

open Idealize.ShloMosaic Idealize.SL.Sem Cert.Kernel Cert.Kernel.Gen

variable {F : FTy → Type} [FloatOps F]

/-- The projection tile LN(x)·W + bias of one block of 512 rows. -/
def proj (x : Vec F S1x512x512 .f32) (g b : Vec F S512 .f32) (w : Vec F S512x2048 .bf16) (bias : Vec F S2048 .f32) :
    Vec F S512x2048 .f32 := k0_pay5 x g b w bias

/-- The u block: silu of the tile's columns 0–511. -/
def uBlk (x : Vec F S1x512x512 .f32) (g b : Vec F S512 .f32) (w : Vec F S512x2048 .bf16) (bias : Vec F S2048 .f32) :
    Vec F S1x512x512 .f32 := k0_pay1 (k0_pay6 x g b w bias)

/-- The v block: the tile's columns 512–1023. -/
def vBlk (x : Vec F S1x512x512 .f32) (g b : Vec F S512 .f32) (w : Vec F S512x2048 .bf16) (bias : Vec F S2048 .f32) :
    Vec F S1x512x512 .bf16 := k0_pay2 (proj x g b w bias)

/-- The q block: the tile's columns 1024–1535. -/
def qBlk (x : Vec F S1x512x512 .f32) (g b : Vec F S512 .f32) (w : Vec F S512x2048 .bf16) (bias : Vec F S2048 .f32) :
    Vec F S1x512x512 .bf16 := k0_pay3 (proj x g b w bias)

/-- The k block: the tile's columns 1536–2047. -/
def kBlk (x : Vec F S1x512x512 .f32) (g b : Vec F S512 .f32) (w : Vec F S512x2048 .bf16) (bias : Vec F S2048 .f32) :
    Vec F S1x512x512 .bf16 := k0_pay4 (proj x g b w bias)

/-- The accumulator's reset value: all zeros. -/
def zeroAcc : Vec F S512x512 .f32 := k1_pay1

/-- One (q tile, kv tile) contribution added to the accumulator: `qi`, `kvi` the two tile coordinates as words,
    `len` the row's sequence length, `q k v` the three tiles, `acc` what the accumulator held. -/
def accStep (qi kvi : BitVec 32) (len : Elt F .i32) (q k v : Vec F S1x512x512 .bf16) (acc : Vec F S512x512 .f32) :
    Vec F S512x512 .f32 :=
  k1_pay17 (k1_pay3 qi kvi len) (k1_pay4 q) (k1_pay5 k) (k1_pay6 v)
    (k1_pay7 qi kvi len q k v)
    (k1_pay10 (k1_pay3 qi kvi len) (k1_pay8 v) (k1_pay9 q k) (Scalar.ofBits .f32 0x00000000#32))
    (k1_pay11 (k1_pay3 qi kvi len) (k1_pay4 q) (k1_pay5 k) (k1_pay6 v))
    (k1_pay12 (k1_pay3 qi kvi len) (k1_pay4 q) (k1_pay5 k) (k1_pay6 v))
    (k1_pay13 (k1_pay3 qi kvi len) (k1_pay4 q) (k1_pay5 k) (k1_pay6 v))
    (k1_pay14 (k1_pay4 q)) (k1_pay15 (k1_pay6 v)) (k1_pay16 (k1_pay5 k)) acc

/-- The output tile from the finished accumulator. -/
def finBlk (acc : Vec F S512x512 .f32) (g2 b2 : Vec F S512 .f32) (u x : Vec F S1x512x512 .f32) (ow : Vec F S1536x512 .bf16) :
    Vec F S1x512x512 .f32 := k1_pay2 (k1_pay18 acc g2 b2 u x ow)

end Cert.Kernel.Hand

end
-- ==== Proof.K.R0.lean ====
/-
  The projection kernel's region: its proof data and its body obligation.

  At an arbitrary valuation V of the core's buffers on entry, window w's block at grid point t is read off its
  array (iblk0).  The body reads the five input blocks (x, the two layer-norm vectors, the projection weights, the
  bias) and overwrites the four output blocks with uBlk, vBlk, qBlk, kBlk of them; the input buffers are left as
  they were.  Each output buffer is first read (the value is dropped) and then stored over its whole extent, so
  what it held before does not matter.
-/
import proofs.«419744_j566935683421_1_alg».proof.Proof.K.Pay
import proofs.«419744_j566935683421_1_alg».proof.Proof.Gen.Kernel.Skeleton
import proofs.«419744_j566935683421_1_alg».proof.Proof.Gen.Kernel.Launch
import proofs.«419744_j566935683421_1_alg».proof.Proof.Gen.Kernel.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Loads and stores over a buffer's whole extent -/

/-- The all-zero offsets of ranks one, two and three. -/
theorem zeros1 : (![0] : Fin 1 → ℕ) = fun _ => 0 := funext fun a => by fin_cases a <;> rfl
theorem zeros2 : (![0, 0] : Fin 2 → ℕ) = fun _ => 0 := funext fun a => by fin_cases a <;> rfl
theorem zeros3 : (![0, 0, 0] : Fin 3 → ℕ) = fun _ => 0 := funext fun a => by fin_cases a <;> rfl

section Whole

variable {sg : RefSig} {κ : Kind} {sp : Space} {S : Shape} {e : EltTy} {Val : EltTy → Type}

/-- A load through the rectangle that starts at the origin and has the buffer's own extents reads the contents. -/
theorem readAt_all (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- One store through that rectangle leaves its payload, whatever the buffer held before. -/
theorem read_store_all [∀ e, Nonempty (Val e)] (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h inb]

end Whole

/-! ## The body's triple -/

set_option maxHeartbeats 1000000 in
/-- The kernel body on whole memrefs: the five inputs at given contents, each output buffer at some contents.
    It runs to the continuation with the inputs as they were and the outputs at the four blocks of the
    projection tile.  The loads and the stores all go through the whole extent of their buffer, so a load reads
    the contents and a store leaves its payload. -/
theorem sound_kernel0 (c : Dev nD) (E : Set ℕ) (i : grid0.Coords)
    (arg2 : Memref sig .tc .vmem S1x512x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512x2048 .bf16) (harg5 : arg5.IsWhole)
    (arg6 : Memref sig .tc .vmem S2048 .f32) (harg6 : arg6.IsWhole) (arg7 : Memref sig .tc .vmem S1x512x512 .f32) (harg7 : arg7.IsWhole)
    (arg8 : Memref sig .tc .vmem S1x512x512 .bf16) (harg8 : arg8.IsWhole) (arg9 : Memref sig .tc .vmem S1x512x512 .bf16) (harg9 : arg9.IsWhole)
    (arg10 : Memref sig .tc .vmem S1x512x512 .bf16) (harg10 : arg10.IsWhole)
    (x : Vec F S1x512x512 .f32) (g b : Vec F S512 .f32) (w : Vec F S512x2048 .bf16) (bias : Vec F S2048 .f32) (K : PUnit → sProp 𝕄) :
    iprop(owns (c : Thread nD τ) arg2 fullShare x ∗ owns (c : Thread nD τ) arg3 fullShare g ∗ owns (c : Thread nD τ) arg4 fullShare b
        ∗ owns (c : Thread nD τ) arg5 fullShare w ∗ owns (c : Thread nD τ) arg6 fullShare bias
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x ∗ owns (c : Thread nD τ) arg3 fullShare g ∗ owns (c : Thread nD τ) arg4 fullShare b
            ∗ owns (c : Thread nD τ) arg5 fullShare w ∗ owns (c : Thread nD τ) arg6 fullShare bias
            ∗ owns (c : Thread nD τ) arg7 fullShare (uBlk x g b w bias) ∗ owns (c : Thread nD τ) arg8 fullShare (vBlk x g b w bias)
            ∗ owns (c : Thread nD τ) arg9 fullShare (qBlk x g b w bias) ∗ owns (c : Thread nD τ) arg10 fullShare (kBlk x g b w bias)) -∗ K ⟨⟩))
      ⊢ wp frame (wpE (defs₀ (F := F)) Variants.none c none) E
          (cc0_qkvu_proj_kernel i arg2 harg2 arg3 harg3 arg4 harg4 arg5 harg5 arg6 harg6 arg7 harg7 arg8 harg8 arg9 harg9 arg10 harg10) K := by
  simp only [cc0_qkvu_proj_kernel_eq_skeleton]; unfold cc0_qkvu_proj_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  isplitl [H8]
  · iexists _; isplitr
    swap; · iexact H8
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  isplitl [H9]
  · iexists _; isplitr
    swap; · iexact H9
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  iexists _; isplitr
  swap; · iexact H10
  ipureintro
  rw [read_store_all (S := S1x512x512) _ _ zeros3]
  simp only [readAt_all (S := S1x512x512) _ _ zeros3, readAt_all (S := S512) _ _ zeros1, readAt_all (S := S512x2048) _ _ zeros2, readAt_all (S := S2048) _ _ zeros1]
  rfl

/-! ## The pipeline's proof data -/

/-- The proof data of the projection pipeline on core `c`: the arrays as the region finds them; after the body at
    point `t` each input's buffer at its block and the four outputs' at the blocks of the projection tile of the
    input blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => uBlk (iblk0 V c 0 t) (iblk0 V c 1 t) (iblk0 V c 2 t) (iblk0 V c 3 t) (iblk0 V c 4 t)
    | ⟨6, _⟩ => vBlk (iblk0 V c 0 t) (iblk0 V c 1 t) (iblk0 V c 2 t) (iblk0 V c 3 t) (iblk0 V c 4 t)
    | ⟨7, _⟩ => qBlk (iblk0 V c 0 t) (iblk0 V c 1 t) (iblk0 V c 2 t) (iblk0 V c 3 t) (iblk0 V c 4 t)
    | ⟨8, _⟩ => kBlk (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = uBlk (iblk0 V c 0 t) (iblk0 V c 1 t) (iblk0 V c 2 t) (iblk0 V c 3 t) (iblk0 V c 4 t) := by dsimp only [dat0]
theorem after0_6 (c : Dev nD) (t : Fin cfg0.N) : (dat0 V c).after 6 t = vBlk (iblk0 V c 0 t) (iblk0 V c 1 t) (iblk0 V c 2 t) (iblk0 V c 3 t) (iblk0 V c 4 t) := by dsimp only [dat0]
theorem after0_7 (c : Dev nD) (t : Fin cfg0.N) : (dat0 V c).after 7 t = qBlk (iblk0 V c 0 t) (iblk0 V c 1 t) (iblk0 V c 2 t) (iblk0 V c 3 t) (iblk0 V c 4 t) := by dsimp only [dat0]
theorem after0_8 (c : Dev nD) (t : Fin cfg0.N) : (dat0 V c).after 8 t = kBlk (iblk0 V c 0 t) (iblk0 V c 1 t) (iblk0 V c 2 t) (iblk0 V c 3 t) (iblk0 V c 4 t) := by dsimp only [dat0]

/-! ## The inputs' buffers when the body is called -/

/-- Each input's current buffer holds its block at every point, whether the block was fetched there or was already
    in place: the body leaves the inputs as they were, and an input that is not fetched has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Defs.lean ====
/-
  The attention kernel's function at one grid point (b, qi, kvi), run on arbitrary whole buffers: the vocabulary its
  five control cases are stated in.

  The point's three conditionals: kvi = 0 (reset the accumulator), kvi ≤ qi (add this tile pair's contribution),
  kvi = 3 (write the output block from the accumulator). `scrAfter` and `outAfter` say what the accumulator and the
  output block hold after the point as functions of what they held before; `held` is the table and the nine window
  buffers at given contents. Small facts: a store through the whole-shape rectangle reads back its payload, and the
  table word the kernel loads is the table's entry at the batch coordinate.
-/
import proofs.«419744_j566935683421_1_alg».proof.Proof.K.Pay
import proofs.«419744_j566935683421_1_alg».proof.Proof.Gen.Kernel.Skeleton
import proofs.«419744_j566935683421_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The first conditional's condition (kvi = 0), as the kernel computes it from the point. -/
abbrev k1_cond1 (i : grid1.Coords) : BitVec 1 :=
  Scalar.cmpi .ne (Scalar.extui (Scalar.cmpi .eq (BitVec.ofNat 32 (i 2).val) 0#32)) 0#32

/-- The word of the sequence-length table the point reads: the one at its batch coordinate. -/
def lenAt (T : Vec F S8 .i32) (i : grid1.Coords) : Elt F .i32 := T (ValueIdx.ix1 (n := 8) (i 0))

/-- This tile pair's contribution added to accumulator contents `S`, at the point's coordinates and table word. -/
abbrev accAt (i : grid1.Coords) (T : Vec F S8 .i32) (q k v : Vec F S1x512x512 .bf16) (S : Vec F S512x512 .f32) :
    Vec F S512x512 .f32 :=
  accStep (BitVec.ofNat 32 (i 1).val) (BitVec.ofNat 32 (i 2).val) (lenAt T i) q k v S

/-- The nine window buffers and the table as the kernel finds them, the accumulator apart: the table at `T`, the
    q, k, v, u, x blocks, the output weights and the layer-norm weights at their contents, the output block at `X`. -/
def held (c : Dev nD) (arg3 : Memref sig .tc .smem S8 .i32) (arg4 arg5 arg6 : Memref sig .tc .vmem S1x512x512 .bf16)
    (arg7 arg8 : Memref sig .tc .vmem S1x512x512 .f32) (arg9 : Memref sig .tc .vmem S1536x512 .bf16)
    (arg10 arg11 : Memref sig .tc .vmem S512 .f32) (arg12 : Memref sig .tc .vmem S1x512x512 .f32)
    (T : Vec F S8 .i32) (q k v : Vec F S1x512x512 .bf16) (u x : Vec F S1x512x512 .f32) (ow : Vec F S1536x512 .bf16)
    (g2 b2 : Vec F S512 .f32) (X : Vec F S1x512x512 .f32) : sProp 𝕄 :=
  iprop(owns (c : Thread nD τ) arg3 fullShare T ∗ owns (c : Thread nD τ) arg4 fullShare q ∗ owns (c : Thread nD τ) arg5 fullShare k
    ∗ owns (c : Thread nD τ) arg6 fullShare v ∗ owns (c : Thread nD τ) arg7 fullShare u ∗ owns (c : Thread nD τ) arg8 fullShare x
    ∗ owns (c : Thread nD τ) arg9 fullShare ow ∗ owns (c : Thread nD τ) arg10 fullShare g2 ∗ owns (c : Thread nD τ) arg11 fullShare b2
    ∗ owns (c : Thread nD τ) arg12 fullShare X)

/-- What the accumulator holds after the point, from what it held before: reset if kvi = 0, then the contribution
    added if kvi ≤ qi. -/
def scrAfter (i : grid1.Coords) (T : Vec F S8 .i32) (q k v : Vec F S1x512x512 .bf16) (S : Vec F S512x512 .f32) :
    Vec F S512x512 .f32 :=
  if k1_cond2 i = 1#1 then accAt i T q k v (if k1_cond1 i = 1#1 then zeroAcc else S)
  else (if k1_cond1 i = 1#1 then zeroAcc else S)

/-- What the output block holds after the point: written from the accumulator if kvi = 3, else as it was. -/
def outAfter (i : grid1.Coords) (T : Vec F S8 .i32) (q k v : Vec F S1x512x512 .bf16) (u x : Vec F S1x512x512 .f32)
    (ow : Vec F S1536x512 .bf16) (g2 b2 : Vec F S512 .f32) (X : Vec F S1x512x512 .f32) (S : Vec F S512x512 .f32) :
    Vec F S1x512x512 .f32 :=
  if k1_cond3 i = 1#1 then finBlk (scrAfter i T q k v S) g2 b2 u x ow else X

/-! ## Whole-shape rectangles -/

/-- The zero offsets of each rank the kernel's whole-buffer loads and stores use, as constant functions. -/
theorem hz3 : (![0, 0, 0] : Fin S1x512x512.rank → ℕ) = fun _ => 0 := by funext a; fin_cases a <;> rfl
theorem hz2 : (![0, 0] : Fin S512x512.rank → ℕ) = fun _ => 0 := by funext a; fin_cases a <;> rfl
theorem hz2w : (![0, 0] : Fin S1536x512.rank → ℕ) = fun _ => 0 := by funext a; fin_cases a <;> rfl
theorem hz1 : (![0] : Fin S512.rank → ℕ) = fun _ => 0 := by funext a; fin_cases a <;> rfl

/-- A buffer whose newest store went through the whole-shape rectangle reads back that store's payload. -/
theorem read_writes_cons_unit_zero {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- The word the kernel loads from the table at the point's offset is the table's entry at the batch coordinate. -/
theorem ld_lenAt (T : Vec F S8 .i32) (i : grid1.Coords) (inb : ∀ a, (k1_off1 i) a + S1.size a ≤ S8.size a)
    (h : 0 < (Rect.unit (s := S8) (k1_off1 i) S1.size inb).shape.numel) :
    View.ld T (Rect.unit (s := S8) (k1_off1 i) S1.size inb) (Shape.Idx.first h) = lenAt T i := by
  unfold lenAt
  show T _ = T _
  congr 1
  funext a
  apply Fin.ext
  show (k1_off1 i) a + 1 * 0 = (ValueIdx.ix1 (n := 8) (i 0) a).val
  rw [k1_off1_eq]
  fin_cases a
  rfl

end Cert.Kernel.Hand

end
-- ==== Proof.K.R1RunA.lean ====
/-
  The attention kernel's function at a point with kvi = 0 (so kvi ≤ qi and kvi ≠ 3): the accumulator is reset to
  zeros, the point's table word and the q, k, v tiles are read, and the tile pair's contribution is added to the
  zeroed accumulator; nothing else is written.
-/
import proofs.«419744_j566935683421_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case A (kvi = 0): the accumulator is reset, then the contribution is added. -/
theorem sound_kernel1_A (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : k1_cond1 i = 1#1) (h2 : k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare (accAt i T q k v zeroAcc)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; swap; · iexact H13
    ipureintro
    rw [read_writes_cons_unit_zero _ _ hz2]
    sl_unfold_run_names
    unfold accAt accStep zeroAcc
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]

end Cert.Kernel.Hand

end
-- ==== Proof.K.R1RunB.lean ====
/-
  The attention kernel's function at a point with 0 < kvi ≤ qi, kvi ≠ 3: the point's table word and the q, k, v
  tiles are read and the tile pair's contribution is added to what the accumulator held; nothing else is written.
-/
import proofs.«419744_j566935683421_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case B (0 < kvi ≤ qi, kvi ≠ 3): the contribution is added to what the accumulator held. -/
theorem sound_kernel1_B (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare (accAt i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; swap; · iexact H13
    ipureintro
    rw [read_writes_cons_unit_zero _ _ hz2]
    sl_unfold_run_names
    unfold accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1]
    rw [ld_lenAt]

end Cert.Kernel.Hand

end
-- ==== Proof.K.R1RunC.lean ====
/-
  The attention kernel's function at a point with kvi = 3 = qi: the tile pair's contribution is added to what the
  accumulator held, then the output block is written from the accumulator just stored (read back), the layer-norm
  weights, u, x and the output weights.
-/
import proofs.«419744_j566935683421_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case C (kvi = 3 = qi): the contribution is added, then the output block is written from the accumulator. -/
theorem sound_kernel1_C (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : k1_cond2 i = 1#1) (h3 : k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (finBlk (accAt i T q k v S) g2 b2 u x ow)
            ∗ owns (c : Thread nD τ) arg13 fullShare (accAt i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; swap; · iexact H12
    ipureintro
    rw [read_writes_cons_unit_zero _ _ hz3]
    sl_unfold_run_names
    unfold finBlk accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]
  · iexists _; isplitr; swap; · iexact H13
    ipureintro
    sl_unfold_run_names
    rw [read_writes_cons_unit_zero _ _ hz2]
    unfold accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]

end Cert.Kernel.Hand

end
-- ==== Proof.K.R1RunD.lean ====
/-
  The attention kernel's function at a point with kvi > qi, kvi ≠ 3: none of its three conditionals is taken;
  every buffer is handed back as it was.
-/
import proofs.«419744_j566935683421_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case D (kvi > qi, kvi ≠ 3): nothing is read or written. -/
theorem sound_kernel1_D (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : ¬ k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare S) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; · ipureintro; exact harg13.read_unread _
    iexact H13

end Cert.Kernel.Hand

end
-- ==== Proof.K.R1RunE.lean ====
/-
  The attention kernel's function at a point with kvi = 3 > qi: no contribution is added; the output block is
  written from what the accumulator held, the layer-norm weights, u, x and the output weights.
-/
import proofs.«419744_j566935683421_1_alg».proof.Proof.K.R1Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case E (kvi = 3 > qi): the output block is written from what the accumulator held. -/
theorem sound_kernel1_E (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : ¬ k1_cond2 i = 1#1) (h3 : k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (finBlk S g2 b2 u x ow)
            ∗ owns (c : Thread nD τ) arg13 fullShare S) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; swap; · iexact H12
    ipureintro
    rw [read_writes_cons_unit_zero _ _ hz3]
    sl_unfold_run_names
    unfold finBlk
    simp only [View.readAt_eq_ld, Memref.IsWhole.read_unread, View.ld_unit_zero (S := S512x512) hz2, View.ld_unit_zero (S := S1x512x512) hz3, View.ld_unit_zero (S := S1536x512) hz2w, View.ld_unit_zero (S := S512) hz1]
  · iexists _; isplitr; · ipureintro; exact harg13.read_unread _
    iexact H13

end Cert.Kernel.Hand

end
-- ==== Proof.K.R1Run.lean ====
/-
  The attention kernel's function at ANY grid point (b, qi, kvi), on arbitrary whole buffers: it hands every input
  back as it was, leaves the accumulator at `scrAfter` of what it held and the output block at `outAfter` — the five
  control cases (modules R1RunA … R1RunE) in one statement. The three assignments of the conditionals the five cases
  leave out do not occur: on the grid kvi = 0 forces kvi ≤ qi and kvi ≠ 3.
-/
import proofs.«419744_j566935683421_1_alg».proof.Proof.K.R1RunA
import proofs.«419744_j566935683421_1_alg».proof.Proof.K.R1RunB
import proofs.«419744_j566935683421_1_alg».proof.Proof.K.R1RunC
import proofs.«419744_j566935683421_1_alg».proof.Proof.K.R1RunD
import proofs.«419744_j566935683421_1_alg».proof.Proof.K.R1RunE

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- On the grid, kvi = 0 gives kvi ≤ qi and kvi ≠ 3: where the accumulator is reset the contribution is added and
    the output block is not written. -/
theorem cond1_imp : ∀ i : grid1.Coords, k1_cond1 i = 1#1 → k1_cond2 i = 1#1 ∧ ¬ k1_cond3 i = 1#1 := by decide +kernel

/-- Every point of the grid: the five cases in one statement. -/
theorem sound_kernel1 (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)

    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (outAfter i T q k v u x ow g2 b2 X S)
            ∗ owns (c : Thread nD τ) arg13 fullShare (scrAfter i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  by_cases h1 : k1_cond1 i = 1#1
  · obtain ⟨h2, h3⟩ := cond1_imp i h1
    unfold outAfter scrAfter
    simp only [if_pos h1, if_pos h2, if_neg h3]
    exact sound_kernel1_A 𝒱 c i arg3 harg3 arg4 harg4 arg5 harg5 arg6 harg6 arg7 harg7 arg8 harg8 arg9 harg9 arg10 harg10 arg11 harg11 arg12 harg12 arg13 harg13 h1 h2 h3 T q k v u x ow g2 b2 X S E K
  · by_cases h2 : k1_cond2 i = 1#1
    · by_cases h3 : k1_cond3 i = 1#1
      · unfold outAfter scrAfter
        simp only [if_neg h1, if_pos h2, if_pos h3]
        exact sound_kernel1_C 𝒱 c i arg3 harg3 arg4 harg4 arg5 harg5 arg6 harg6 arg7 harg7 arg8 harg8 arg9 harg9 arg10 harg10 arg11 harg11 arg12 harg12 arg13 harg13 h1 h2 h3 T q k v u x ow g2 b2 X S E K
      · unfold outAfter scrAfter
        simp only [if_neg h1, if_pos h2, if_neg h3]
        exact sound_kernel1_B 𝒱 c i arg3 harg3 arg4 harg4 arg5 harg5 arg6 harg6 arg7 harg7 arg8 harg8 arg9 harg9 arg10 harg10 arg11 harg11 arg12 harg12 arg13 harg13 h1 h2 h3 T q k v u x ow g2 b2 X S E K
    · by_cases h3 : k1_cond3 i = 1#1
      · unfold outAfter scrAfter
        simp only [if_neg h1, if_neg h2, if_pos h3]
        exact sound_kernel1_E 𝒱 c i arg3 harg3 arg4 harg4 arg5 harg5 arg6 harg6 arg7 harg7 arg8 harg8 arg9 harg9 arg10 harg10 arg11 harg11 arg12 harg12 arg13 harg13 h1 h2 h3 T q k v u x ow g2 b2 X S E K
      · unfold outAfter scrAfter
        simp only [if_neg h1, if_neg h2, if_neg h3]
        exact sound_kernel1_D 𝒱 c i arg3 harg3 arg4 harg4 arg5 harg5 arg6 harg6 arg7 harg7 arg8 harg8 arg9 harg9 arg10 harg10 arg11 harg11 arg12 harg12 arg13 harg13 h1 h2 h3 T q k v u x ow g2 b2 X S E K

end Cert.Kernel.Hand

end
-- ==== Proof.K.R1Points.lean ====
/-
  The attention kernel's region: the scoped buffers and the table it is handed.

  Of the core's scoped buffers that are no staging buffer of this region, one is the accumulator and the others
  are the projection region's staging buffers; the region is handed all of them at some contents, so they split
  into the others and the accumulator owned at some contents, and join back.  The region's one table, the
  sequence lengths, is held whole at its contents: that is its buffer owned at them.
-/
import proofs.«419744_j566935683421_1_alg».proof.Proof.Gen.Kernel.Launch
import Idealize.ShloMosaic.Lib.Pipeline.Frame
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (a : (pcfg1 (F := F)).Adm)

/-! ## The scoped buffers the region is handed -/

/-- The accumulator, a whole scoped buffer of the kernel's own. -/
abbrev scM1 : Memref sig .tc .vmem S512x512 .f32 := Memref.whole cc1_scratch0

/-- The core's scoped buffers that are neither a staging buffer of this region nor the accumulator: the other
    region's staging buffers, each at some contents. -/
def scopedOthers1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f))

/-- The scoped buffers outside this region's staging buffers are those and the accumulator at some contents. -/
theorem scopedRest1_split (c : Dev nD) :
    (Pipeline.scopedRest (Ix := Unit) (Name := ℕ) (U := UR sig nD τ) (Lvl := ℕ) (Val := Elt F) spec1 c : sProp 𝕄)
      ⊢ iprop(scopedOthers1 (F := F) c ∗ ∃ d, owns (c : Thread nD τ) scM1 fullShare d) := by
  rw [scopedRest1_eq]; unfold scopedOthers1; simp only [scM1, owns_whole]
  iintro ⟨H0, H1, H2, H3, H4, H5, H6, H7, H8, H9, H10, H11, H12, H13, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iexact HS

/-- And back. -/
theorem scopedRest1_join (c : Dev nD) :
    (iprop(scopedOthers1 (F := F) c ∗ ∃ d, owns (c : Thread nD τ) scM1 fullShare d) : sProp 𝕄)
      ⊢ Pipeline.scopedRest (Ix := Unit) (Name := ℕ) (U := UR sig nD τ) (Lvl := ℕ) (Val := Elt F) spec1 c := by
  rw [scopedRest1_eq]; unfold scopedOthers1; simp only [scM1, owns_whole]
  iintro ⟨⟨H0, H1, H2, H3, H4, H5, H6, H7, H8, H9, H10, H11, H12, H13⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HS

/-! ## The table the region is handed -/

/-- The region's one table, held whole at the full share at its contents, is its buffer owned at them. -/
theorem prefHeld1_eq (c : Dev nD) :
    (Pipeline.prefHeld (Ix := Unit) (Name := ℕ) (U := UR sig nD τ) (Lvl := ℕ) pre1 c (fun _ => fullShare) a.1 : sProp 𝕄)
      = owns (c : Thread nD τ) (Memref.whole main_arg1 : Memref sig .tc .smem S8 .i32) fullShare (a.1 0) := by
  unfold Pipeline.prefHeld
  rw [show (Finset.univ : Finset (Fin pre1.K)) = {(0 : Fin 1)} from by decide, bigSep_singleton]
  exact (owns_whole (c : Thread nD τ) main_arg1 fullShare (a.1 0)).symm

end Cert.Kernel.Hand

end
-- ==== Proof.K.R1Dat.lean ====
/-
  The attention kernel's region: when its output window is written back, its proof data and its body obligation.

  The grid has 8 × 4 × 4 points (b, qi, kvi), visited in row-major order, so at position t the coordinates are
  b = t / 16, qi = t / 4 mod 4, kvi = t mod 4.  The accumulator is carried from point to point: it is reset at
  kvi = 0, the tile pair's contribution is added when kvi ≤ qi, and at kvi = 3 the output block is computed from it
  and stored; the output window is written back exactly at those points and is left alone at the others.  All
  eight input windows hold their array's block at every point.  The body reads one word of the sequence-length
  table, the one at the batch coordinate.
-/
import proofs.«419744_j566935683421_1_alg».proof.Proof.K.Pay
import proofs.«419744_j566935683421_1_alg».proof.Proof.K.R1Run
import proofs.«419744_j566935683421_1_alg».proof.Proof.K.R1Points
import proofs.«419744_j566935683421_1_alg».proof.Proof.Gen.Kernel.Skeleton
import proofs.«419744_j566935683421_1_alg».proof.Proof.Gen.Kernel.Launch
import Idealize.ShloMosaic.Lib.Pipeline.Frame
import Idealize.ShloMosaic.Lib.Pipeline.FrameBody
import Idealize.ShloMosaic.Lib.Pipeline.Kit
import Idealize.ShloMosaic.Lib.Pipeline.Dat
import Idealize.ShloMosaic.Lib.Pipeline.TableIdle
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The grid's points and the body's conditions, in closed form -/

/-- The batch coordinate of position `t`. -/
theorem coords1_0 : ∀ t : Fin grid1.N, (grid1.coords t 0).val = t.val / 16 := by decide +kernel
/-- The q-tile coordinate of position `t`. -/
theorem coords1_1 : ∀ t : Fin grid1.N, (grid1.coords t 1).val = t.val / 4 % 4 := by decide +kernel
/-- The kv-tile coordinate of position `t`. -/
theorem coords1_2 : ∀ t : Fin grid1.N, (grid1.coords t 2).val = t.val % 4 := by decide +kernel

/-- The reset condition holds exactly at kvi = 0. -/
theorem hcond1_1 : ∀ t : Fin grid1.N, k1_cond1 (grid1.coords t) = 1#1 ↔ t.val % 4 = 0 := by decide +kernel
/-- The accumulate condition holds exactly at kvi ≤ qi. -/
theorem hcond1_2 : ∀ t : Fin grid1.N, k1_cond2 (grid1.coords t) = 1#1 ↔ t.val % 4 ≤ t.val / 4 % 4 := by decide +kernel
/-- The finish condition holds exactly at kvi = 3. -/
theorem hcond1_3 : ∀ t : Fin grid1.N, k1_cond3 (grid1.coords t) = 1#1 ↔ t.val % 4 = 3 := by decide +kernel

variable (V : (c : Dev nD) → (b : Ref sig .tc) → Buf (Elt F) ((c : Thread nD τ).loc b)) (a : (pcfg1 (F := F)).Adm)

/-! ## When the output window is idle and when it is written back -/

/-- No input window is ever idle; the output window is idle exactly away from kvi = 3. -/
theorem idle1_8 : ∀ t : Fin (cfg1 a).N, (cfg1 a).idle (8 : Fin 9) ((cfg1 a).grid.coords t) = true ↔ ¬ t.val % 4 = 3 :=
  (by decide +kernel : ∀ t : Fin grid1.N, idle1 8 (grid1.coords t) = true ↔ ¬ t.val % 4 = 3)
/-- The output window is written back exactly at kvi = 3: there the next point's block differs, or the grid ends. -/
theorem flush1_8 : ∀ t : Fin (cfg1 a).N, ((cfg1 a).win (8 : Fin 9)).flush t = true ↔ t.val % 4 = 3 :=
  (by decide +kernel : ∀ t : Fin grid1.N, Pipeline.Window.flushOf grid1 true cc1_transform_8 t = true ↔ t.val % 4 = 3)

/-! ## The windows' blocks and the table word -/

/-- Window `w`'s block at position `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The word of the sequence-length table the body reads at position `t`: the one at the batch coordinate. -/
def lenAt1 (t : Fin (cfg1 a).N) : Elt F .i32 := lenAt (a.1 0) (grid1.coords t)

/-! ## What the accumulator and the output block hold after each point -/

/-- The accumulator after the body at position `t`, from what it held before: reset at kvi = 0, then the tile
    pair's contribution added when kvi ≤ qi. -/
def accNext (c : Dev nD) (t : Fin (cfg1 a).N) (S : Vec F S512x512 .f32) : Vec F S512x512 .f32 :=
  if t.val % 4 ≤ t.val / 4 % 4 then
    accStep (BitVec.ofNat 32 (t.val / 4 % 4)) (BitVec.ofNat 32 (t.val % 4)) (lenAt1 a t) (iblk1 V a c 0 t) (iblk1 V a c 1 t) (iblk1 V a c 2 t)
      (if t.val % 4 = 0 then zeroAcc else S)
  else (if t.val % 4 = 0 then zeroAcc else S)

/-- The output block computed from accumulator contents `S` at position `t`. -/
def outNext (c : Dev nD) (t : Fin (cfg1 a).N) (S : Vec F S512x512 .f32) : Vec F S1x512x512 .f32 :=
  finBlk S (iblk1 V a c 6 t) (iblk1 V a c 7 t) (iblk1 V a c 3 t) (iblk1 V a c 4 t) (iblk1 V a c 5 t)

/-- What the output block (first component) and the accumulator (second) hold after the body at position `n`, by
    recursion on the position.  The first component is what the body stores at kvi = 3; at the other points the
    output window is idle and nothing consults it. -/
def outsAt1 (c : Dev nD) : (n : ℕ) → n < (cfg1 a).N → Vec F S1x512x512 .f32 × Vec F S512x512 .f32
  | 0, h => (outNext V a c ⟨0, h⟩ (accNext V a c ⟨0, h⟩ zeroAcc), accNext V a c ⟨0, h⟩ zeroAcc)
  | n + 1, h => (outNext V a c ⟨n + 1, h⟩ (accNext V a c ⟨n + 1, h⟩ (outsAt1 c n (Nat.lt_of_succ_lt h)).2),
      accNext V a c ⟨n + 1, h⟩ (outsAt1 c n (Nat.lt_of_succ_lt h)).2)

/-- The accumulator's recursion: reset at kvi = 0, the contribution added at kvi ≤ qi, over what the point before left. -/
theorem outsAt1_snd (c : Dev nD) (t : Fin (cfg1 a).N) :
    (outsAt1 V a c t.val t.isLt).2 =
      if t.val % 4 ≤ t.val / 4 % 4 then
        accStep (BitVec.ofNat 32 (t.val / 4 % 4)) (BitVec.ofNat 32 (t.val % 4)) (lenAt1 a t) (iblk1 V a c 0 t) (iblk1 V a c 1 t) (iblk1 V a c 2 t)
          (if t.val % 4 = 0 then zeroAcc else (outsAt1 V a c (t.val - 1) (Nat.lt_of_le_of_lt (Nat.sub_le _ _) t.isLt)).2)
      else (if t.val % 4 = 0 then zeroAcc else (outsAt1 V a c (t.val - 1) (Nat.lt_of_le_of_lt (Nat.sub_le _ _) t.isLt)).2) := by
  obtain ⟨n, hn⟩ := t
  cases n with
  | zero =>
    show accNext V a c ⟨0, hn⟩ zeroAcc = _
    unfold accNext
    simp only [Nat.zero_mod, ↓reduceIte]
  | succ n => rfl

/-- The output block is computed from the accumulator as the point leaves it. -/
theorem outsAt1_fst (c : Dev nD) (t : Fin (cfg1 a).N) :
    (outsAt1 V a c t.val t.isLt).1 = finBlk (outsAt1 V a c t.val t.isLt).2 (iblk1 V a c 6 t) (iblk1 V a c 7 t) (iblk1 V a c 3 t) (iblk1 V a c 4 t) (iblk1 V a c 5 t) := by
  obtain ⟨n, hn⟩ := t
  cases n with
  | zero => rfl
  | succ n => rfl

/-! ## The region invariant -/

/-- The region invariant before position `n`: the generator register at some state, the sequence-length table
    whole at its contents, and the scoped buffers — before the first point each at some contents, afterwards the
    accumulator at what the point before left in it and the others at some contents. -/
def PhiS1 (c : Dev nD) : (n : ℕ) → n ≤ (cfg1 a).N → sProp 𝕄
  | 0, _ => iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c)
  | n + 1, hn => iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c n hn).2)

theorem PhiS1_zero (c : Dev nD) (n : ℕ) (h : n ≤ (cfg1 a).N) (hz : n = 0) :
    PhiS1 V a c n h = iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) := by
  subst hz; rfl

/-- After position `n` (before position `n + 1`): the accumulator at that point's contents. -/
theorem PhiS1_succ (c : Dev nD) (n : ℕ) (hn : n < (cfg1 a).N) :
    PhiS1 V a c (n + 1) hn = iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c n hn).2) := rfl

/-- Before a position that is not the first: the accumulator at what the point before left. -/
theorem PhiS1_pos (c : Dev nD) (n : ℕ) (h : n ≤ (cfg1 a).N) (hz : n ≠ 0) :
    PhiS1 V a c n h = iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c (n - 1) (by omega)).2) := by
  cases n with
  | zero => exact absurd rfl hz
  | succ n => rfl

/-- What the kernel leaves in the accumulator at position `t` is the recursion's step. -/
theorem scrAfter_eq (c : Dev nD) (t : Fin (cfg1 a).N) (S : Vec F S512x512 .f32) :
    scrAfter (grid1.coords t) (a.1 0) (iblk1 V a c 0 t) (iblk1 V a c 1 t) (iblk1 V a c 2 t) S = accNext V a c t S := by
  unfold scrAfter accNext accAt lenAt1
  simp only [hcond1_1 t, hcond1_2 t, coords1_1 t, coords1_2 t]

/-- The accumulator's step does not look at what it held before when it is reset; otherwise it is taken over what
    the point before left. -/
theorem accNext_eq (c : Dev nD) (t : Fin (cfg1 a).N) (S : Vec F S512x512 .f32) (hS : t.val ≠ 0 → S = (outsAt1 V a c (t.val - 1) (Nat.lt_of_le_of_lt (Nat.sub_le _ _) t.isLt)).2) :
    accNext V a c t S = (outsAt1 V a c t.val t.isLt).2 := by
  rw [outsAt1_snd]
  unfold accNext
  by_cases hz : t.val = 0
  · have h0 : t.val % 4 = 0 := by rw [hz]
    simp only [h0, ↓reduceIte]
  · rw [hS hz]

/-- What the kernel leaves in the output block at position `t`: the block computed there at kvi = 3, else what
    it held. -/
theorem outAfter_eq (c : Dev nD) (t : Fin (cfg1 a).N) (S : Vec F S512x512 .f32) (hS : t.val ≠ 0 → S = (outsAt1 V a c (t.val - 1) (Nat.lt_of_le_of_lt (Nat.sub_le _ _) t.isLt)).2) (X : Vec F S1x512x512 .f32) :
    outAfter (grid1.coords t) (a.1 0) (iblk1 V a c 0 t) (iblk1 V a c 1 t) (iblk1 V a c 2 t) (iblk1 V a c 3 t) (iblk1 V a c 4 t) (iblk1 V a c 5 t) (iblk1 V a c 6 t) (iblk1 V a c 7 t) X S
      = if t.val % 4 = 3 then (outsAt1 V a c t.val t.isLt).1 else X := by
  unfold outAfter
  rw [scrAfter_eq, accNext_eq V a c t S hS, outsAt1_fst]
  simp only [hcond1_3 t]

/-- The invariant before position `t`, opened: the accumulator at some contents, which after the first point are
    what the point before left. -/
theorem PhiS1_open (c : Dev nD) (t : Fin (cfg1 a).N) :
    PhiS1 V a c t.val (Nat.le_of_lt t.isLt) ⊢ iprop(∃ S : Vec F S512x512 .f32,
      ⌜t.val ≠ 0 → S = (outsAt1 V a c (t.val - 1) (Nat.lt_of_le_of_lt (Nat.sub_le _ _) t.isLt)).2⌝
      ∗ (∃ r, prngReg c r) ∗ owns (c : Thread nD τ) (Memref.whole main_arg1 : Memref sig .tc .smem S8 .i32) fullShare (a.1 0) ∗ scopedOthers1 (F := F) c ∗ owns (c : Thread nD τ) scM1 fullShare S) := by
  by_cases hz : t.val = 0
  · rw [PhiS1_zero V a c _ _ hz, prefHeld1_eq]
    iintro ⟨Hg, Hp, Hr⟩
    have hsp := scopedRest1_split (F := F) c
    ihave Hr' := hsp $$ Hr
    icases Hr' with ⟨Ho, ⟨%S, HS⟩⟩
    iexists S
    isplitr
    · ipureintro; intro h; exact absurd hz h
    isplitl [Hg]; · iexact Hg
    isplitl [Hp]; · iexact Hp
    isplitl [Ho]; · iexact Ho
    iexact HS
  · rw [PhiS1_pos V a c _ _ hz, prefHeld1_eq]
    iintro ⟨Hg, Hp, Ho, HS⟩
    iexists _
    isplitr
    · ipureintro; intro _; rfl
    isplitl [Hg]; · iexact Hg
    isplitl [Hp]; · iexact Hp
    isplitl [Ho]; · iexact Ho
    iexact HS

/-! ## The proof data -/

/-- The proof data of the region on core `c`: the arrays as the region finds them; after the body at position `t`
    each input's buffer at its block and the output's at the block computed there; the invariant above; nothing
    owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => iblk1 V a c 5 t
    | ⟨6, _⟩ => iblk1 V a c 6 t
    | ⟨7, _⟩ => iblk1 V a c 7 t
    | ⟨8, _⟩ => (outsAt1 V a c t.val t.isLt).1
  Φ t := PhiS1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 9) t = iblk1 V a c 0 t := by dsimp only [dat1]
theorem after1_1 (c : Dev nD) (t : Fin (cfg1 a).N) : (dat1 V a c).after (1 : Fin 9) t = iblk1 V a c 1 t := by dsimp only [dat1]
theorem after1_2 (c : Dev nD) (t : Fin (cfg1 a).N) : (dat1 V a c).after (2 : Fin 9) t = iblk1 V a c 2 t := by dsimp only [dat1]
theorem after1_3 (c : Dev nD) (t : Fin (cfg1 a).N) : (dat1 V a c).after (3 : Fin 9) t = iblk1 V a c 3 t := by dsimp only [dat1]
theorem after1_4 (c : Dev nD) (t : Fin (cfg1 a).N) : (dat1 V a c).after (4 : Fin 9) t = iblk1 V a c 4 t := by dsimp only [dat1]
theorem after1_5 (c : Dev nD) (t : Fin (cfg1 a).N) : (dat1 V a c).after (5 : Fin 9) t = iblk1 V a c 5 t := by dsimp only [dat1]
theorem after1_6 (c : Dev nD) (t : Fin (cfg1 a).N) : (dat1 V a c).after (6 : Fin 9) t = iblk1 V a c 6 t := by dsimp only [dat1]
theorem after1_7 (c : Dev nD) (t : Fin (cfg1 a).N) : (dat1 V a c).after (7 : Fin 9) t = iblk1 V a c 7 t := by dsimp only [dat1]
theorem after1_8 (c : Dev nD) (t : Fin (cfg1 a).N) : (dat1 V a c).after (8 : Fin 9) t = (outsAt1 V a c t.val t.isLt).1 := by dsimp only [dat1]

/-! ## The body obligation -/

/-- The invariant at a point's start, restated at `t.val`. -/
theorem PhiS1_castSucc (c : Dev nD) (t : Fin (cfg1 a).N) :
    (dat1 V a c).Φ t.castSucc = PhiS1 V a c t.val (Nat.le_of_lt t.isLt) := by
  dsimp only [dat1]; simp only [Fin.coe_castSucc]

/-- Each input's current staging buffer holds its block at every point, fetched there or not: where it is not
    fetched the block index has not moved since the point before. -/
theorem before1_0 (c : Dev nD) (t : Fin (cfg1 a).N) (d) : (dat1 V a c).before (0 : Fin 9) t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 9) t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before (2 : Fin 9) t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before (3 : Fin 9) t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin (cfg1 a).N) (d) : (dat1 V a c).before (4 : Fin 9) t d = iblk1 V a c 4 t :=
  ((dat1 V a c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin (cfg1 a).N) (d) : (dat1 V a c).before (5 : Fin 9) t d = iblk1 V a c 5 t :=
  ((dat1 V a c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin (cfg1 a).N) (d) : (dat1 V a c).before (6 : Fin 9) t d = iblk1 V a c 6 t :=
  ((dat1 V a c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin (cfg1 a).N) (d) : (dat1 V a c).before (7 : Fin 9) t d = iblk1 V a c 7 t :=
  ((dat1 V a c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

abbrev ms1_0 (t : Fin (cfg1 a).N) : Memref sig .tc .vmem S1x512x512 .bf16 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x512x512 .bf16 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x512x512 .bf16 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S1x512x512 .f32 := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) : Memref sig .tc .vmem S1x512x512 .f32 := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) : Memref sig .tc .vmem S1536x512 .bf16 := spec1_5.stage ((cfg1 a).slots t 5)
abbrev hs1_5 (t : Fin (cfg1 a).N) : (ms1_5 a t).IsWhole := hstage1_5 (((cfg1 a).slots t 5).cast nbuf1_5)
abbrev ms1_6 (t : Fin (cfg1 a).N) : Memref sig .tc .vmem S512 .f32 := spec1_6.stage ((cfg1 a).slots t 6)
abbrev hs1_6 (t : Fin (cfg1 a).N) : (ms1_6 a t).IsWhole := hstage1_6 (((cfg1 a).slots t 6).cast nbuf1_6)
abbrev ms1_7 (t : Fin (cfg1 a).N) : Memref sig .tc .vmem S512 .f32 := spec1_7.stage ((cfg1 a).slots t 7)
abbrev hs1_7 (t : Fin (cfg1 a).N) : (ms1_7 a t).IsWhole := hstage1_7 (((cfg1 a).slots t 7).cast nbuf1_7)
abbrev ms1_8 (t : Fin (cfg1 a).N) : Memref sig .tc .vmem S1x512x512 .f32 := spec1_8.stage ((cfg1 a).slots t 8)
abbrev hs1_8 (t : Fin (cfg1 a).N) : (ms1_8 a t).IsWhole := hstage1_8 (((cfg1 a).slots t 8).cast nbuf1_8)

/-- The kernel body at position `t`, on what the pipeline calls it with. -/
abbrev bodyAt1 (t : Fin (cfg1 a).N) : Prog (TpuEff nD τ sig (Elt F) Λ₀ .tc) PUnit :=
  cc1_sta_attention_kernel (grid1.coords t) (Memref.whole main_arg1) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) scM1 (Memref.isWhole_whole _)

/-- The kernel body at position `t`, over the accumulator at `S` and the output buffer at `X`: it returns the
    inputs as they were, the accumulator at the recursion's value and the output buffer at the block computed
    there when kvi = 3, else as it was. -/
theorem kernel_at (c : Dev nD) (t : Fin (cfg1 a).N) (S : Vec F S512x512 .f32) (hS : t.val ≠ 0 → S = (outsAt1 V a c (t.val - 1) (Nat.lt_of_le_of_lt (Nat.sub_le _ _) t.isLt)).2)
    (X : Vec F S1x512x512 .f32) (K : PUnit → sProp 𝕄) :
    iprop(held c (Memref.whole main_arg1) (ms1_0 a t) (ms1_1 a t) (ms1_2 a t) (ms1_3 a t) (ms1_4 a t) (ms1_5 a t) (ms1_6 a t) (ms1_7 a t) (ms1_8 a t) (a.1 0) (iblk1 V a c 0 t) (iblk1 V a c 1 t) (iblk1 V a c 2 t) (iblk1 V a c 3 t) (iblk1 V a c 4 t) (iblk1 V a c 5 t) (iblk1 V a c 6 t) (iblk1 V a c 7 t) X
        ∗ owns (c : Thread nD τ) scM1 fullShare S
        ∗ (iprop(held c (Memref.whole main_arg1) (ms1_0 a t) (ms1_1 a t) (ms1_2 a t) (ms1_3 a t) (ms1_4 a t) (ms1_5 a t) (ms1_6 a t) (ms1_7 a t) (ms1_8 a t) (a.1 0) (iblk1 V a c 0 t) (iblk1 V a c 1 t) (iblk1 V a c 2 t) (iblk1 V a c 3 t) (iblk1 V a c 4 t) (iblk1 V a c 5 t) (iblk1 V a c 6 t) (iblk1 V a c 7 t) (if t.val % 4 = 3 then (outsAt1 V a c t.val t.isLt).1 else X)
            ∗ owns (c : Thread nD τ) scM1 fullShare (outsAt1 V a c t.val t.isLt).2) -∗ K ⟨⟩))
      ⊢ wp frame (wpE (defs₀ (F := F)) Variants.none c none) Set.univ (bodyAt1 a t) K := by
  have hk := sound_kernel1 (Ix := Unit) (Name := ℕ) (U := UR sig nD τ) (Lvl := ℕ) Variants.none c (grid1.coords t)
    (Memref.whole main_arg1) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) scM1 (Memref.isWhole_whole _)
    (a.1 0) (iblk1 V a c 0 t) (iblk1 V a c 1 t) (iblk1 V a c 2 t) (iblk1 V a c 3 t) (iblk1 V a c 4 t) (iblk1 V a c 5 t) (iblk1 V a c 6 t) (iblk1 V a c 7 t) X S Set.univ K
  rw [outAfter_eq V a c t S hS X, scrAfter_eq, accNext_eq V a c t S hS] at hk
  exact hk

/-- What the body is called with at position `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before (0 : Fin 9) t d))
    ∗ (∃ d, owns (c : Thread nD τ) (ms1_1 a t) fullShare ((dat1 V a c).before (1 : Fin 9) t d))
    ∗ (∃ d, owns (c : Thread nD τ) (ms1_2 a t) fullShare ((dat1 V a c).before (2 : Fin 9) t d))
    ∗ (∃ d, owns (c : Thread nD τ) (ms1_3 a t) fullShare ((dat1 V a c).before (3 : Fin 9) t d))
    ∗ (∃ d, owns (c : Thread nD τ) (ms1_4 a t) fullShare ((dat1 V a c).before (4 : Fin 9) t d))
    ∗ (∃ d, owns (c : Thread nD τ) (ms1_5 a t) fullShare ((dat1 V a c).before (5 : Fin 9) t d))
    ∗ (∃ d, owns (c : Thread nD τ) (ms1_6 a t) fullShare ((dat1 V a c).before (6 : Fin 9) t d))
    ∗ (∃ d, owns (c : Thread nD τ) (ms1_7 a t) fullShare ((dat1 V a c).before (7 : Fin 9) t d))
    ∗ (∃ d, owns (c : Thread nD τ) (ms1_8 a t) fullShare ((dat1 V a c).before (8 : Fin 9) t d)))

/-- and what it returns. -/
def bodyPost1 (c : Dev nD) (t : Fin (cfg1 a).N) : sProp 𝕄 :=
  iprop((dat1 V a c).Φ t.succ ∗ (dat1 V a c).owesAt () t.succ
    ∗ (dat1 V a c).leavesExact (0 : Fin 9) t
    ∗ (dat1 V a c).leavesExact (1 : Fin 9) t
    ∗ (dat1 V a c).leavesExact (2 : Fin 9) t
    ∗ (dat1 V a c).leavesExact (3 : Fin 9) t
    ∗ (dat1 V a c).leavesExact (4 : Fin 9) t
    ∗ (dat1 V a c).leavesExact (5 : Fin 9) t
    ∗ (dat1 V a c).leavesExact (6 : Fin 9) t
    ∗ (dat1 V a c).leavesExact (7 : Fin 9) t
    ∗ (dat1 V a c).leavesExact (8 : Fin 9) t)

set_option maxHeartbeats 1600000 in
/-- The body at any position: the inputs' buffers hold their blocks; the invariant hands the body the table and the
    accumulator at what the point before left (at anything at the first point, where it is reset) and takes the
    accumulator back at this point's contents; the output buffer comes back at the block computed here when kvi = 3
    and untouched otherwise; the core owes nothing throughout. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2, before1_3, before1_4, before1_5, before1_6, before1_7]
  rw [show (dat1 V a c).owesAt () t.succ = (dat1 V a c).owesAt () t.castSucc from rfl]
  rw [show (dat1 V a c).Φ t.succ = PhiS1 V a c (t.val + 1) t.isLt from rfl, PhiS1_succ, PhiS1_castSucc, prefHeld1_eq]
  rw [show (dat1 V a c).leavesExact (0 : Fin 9) t = owns (c : Thread nD τ) (ms1_0 a t) fullShare ((dat1 V a c).after (0 : Fin 9) t) from rfl, after1_0]
  rw [show (dat1 V a c).leavesExact (1 : Fin 9) t = owns (c : Thread nD τ) (ms1_1 a t) fullShare ((dat1 V a c).after (1 : Fin 9) t) from rfl, after1_1]
  rw [show (dat1 V a c).leavesExact (2 : Fin 9) t = owns (c : Thread nD τ) (ms1_2 a t) fullShare ((dat1 V a c).after (2 : Fin 9) t) from rfl, after1_2]
  rw [show (dat1 V a c).leavesExact (3 : Fin 9) t = owns (c : Thread nD τ) (ms1_3 a t) fullShare ((dat1 V a c).after (3 : Fin 9) t) from rfl, after1_3]
  rw [show (dat1 V a c).leavesExact (4 : Fin 9) t = owns (c : Thread nD τ) (ms1_4 a t) fullShare ((dat1 V a c).after (4 : Fin 9) t) from rfl, after1_4]
  rw [show (dat1 V a c).leavesExact (5 : Fin 9) t = owns (c : Thread nD τ) (ms1_5 a t) fullShare ((dat1 V a c).after (5 : Fin 9) t) from rfl, after1_5]
  rw [show (dat1 V a c).leavesExact (6 : Fin 9) t = owns (c : Thread nD τ) (ms1_6 a t) fullShare ((dat1 V a c).after (6 : Fin 9) t) from rfl, after1_6]
  rw [show (dat1 V a c).leavesExact (7 : Fin 9) t = owns (c : Thread nD τ) (ms1_7 a t) fullShare ((dat1 V a c).after (7 : Fin 9) t) from rfl, after1_7]
  by_cases h3 : t.val % 4 = 3
  · rw [show (dat1 V a c).leavesExact (8 : Fin 9) t = owns (c : Thread nD τ) (ms1_8 a t) fullShare ((dat1 V a c).after (8 : Fin 9) t) from by
      unfold Dat.leavesExact; rw [Bool.eq_false_iff.mpr (fun h => ((idle1_8 a t).mp h) h3)], after1_8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hopen := PhiS1_open V a c t
    ihave HΦ' := hopen $$ HΦ
    icases HΦ' with ⟨%S, %hS, Hg, Hp, Hoth, HS⟩
    have hk := kernel_at V a c t S hS ((dat1 V a c).before (8 : Fin 9) t d8) (fun _ => iprop(
      ((∃ r, prngReg c r) ∗ owns (c : Thread nD τ) (Memref.whole main_arg1 : Memref sig .tc .smem S8 .i32) fullShare (a.1 0) ∗ scopedOthers1 (F := F) c
        ∗ owns (c : Thread nD τ) scM1 fullShare (outsAt1 V a c t.val t.isLt).2)
      ∗ (dat1 V a c).owesAt () t.castSucc
      ∗ owns (c : Thread nD τ) (ms1_0 a t) fullShare (iblk1 V a c 0 t)
      ∗ owns (c : Thread nD τ) (ms1_1 a t) fullShare (iblk1 V a c 1 t)
      ∗ owns (c : Thread nD τ) (ms1_2 a t) fullShare (iblk1 V a c 2 t)
      ∗ owns (c : Thread nD τ) (ms1_3 a t) fullShare (iblk1 V a c 3 t)
      ∗ owns (c : Thread nD τ) (ms1_4 a t) fullShare (iblk1 V a c 4 t)
      ∗ owns (c : Thread nD τ) (ms1_5 a t) fullShare (iblk1 V a c 5 t)
      ∗ owns (c : Thread nD τ) (ms1_6 a t) fullShare (iblk1 V a c 6 t)
      ∗ owns (c : Thread nD τ) (ms1_7 a t) fullShare (iblk1 V a c 7 t)
      ∗ owns (c : Thread nD τ) (ms1_8 a t) fullShare (outsAt1 V a c t.val t.isLt).1))
    rw [if_pos h3] at hk
    iapply hk
    unfold held
    isplitl [Hp H0 H1 H2 H3 H4 H5 H6 H7 H8]
    · isplitl [Hp]; · iexact Hp
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iintro ⟨⟨Hp, H0, H1, H2, H3, H4, H5, H6, H7, H8⟩, HS⟩
    isplitl [Hg Hp Hoth HS]
    · isplitl [Hg]; · iexact Hg
      isplitl [Hp]; · iexact Hp
      isplitl [Hoth]; · iexact Hoth
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hi : (cfg1 a).idle (8 : Fin 9) ((cfg1 a).grid.coords t) = true := (idle1_8 a t).mpr h3
    have hf : ((cfg1 a).win (8 : Fin 9)).flush t = false := Bool.eq_false_iff.mpr (fun h => h3 ((flush1_8 a t).mp h))
    rw [Dat.leavesExact_idle (dat1 V a c) (8 : Fin 9) t hi hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hopen := PhiS1_open V a c t
    ihave HΦ' := hopen $$ HΦ
    icases HΦ' with ⟨%S, %hS, Hg, Hp, Hoth, HS⟩
    have hk := kernel_at V a c t S hS ((dat1 V a c).before (8 : Fin 9) t d8) (fun _ => iprop(
      ((∃ r, prngReg c r) ∗ owns (c : Thread nD τ) (Memref.whole main_arg1 : Memref sig .tc .smem S8 .i32) fullShare (a.1 0) ∗ scopedOthers1 (F := F) c
        ∗ owns (c : Thread nD τ) scM1 fullShare (outsAt1 V a c t.val t.isLt).2)
      ∗ (dat1 V a c).owesAt () t.castSucc
      ∗ owns (c : Thread nD τ) (ms1_0 a t) fullShare (iblk1 V a c 0 t)
      ∗ owns (c : Thread nD τ) (ms1_1 a t) fullShare (iblk1 V a c 1 t)
      ∗ owns (c : Thread nD τ) (ms1_2 a t) fullShare (iblk1 V a c 2 t)
      ∗ owns (c : Thread nD τ) (ms1_3 a t) fullShare (iblk1 V a c 3 t)
      ∗ owns (c : Thread nD τ) (ms1_4 a t) fullShare (iblk1 V a c 4 t)
      ∗ owns (c : Thread nD τ) (ms1_5 a t) fullShare (iblk1 V a c 5 t)
      ∗ owns (c : Thread nD τ) (ms1_6 a t) fullShare (iblk1 V a c 6 t)
      ∗ owns (c : Thread nD τ) (ms1_7 a t) fullShare (iblk1 V a c 7 t)
      ∗ ∃ d, owns (c : Thread nD τ) (((cfg1 a).win (8 : Fin 9)).stage ((cfg1 a).slots t (8 : Fin 9))) fullShare ((dat1 V a c).before (8 : Fin 9) t d)))
    rw [if_neg h3] at hk
    iapply hk
    unfold held
    isplitl [Hp H0 H1 H2 H3 H4 H5 H6 H7 H8]
    · isplitl [Hp]; · iexact Hp
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iintro ⟨⟨Hp, H0, H1, H2, H3, H4, H5, H6, H7, H8⟩, HS⟩
    isplitl [Hg Hp Hoth HS]
    · isplitl [Hg]; · iexact Hg
      isplitl [Hp]; · iexact Hp
      isplitl [Hoth]; · iexact Hoth
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## Into the invariant and out of it -/

/-- What the region hands the kernel at entry is the invariant before the first point. -/
theorem hin1 (c : Dev nD) : (iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) : sProp 𝕄) ⊢ (dat1 V a c).Φ 0 := by
  rw [show (dat1 V a c).Φ 0 = PhiS1 V a c 0 (Nat.zero_le _) from rfl, PhiS1_zero V a c 0 _ rfl]

/-- After the last point the invariant gives the same back: the accumulator's contents are forgotten. -/
theorem hout1 (c : Dev nD) : (dat1 V a c).Φ (Fin.last (cfg1 a).N) ⊢ (iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) : sProp 𝕄) := by
  rw [show (dat1 V a c).Φ (Fin.last (cfg1 a).N) = PhiS1 V a c (cfg1 a).N (Nat.le_refl _) from rfl,
    PhiS1_pos V a c _ _ (by have : (cfg1 a).N = 128 := N_1; omega)]
  iintro ⟨Hg, Hp, Ho, HS⟩
  isplitl [Hg]; · iexact Hg
  isplitl [Hp]; · iexact Hp
  have hj := scopedRest1_join (F := F) c
  iapply hj
  isplitl [Ho]; · iexact Ho
  iexists _; iexact HS

end Cert.Kernel.Hand

end
-- ==== Proof.K.Launch.lean ====
/-
  The run of the whole program: the two conversions of the weight matrices on the host, then the projection kernel,
  then the attention kernel.

  Between two items every unscoped buffer of the core is held whole at a known valuation: the launch memory; then the
  two converted weight matrices written beside it; then u, v, q, k at what the projection pipeline's write-backs leave
  in them (every other buffer as before); then the result at what the attention pipeline's write-backs leave in it.
  The sequence-length table stays in scalar memory as launched and is handed whole to the attention pipeline, which
  returns it at its exit.  At the end the result buffer and the nine argument buffers are read off the last valuation:
  the result is the attention pipeline's final array, each argument is as launched, no item having written it.
-/
import proofs.«419744_j566935683421_1_alg».proof.Proof.K.R0
import proofs.«419744_j566935683421_1_alg».proof.Proof.K.R1Dat
import proofs.«419744_j566935683421_1_alg».proof.Proof.K.RunCond
import proofs.«419744_j566935683421_1_alg».proof.Proof.Gen.Kernel.Launch
import proofs.«419744_j566935683421_1_alg».proof.Proof.Gen.Kernel.Regions
import Idealize.ShloMosaic.Lib.Pipeline.FrameSuffix
import Idealize.ShloMosaic.Lib.Pipeline.RegionsLoop
import Idealize.ShloMosaic.Lib.Pipeline.Kit
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

/-! ## The contents of the buffers between the items -/

variable (m : (ℓ : Loc nD τ sig) → Buf (Elt F) ℓ)

/-- The sequence-length table as launched (one device: device 0's). -/
def tbl : pre1.Contents (Elt F) := fun k => m (((0 : Dev nD).tc : Thread nD τ).loc (pre1.ref k))

/-- The prefetched tables' contents the two pipelines run at: the projection pipeline has none; the attention pipeline
    has the sequence lengths as launched (its side condition on them is trivial). -/
def admOf : (p : Fin 2) → (pcfgs (F := F) p).Adm
  | ⟨0, _⟩ => cfg0.toPCfg_adm
  | ⟨1, _⟩ => ⟨tbl m, trivial⟩

/-- The attention pipeline's table is the launch's sequence lengths, on every core. -/
theorem admOf_tbl (c : Dev nD) : (admOf m 1).1 0 = m ((c.tc : Thread nD τ).loc main_arg1) := by
  obtain rfl : c = 0 := Subsingleton.elim _ _; rfl

/-- The contents the projection region is entered from: the launch memory after the two host conversions. -/
def Vin0 : (c : Dev nD) → (b : Ref sig .tc) → Buf (Elt F) ((c : Thread nD τ).loc b) := fun c b => V1 m c b

/-- The core's buffers with the projection pipeline's arrays at what its write-backs leave. -/
def W2 (c : Dev nD) : Valuation τ sig (Elt F) :=
  Pipeline.withArrays spec0 c (V1 m c) fun w => (dat0 (Vin0 m) c).arrAt w cfg0.N

/-- What the projection region leaves in the buffers it may change. -/
def outs2 : Outs (F := F) := fun _ r c => W2 m c r

/-- The contents the attention region is entered from: as the projection region was entered, with u, v, q, k at what
    the projection pipeline leaves in them. -/
def Vin1 : (c : Dev nD) → (b : Ref sig .tc) → Buf (Elt F) ((c : Thread nD τ).loc b) := fun c b => V2 m (outs2 m) c b

/-- The core's buffers with the attention pipeline's arrays at what its write-backs leave. -/
def W3 (c : Dev nD) : Valuation τ sig (Elt F) :=
  Pipeline.withArrays spec1 c (V2 m (outs2 m) c) fun w => (dat1 (Vin1 m) (admOf m 1) c).arrAt w (cfg1 (admOf m 1)).N

/-- What the two regions leave in the buffers they may change. -/
def outsOf : Outs (F := F) := fun J r c => match J with
  | 2 => W2 m c r
  | _ => W3 m c r

theorem V2_outsOf (c : Dev nD) : V2 m (outsOf m) c = V2 m (outs2 m) c := rfl

theorem Vin1_v2_0 (c : Dev nD) : Vin1 m c main_v2_0 = (dat0 (Vin0 m) c).arrAt 5 cfg0.N := by
  have h : Vin1 m c main_v2_0 = W2 m c (Proc.devRef .tc main_v2_0) := by
    unfold Vin1
    simp only [V2, outs2, Function.update_of_ne (StableHlo.devRef_ne_of_ne (by decide : (main_v2_0 : Ref sig .tc) ≠ main_v2_3) : (Proc.devRef .tc main_v2_0 : DevRef τ sig) ≠ Proc.devRef .tc main_v2_3), Function.update_of_ne (StableHlo.devRef_ne_of_ne (by decide : (main_v2_0 : Ref sig .tc) ≠ main_v2_2) : (Proc.devRef .tc main_v2_0 : DevRef τ sig) ≠ Proc.devRef .tc main_v2_2), Function.update_of_ne (StableHlo.devRef_ne_of_ne (by decide : (main_v2_0 : Ref sig .tc) ≠ main_v2_1) : (Proc.devRef .tc main_v2_0 : DevRef τ sig) ≠ Proc.devRef .tc main_v2_1), Function.update_self]
  exact h.trans (Pipeline.withArrays_arr spec0 winFacts0.arr_inj c _ _ 5)
theorem Vin1_v2_1 (c : Dev nD) : Vin1 m c main_v2_1 = (dat0 (Vin0 m) c).arrAt 6 cfg0.N := by
  have h : Vin1 m c main_v2_1 = W2 m c (Proc.devRef .tc main_v2_1) := by
    unfold Vin1
    simp only [V2, outs2, Function.update_of_ne (StableHlo.devRef_ne_of_ne (by decide : (main_v2_1 : Ref sig .tc) ≠ main_v2_3) : (Proc.devRef .tc main_v2_1 : DevRef τ sig) ≠ Proc.devRef .tc main_v2_3), Function.update_of_ne (StableHlo.devRef_ne_of_ne (by decide : (main_v2_1 : Ref sig .tc) ≠ main_v2_2) : (Proc.devRef .tc main_v2_1 : DevRef τ sig) ≠ Proc.devRef .tc main_v2_2), Function.update_self]
  exact h.trans (Pipeline.withArrays_arr spec0 winFacts0.arr_inj c _ _ 6)
theorem Vin1_v2_2 (c : Dev nD) : Vin1 m c main_v2_2 = (dat0 (Vin0 m) c).arrAt 7 cfg0.N := by
  have h : Vin1 m c main_v2_2 = W2 m c (Proc.devRef .tc main_v2_2) := by
    unfold Vin1
    simp only [V2, outs2, Function.update_of_ne (StableHlo.devRef_ne_of_ne (by decide : (main_v2_2 : Ref sig .tc) ≠ main_v2_3) : (Proc.devRef .tc main_v2_2 : DevRef τ sig) ≠ Proc.devRef .tc main_v2_3), Function.update_self]
  exact h.trans (Pipeline.withArrays_arr spec0 winFacts0.arr_inj c _ _ 7)
theorem Vin1_v2_3 (c : Dev nD) : Vin1 m c main_v2_3 = (dat0 (Vin0 m) c).arrAt 8 cfg0.N := by
  have h : Vin1 m c main_v2_3 = W2 m c (Proc.devRef .tc main_v2_3) := by
    unfold Vin1
    simp only [V2, outs2, Function.update_self]
  exact h.trans (Pipeline.withArrays_arr spec0 winFacts0.arr_inj c _ _ 8)

theorem Vin1_of_arg (c : Dev nD) (b : Ref sig .tc) (hb : b ∉ ([main_v2_0, main_v2_1, main_v2_2, main_v2_3] : List (Ref sig .tc))) :
    Vin1 m c b = Vin0 m c b := V2_of m (outs2 m) c b hb

theorem Vin0_arg0 (c : Dev nD) : Vin0 m c main_arg0 = m ((c.tc : Thread nD τ).loc main_arg0) := (V1_of m c main_arg0 (by decide)).trans rfl
theorem Vin0_arg1 (c : Dev nD) : Vin0 m c main_arg1 = m ((c.tc : Thread nD τ).loc main_arg1) := (V1_of m c main_arg1 (by decide)).trans rfl
theorem Vin0_arg2 (c : Dev nD) : Vin0 m c main_arg2 = m ((c.tc : Thread nD τ).loc main_arg2) := (V1_of m c main_arg2 (by decide)).trans rfl
theorem Vin0_arg3 (c : Dev nD) : Vin0 m c main_arg3 = m ((c.tc : Thread nD τ).loc main_arg3) := (V1_of m c main_arg3 (by decide)).trans rfl
theorem Vin0_arg4 (c : Dev nD) : Vin0 m c main_arg4 = m ((c.tc : Thread nD τ).loc main_arg4) := (V1_of m c main_arg4 (by decide)).trans rfl
theorem Vin0_arg5 (c : Dev nD) : Vin0 m c main_arg5 = m ((c.tc : Thread nD τ).loc main_arg5) := (V1_of m c main_arg5 (by decide)).trans rfl
theorem Vin0_arg6 (c : Dev nD) : Vin0 m c main_arg6 = m ((c.tc : Thread nD τ).loc main_arg6) := (V1_of m c main_arg6 (by decide)).trans rfl
theorem Vin0_arg7 (c : Dev nD) : Vin0 m c main_arg7 = m ((c.tc : Thread nD τ).loc main_arg7) := (V1_of m c main_arg7 (by decide)).trans rfl
theorem Vin0_arg8 (c : Dev nD) : Vin0 m c main_arg8 = m ((c.tc : Thread nD τ).loc main_arg8) := (V1_of m c main_arg8 (by decide)).trans rfl

/-- The projection weights as the projection region finds them: the launch's, read at bf16. -/
theorem Vin0_v0 (c : Dev nD) : Vin0 m c main_v0 = ((truncf .bf16 · bitsLt_bf16_f32) : (⟨S512x2048, .f32⟩ : BufTy).Contents (Elt F) → (⟨S512x2048, .bf16⟩ : BufTy).Contents (Elt F)) (m ((c.tc : Thread nD τ).loc main_arg2)) := by
  show StableHlo.after hostOps0 (fun b => m (c, b)) (Proc.devRef .tc main_v0) = _
  after_results
/-- The output weights as the attention region finds them: the launch's, read at bf16. -/
theorem Vin0_v1 (c : Dev nD) : Vin0 m c main_v1 = ((truncf .bf16 · bitsLt_bf16_f32) : (⟨S1536x512, .f32⟩ : BufTy).Contents (Elt F) → (⟨S1536x512, .bf16⟩ : BufTy).Contents (Elt F)) (m ((c.tc : Thread nD τ).loc main_arg4)) := by
  show StableHlo.after hostOps0 (fun b => m (c, b)) (Proc.devRef .tc main_v1) = _
  after_results

/-- The result buffer after the attention region: the attention pipeline's final array. -/
theorem V3_main_v3 (c : Dev nD) : V3 m (outsOf m) c main_v3 = (dat1 (Vin1 m) (admOf m 1) c).arrAt 8 (cfg1 (admOf m 1)).N := by
  have h : V3 m (outsOf m) c main_v3 = W3 m c (Proc.devRef .tc main_v3) := by
    simp only [V3, Function.update_self]
    rfl
  exact h.trans (Pipeline.withArrays_arr spec1 winFacts1.arr_inj c _ _ 8)

/-! ## What each region leaves: its arrays at the pipeline's final contents, every other buffer as entered -/

/-- After the projection region each of its arrays holds what the pipeline leaves: an input as entered, an output
    its write-backs. -/
theorem hF0 (c : Dev nD) : ∀ w : Fin cfg0.W, (dat0 (Vin0 m) c).arrAt w cfg0.N = Vin1 m c (Pipeline.arrRef spec0 w) :=
  fun | 0 => (((dat0 (Vin0 m) c).arrAt_in 0 rfl _).trans (A_eq0 (Vin0 m) c 0)).trans (Vin1_of_arg m c _ (by decide)).symm | 1 => (((dat0 (Vin0 m) c).arrAt_in 1 rfl _).trans (A_eq0 (Vin0 m) c 1)).trans (Vin1_of_arg m c _ (by decide)).symm | 2 => (((dat0 (Vin0 m) c).arrAt_in 2 rfl _).trans (A_eq0 (Vin0 m) c 2)).trans (Vin1_of_arg m c _ (by decide)).symm | 3 => (((dat0 (Vin0 m) c).arrAt_in 3 rfl _).trans (A_eq0 (Vin0 m) c 3)).trans (Vin1_of_arg m c _ (by decide)).symm | 4 => (((dat0 (Vin0 m) c).arrAt_in 4 rfl _).trans (A_eq0 (Vin0 m) c 4)).trans (Vin1_of_arg m c _ (by decide)).symm | 5 => (Vin1_v2_0 m c).symm | 6 => (Vin1_v2_1 m c).symm | 7 => (Vin1_v2_2 m c).symm | 8 => (Vin1_v2_3 m c).symm | ⟨_ + 9, h⟩ => absurd h (Nat.not_lt.2 (Nat.le_add_left _ _))
theorem hrest0 (c : Dev nD) : ∀ b, b ∉ Finset.univ.image (Pipeline.arrRef spec0) → Vin1 m c b = Vin0 m c b :=
  fun b hb => Vin1_of_arg m c b fun hm => hb (by
    simp only [List.mem_cons, List.not_mem_nil, or_false] at hm
    rcases hm with rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩)

/-- The contents after the attention region. -/
def Vout : (c : Dev nD) → (b : Ref sig .tc) → Buf (Elt F) ((c : Thread nD τ).loc b) := fun c b => V3 m (outsOf m) c b

theorem Vout_of (c : Dev nD) (b : Ref sig .tc) (hb : b ∉ ([main_v3] : List (Ref sig .tc))) : Vout m c b = Vin1 m c b :=
  V3_of m (outsOf m) c b hb

/-- After the attention region each of its arrays holds what the pipeline leaves. -/
theorem hF1 (c : Dev nD) : ∀ w : Fin (cfg1 (admOf m 1)).W, (dat1 (Vin1 m) (admOf m 1) c).arrAt w (cfg1 (admOf m 1)).N = Vout m c (Pipeline.arrRef spec1 w) :=
  fun | 0 => (((dat1 (Vin1 m) (admOf m 1) c).arrAt_in 0 rfl _).trans (A_eq1 (Vin1 m) (admOf m 1) c 0)).trans (Vout_of m c (Pipeline.arrRef spec1 (0 : Fin 9)) (by decide)).symm | 1 => (((dat1 (Vin1 m) (admOf m 1) c).arrAt_in 1 rfl _).trans (A_eq1 (Vin1 m) (admOf m 1) c 1)).trans (Vout_of m c (Pipeline.arrRef spec1 (1 : Fin 9)) (by decide)).symm | 2 => (((dat1 (Vin1 m) (admOf m 1) c).arrAt_in 2 rfl _).trans (A_eq1 (Vin1 m) (admOf m 1) c 2)).trans (Vout_of m c (Pipeline.arrRef spec1 (2 : Fin 9)) (by decide)).symm | 3 => (((dat1 (Vin1 m) (admOf m 1) c).arrAt_in 3 rfl _).trans (A_eq1 (Vin1 m) (admOf m 1) c 3)).trans (Vout_of m c (Pipeline.arrRef spec1 (3 : Fin 9)) (by decide)).symm | 4 => (((dat1 (Vin1 m) (admOf m 1) c).arrAt_in 4 rfl _).trans (A_eq1 (Vin1 m) (admOf m 1) c 4)).trans (Vout_of m c (Pipeline.arrRef spec1 (4 : Fin 9)) (by decide)).symm | 5 => (((dat1 (Vin1 m) (admOf m 1) c).arrAt_in 5 rfl _).trans (A_eq1 (Vin1 m) (admOf m 1) c 5)).trans (Vout_of m c (Pipeline.arrRef spec1 (5 : Fin 9)) (by decide)).symm | 6 => (((dat1 (Vin1 m) (admOf m 1) c).arrAt_in 6 rfl _).trans (A_eq1 (Vin1 m) (admOf m 1) c 6)).trans (Vout_of m c (Pipeline.arrRef spec1 (6 : Fin 9)) (by decide)).symm | 7 => (((dat1 (Vin1 m) (admOf m 1) c).arrAt_in 7 rfl _).trans (A_eq1 (Vin1 m) (admOf m 1) c 7)).trans (Vout_of m c (Pipeline.arrRef spec1 (7 : Fin 9)) (by decide)).symm | 8 => (V3_main_v3 m c).symm | ⟨_ + 9, h⟩ => absurd h (Nat.not_lt.2 (Nat.le_add_left _ _))
theorem hrest1 (c : Dev nD) : ∀ b, b ∉ Finset.univ.image (Pipeline.arrRef spec1) → Vout m c b = Vin1 m c b :=
  fun b hb => Vout_of m c b fun hm => hb (by
    simp only [List.mem_cons, List.not_mem_nil, or_false] at hm
    subst hm
    exact Finset.mem_image.mpr ⟨8, Finset.mem_univ _, rfl⟩)

/-- On every core the table's buffer holds the launch's sequence lengths when the attention region is entered. -/
theorem Vin1_pre (c : Dev nD) : (fun k => Vin1 m c (pre1.ref k)) = (admOf m 1).1 := by
  funext k
  obtain rfl : c = 0 := Subsingleton.elim _ _
  obtain rfl : k = 0 := Subsingleton.elim _ _
  exact (Vin1_of_arg m 0 main_arg1 (by decide)).trans (Vin0_arg1 m 0)

/-- Every unscoped buffer of the core at one of these contents is the held set at the corresponding valuation. -/
theorem held_Vin0 (c : Dev nD) : (unscopedBufs (Ix := Unit) (Name := ℕ) (U := UR sig nD τ) (Lvl := ℕ) c (Vin0 m c) : sProp 𝕄)
    = StableHlo.held (c : Thread nD τ) (Pipeline.ucRefs τ sig) (V1 m c) := Pipeline.unscopedBufs_held c (V1 m c)
theorem held_Vin1 (c : Dev nD) : (unscopedBufs (Ix := Unit) (Name := ℕ) (U := UR sig nD τ) (Lvl := ℕ) c (Vin1 m c) : sProp 𝕄)
    = StableHlo.held (c : Thread nD τ) (Pipeline.ucRefs τ sig) (V2 m (outsOf m) c) := Pipeline.unscopedBufs_held c (V2 m (outsOf m) c)
theorem held_Vout (c : Dev nD) : (unscopedBufs (Ix := Unit) (Name := ℕ) (U := UR sig nD τ) (Lvl := ℕ) c (Vout m c) : sProp 𝕄)
    = StableHlo.held (c : Thread nD τ) (Pipeline.ucRefs τ sig) (V3 m (outsOf m) c) := Pipeline.unscopedBufs_held c (V3 m (outsOf m) c)

/-- The attention region's unscoped buffers that are no window's array: the table, at the launch's sequence lengths, and the rest. -/
theorem rest1_split (c : Dev nD) : (Pipeline.unscopedRest (Ix := Unit) (Name := ℕ) (U := UR sig nD τ) (Lvl := ℕ) (Pipeline.pin (pcfgs (F := F)) (admOf m) 1).spec c (Vin1 m c) : sProp 𝕄)
    = iprop(Pipeline.prefHeld pre1 c (fun _ => fullShare) (admOf m 1).1 ∗ Pipeline.unscopedRestP pre1 spec1 c (Vin1 m c)) := by
  rw [← Vin1_pre m c]; exact Pipeline.unscopedRest_split preFacts1 c (Vin1 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) (admOf m) p) c
  | ⟨0, _⟩ => fun c => dat0 (Vin0 m) c
  | ⟨1, _⟩ => fun c => dat1 (Vin1 m) (admOf m 1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions' records -/

set_option backward.isDefEq.respectTransparency.types false in
/-- The projection region: entered from every unscoped buffer at the contents after the host conversions, left with
    u, v, q, k at the pipeline's final arrays. -/
def reg0 : RegionSeg (pcfgs (F := F)) (admOf m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) (admOf m) (pdats m) winFacts0 arr_whole0 c
      ((pdats m 0 c).share_full fun _ => rfl) (Vin0 m c) fun _ => rfl
    rw [held_Vin0] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admOf m) (Ix := Unit) (Name := ℕ) (U := UR sig nD τ) (Lvl := ℕ)
      winFacts0 arr_whole0 c (pdats m) ((pdats m 0 c).share_full fun _ => rfl)
      (Vin0 m c) (Vin1 m c) ((pdats m 0 c).arrAt · cfg0.N) (hF0 m c) (hrest0 m c)
    rw [held_Vin1] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the contents the projection region left, the table
    handed to the pipeline whole and taken back at the exit, left with the result at the pipeline's final array. -/
def reg1 : RegionSeg (pcfgs (F := F)) (admOf m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (Vin1 m) (admOf m 1) c).loose
  hwaits := Pipeline.hwaits_of_owed_zero _ _ _ _ L lv 1 fun _ _ => rfl
  pre c := iprop(StableHlo.held (c : Thread nD τ) (Pipeline.ucRefs τ sig) (V2 m (outsOf m) c) ∗ R c)
  post c := iprop(StableHlo.held (c : Thread nD τ) (Pipeline.ucRefs τ sig) (V3 m (outsOf m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (admOf m 1).1)
  Z c := Pipeline.unscopedRestP (Ix := Unit) (Name := ℕ) (U := UR sig nD τ) (Lvl := ℕ) pre1 spec1 c (Vin1 m c)
  hentry c := by
    rw [Pipeline.ownSems0_none]
    have hsplit := Pipeline.arrays_of_unscopedBufs (p := 1) (pcfgs (F := F)) (admOf m) (pdats m) winFacts1 arr_whole1 c
      ((pdats m 1 c).share_full fun _ => rfl) (Vin1 m c) fun _ => rfl
    rw [held_Vin1, rest1_split] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Vin1 m) (admOf m 1) c
  hout c := by
    rw [Pipeline.ownSems0_none]
    refine (hout1 (Vin1 m) (admOf m 1) c).trans ?_
    iintro ⟨Hp, Ht, Hr⟩
    isplitl [Hp Ht]
    · isplitl [Hp]; · iexact Hp
      iexact Ht
    isplitr; · iempintro
    iexact Hr
  hexit c := by
    have hjoin := Pipeline.unscopedBufs_of_arrays (p := 1) (pcfgs (F := F)) (admOf m) (Ix := Unit) (Name := ℕ) (U := UR sig nD τ) (Lvl := ℕ)
      winFacts1 arr_whole1 c (pdats m) ((pdats m 1 c).share_full fun _ => rfl)
      (Vin1 m c) (Vout m c) ((pdats m 1 c).arrAt · (cfg1 (admOf m 1)).N) (hF1 m c) (hrest1 m c)
    rw [held_Vout, rest1_split] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The run -/

set_option backward.isDefEq.respectTransparency.types false in
theorem run_main (ρ : Dev nD → PrngReg) : θ_run defs (onTc (τ := τ) (main (F := F))) ⟨m, fun _ => 0, ρ⟩ (fun r => ∀ c : Dev nD,
      r.2.mem ((c.tc : Thread nD τ).loc main_v3) = (dat1 (Vin1 m) (admOf m 1) c).arrAt 8 (cfg1 (admOf m 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ⟨(h c).1.trans (V3_main_v3 m c), (h c).2⟩)
    (run_cond m emb₁ () 𝒱₀ L lv (fun _ _ => rfl) ρ (outsOf m) (admOf m) (pdats m) 0 (fun _ => iprop(emp))
      (initOf (Pipeline.cells (Pipeline.pin (pcfgs (F := F)) (admOf m)) (cellOf_inj (admOf m))) (Pipeline.launchToks (Pipeline.pin (pcfgs (F := F)) (admOf m)) (cellOf_inj (admOf m))))
      ?hu (fun _ c => R c) ?hE0 (fun c => ?hE2) (reg0 m) (fun _ => .rfl) (fun _ => .rfl) (reg1 m) (fun _ => .rfl) (fun _ => .rfl))
  case hu =>
    iintro Hu; imodintro
    isplitl [Hu]
    · iapply (show (ownU (initOf (Pipeline.cells (Pipeline.pin (pcfgs (F := F)) (admOf m)) (cellOf_inj (admOf m))) (Pipeline.launchToks (Pipeline.pin (pcfgs (F := F)) (admOf m)) (cellOf_inj (admOf m)))) : sProp 𝕄)
          ⊢ BI.own (emb₁ (initOf (Pipeline.cells (Pipeline.pin (pcfgs (F := F)) (admOf m)) (cellOf_inj (admOf m))) (Pipeline.launchToks (Pipeline.pin (pcfgs (F := F)) (admOf m)) (cellOf_inj (admOf m))))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE2 =>
    iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Hand

end
-- ==== Proof.KI.Pay.lean ====
/-
  What one grid point of each of the two kernels computes, as pure functions of the blocks it reads.

  Projection kernel, at a point (b, i): from the 512 rows of x it is handed, the layer-norm weights and the
  projection weights, the row tile `proj` = LN(x)·W + bias (512 × 2048); its four output blocks are
  silu of columns 0–511 (`uBlk`) and columns 512–1023, 1024–1535, 1536–2047 (`vBlk`, `qBlk`, `kBlk`).

  Attention kernel, at a point (b, qi, kvi): `zeroAcc` is the accumulator's reset value; `accStep` adds to the
  accumulator, head by head, the masked silu-scores of this (q tile, kv tile) pair times the v tile (the mask is
  causal in the absolute positions qi·512 + row ≥ kvi·512 + col and cuts columns at the row's sequence length);
  `finBlk` is the output tile from the finished accumulator: LN of it, gated by u, concatenated with u and x,
  times the output weights, plus x.
-/
import proofs.«419744_j566935683421_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The projection tile LN(x)·W + bias of one block of 512 rows. -/
def proj (x : Vec F S1x512x512 .f32) (g b : Vec F S512 .f32) (w : Vec F S512x2048 .bf16) (bias : Vec F S2048 .f32) :
    Vec F S512x2048 .f32 := k0_pay5 x g b w bias

/-- The u block: silu of the tile's columns 0–511. -/
def uBlk (x : Vec F S1x512x512 .f32) (g b : Vec F S512 .f32) (w : Vec F S512x2048 .bf16) (bias : Vec F S2048 .f32) :
    Vec F S1x512x512 .f32 := k0_pay1 (k0_pay6 x g b w bias)

/-- The v block: the tile's columns 512–1023. -/
def vBlk (x : Vec F S1x512x512 .f32) (g b : Vec F S512 .f32) (w : Vec F S512x2048 .bf16) (bias : Vec F S2048 .f32) :
    Vec F S1x512x512 .bf16 := k0_pay2 (proj x g b w bias)

/-- The q block: the tile's columns 1024–1535. -/
def qBlk (x : Vec F S1x512x512 .f32) (g b : Vec F S512 .f32) (w : Vec F S512x2048 .bf16) (bias : Vec F S2048 .f32) :
    Vec F S1x512x512 .bf16 := k0_pay3 (proj x g b w bias)

/-- The k block: the tile's columns 1536–2047. -/
def kBlk (x : Vec F S1x512x512 .f32) (g b : Vec F S512 .f32) (w : Vec F S512x2048 .bf16) (bias : Vec F S2048 .f32) :
    Vec F S1x512x512 .bf16 := k0_pay4 (proj x g b w bias)

/-- The accumulator's reset value: all zeros. -/
def zeroAcc : Vec F S512x512 .f32 := k1_pay1

/-- One (q tile, kv tile) contribution added to the accumulator: `qi`, `kvi` the two tile coordinates as words,
    `len` the row's sequence length, `q k v` the three tiles, `acc` what the accumulator held. -/
def accStep (qi kvi : BitVec 32) (len : Elt F .i32) (q k v : Vec F S1x512x512 .bf16) (acc : Vec F S512x512 .f32) :
    Vec F S512x512 .f32 :=
  k1_pay17 (k1_pay3 qi kvi len) (k1_pay4 q) (k1_pay5 k) (k1_pay6 v)
    (k1_pay7 qi kvi len q k v)
    (k1_pay10 (k1_pay3 qi kvi len) (k1_pay8 v) (k1_pay9 q k) (Scalar.ofBits .f32 0x00000000#32))
    (k1_pay11 (k1_pay3 qi kvi len) (k1_pay4 q) (k1_pay5 k) (k1_pay6 v))
    (k1_pay12 (k1_pay3 qi kvi len) (k1_pay4 q) (k1_pay5 k) (k1_pay6 v))
    (k1_pay13 (k1_pay3 qi kvi len) (k1_pay4 q) (k1_pay5 k) (k1_pay6 v))
    (k1_pay14 (k1_pay4 q)) (k1_pay15 (k1_pay6 v)) (k1_pay16 (k1_pay5 k)) acc

/-- The output tile from the finished accumulator. -/
def finBlk (acc : Vec F S512x512 .f32) (g2 b2 : Vec F S512 .f32) (u x : Vec F S1x512x512 .f32) (ow : Vec F S1536x512 .bf16) :
    Vec F S1x512x512 .f32 := k1_pay2 (k1_pay18 acc g2 b2 u x ow)

end Cert.KernelIdeal.Hand

end
-- ==== Proof.KI.R0.lean ====
/-
  The projection kernel's region: its proof data and its body obligation.

  At an arbitrary valuation V of the core's buffers on entry, window w's block at grid point t is read off its
  array (iblk0).  The body reads the five input blocks (x, the two layer-norm vectors, the projection weights, the
  bias) and overwrites the four output blocks with uBlk, vBlk, qBlk, kBlk of them; the input buffers are left as
  they were.  Each output buffer is first read (the value is dropped) and then stored over its whole extent, so
  what it held before does not matter.
-/
import proofs.«419744_j566935683421_1_alg».proof.Proof.KI.Pay
import proofs.«419744_j566935683421_1_alg».proof.Proof.Gen.KernelIdeal.Skeleton
import proofs.«419744_j566935683421_1_alg».proof.Proof.Gen.KernelIdeal.Launch
import proofs.«419744_j566935683421_1_alg».proof.Proof.Gen.KernelIdeal.Points
import Idealize.ShloMosaic.Lib.Pipeline.Frame
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Loads and stores over a buffer's whole extent -/

/-- The all-zero offsets of ranks one, two and three. -/
theorem zeros1 : (![0] : Fin 1 → ℕ) = fun _ => 0 := funext fun a => by fin_cases a <;> rfl
theorem zeros2 : (![0, 0] : Fin 2 → ℕ) = fun _ => 0 := funext fun a => by fin_cases a <;> rfl
theorem zeros3 : (![0, 0, 0] : Fin 3 → ℕ) = fun _ => 0 := funext fun a => by fin_cases a <;> rfl

section Whole

variable {sg : RefSig} {κ : Kind} {sp : Space} {S : Shape} {e : EltTy} {Val : EltTy → Type}

/-- A load through the rectangle that starts at the origin and has the buffer's own extents reads the contents. -/
theorem readAt_all (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- One store through that rectangle leaves its payload, whatever the buffer held before. -/
theorem read_store_all [∀ e, Nonempty (Val e)] (v : View sg κ sp S e) (f : v.ty.Contents Val) {off : Fin S.rank → ℕ}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h inb]

end Whole

/-! ## The body's triple -/

set_option maxHeartbeats 1000000 in
/-- The kernel body on whole memrefs: the five inputs at given contents, each output buffer at some contents.
    It runs to the continuation with the inputs as they were and the outputs at the four blocks of the
    projection tile.  The loads and the stores all go through the whole extent of their buffer, so a load reads
    the contents and a store leaves its payload. -/
theorem sound_kernel0 (c : Dev nD) (E : Set ℕ) (i : grid0.Coords)
    (arg2 : Memref sig .tc .vmem S1x512x512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512x2048 .bf16) (harg5 : arg5.IsWhole)
    (arg6 : Memref sig .tc .vmem S2048 .f32) (harg6 : arg6.IsWhole) (arg7 : Memref sig .tc .vmem S1x512x512 .f32) (harg7 : arg7.IsWhole)
    (arg8 : Memref sig .tc .vmem S1x512x512 .bf16) (harg8 : arg8.IsWhole) (arg9 : Memref sig .tc .vmem S1x512x512 .bf16) (harg9 : arg9.IsWhole)
    (arg10 : Memref sig .tc .vmem S1x512x512 .bf16) (harg10 : arg10.IsWhole)
    (x : Vec F S1x512x512 .f32) (g b : Vec F S512 .f32) (w : Vec F S512x2048 .bf16) (bias : Vec F S2048 .f32) (K : PUnit → sProp 𝕄) :
    iprop(owns (c : Thread nD τ) arg2 fullShare x ∗ owns (c : Thread nD τ) arg3 fullShare g ∗ owns (c : Thread nD τ) arg4 fullShare b
        ∗ owns (c : Thread nD τ) arg5 fullShare w ∗ owns (c : Thread nD τ) arg6 fullShare bias
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x ∗ owns (c : Thread nD τ) arg3 fullShare g ∗ owns (c : Thread nD τ) arg4 fullShare b
            ∗ owns (c : Thread nD τ) arg5 fullShare w ∗ owns (c : Thread nD τ) arg6 fullShare bias
            ∗ owns (c : Thread nD τ) arg7 fullShare (uBlk x g b w bias) ∗ owns (c : Thread nD τ) arg8 fullShare (vBlk x g b w bias)
            ∗ owns (c : Thread nD τ) arg9 fullShare (qBlk x g b w bias) ∗ owns (c : Thread nD τ) arg10 fullShare (kBlk x g b w bias)) -∗ K ⟨⟩))
      ⊢ wp frame (wpE (defs₀ (F := F)) Variants.none c none) E
          (cc0_qkvu_proj_kernel i arg2 harg2 arg3 harg3 arg4 harg4 arg5 harg5 arg6 harg6 arg7 harg7 arg8 harg8 arg9 harg9 arg10 harg10) K := by
  simp only [cc0_qkvu_proj_kernel_eq_skeleton]; unfold cc0_qkvu_proj_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  isplitl [H8]
  · iexists _; isplitr
    swap; · iexact H8
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  isplitl [H9]
  · iexists _; isplitr
    swap; · iexact H9
    ipureintro
    rw [read_store_all (S := S1x512x512) _ _ zeros3]
    simp only [readAt_all (S := S1x512x512) _ _ zeros3, readAt_all (S := S512) _ _ zeros1, readAt_all (S := S512x2048) _ _ zeros2, readAt_all (S := S2048) _ _ zeros1]
    rfl
  iexists _; isplitr
  swap; · iexact H10
  ipureintro
  rw [read_store_all (S := S1x512x512) _ _ zeros3]
  simp only [readAt_all (S := S1x512x512) _ _ zeros3, readAt_all (S := S512) _ _ zeros1, readAt_all (S := S512x2048) _ _ zeros2, readAt_all (S := S2048) _ _ zeros1]
  rfl

/-! ## The pipeline's proof data -/

/-- The proof data of the projection pipeline on core `c`: the arrays as the region finds them; after the body at
    point `t` each input's buffer at its block and the four outputs' at the blocks of the projection tile of the
    input blocks; the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => uBlk (iblk0 V c 0 t) (iblk0 V c 1 t) (iblk0 V c 2 t) (iblk0 V c 3 t) (iblk0 V c 4 t)
    | ⟨6, _⟩ => vBlk (iblk0 V c 0 t) (iblk0 V c 1 t) (iblk0 V c 2 t) (iblk0 V c 3 t) (iblk0 V c 4 t)
    | ⟨7, _⟩ => qBlk (iblk0 V c 0 t) (iblk0 V c 1 t) (iblk0 V c 2 t) (iblk0 V c 3 t) (iblk0 V c 4 t)
    | ⟨8, _⟩ => kBlk (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = uBlk (iblk0 V c 0 t) (iblk0 V c 1 t) (iblk0 V c 2 t) (iblk0 V c 3 t) (iblk0 V c 4 t) := by dsimp only [dat0]
theorem after0_6 (c : Dev nD) (t : Fin cfg0.N) : (dat0 V c).after 6 t = vBlk (iblk0 V c 0 t) (iblk0 V c 1 t) (iblk0 V c 2 t) (iblk0 V c 3 t) (iblk0 V c 4 t) := by dsimp only [dat0]
theorem after0_7 (c : Dev nD) (t : Fin cfg0.N) : (dat0 V c).after 7 t = qBlk (iblk0 V c 0 t) (iblk0 V c 1 t) (iblk0 V c 2 t) (iblk0 V c 3 t) (iblk0 V c 4 t) := by dsimp only [dat0]
theorem after0_8 (c : Dev nD) (t : Fin cfg0.N) : (dat0 V c).after 8 t = kBlk (iblk0 V c 0 t) (iblk0 V c 1 t) (iblk0 V c 2 t) (iblk0 V c 3 t) (iblk0 V c 4 t) := by dsimp only [dat0]

/-! ## The inputs' buffers when the body is called -/

/-- Each input's current buffer holds its block at every point, whether the block was fetched there or was already
    in place: the body leaves the inputs as they were, and an input that is not fetched has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Defs.lean ====
/-
  The attention kernel's function at one grid point (b, qi, kvi), run on arbitrary whole buffers: the vocabulary its
  five control cases are stated in.

  The point's three conditionals: kvi = 0 (reset the accumulator), kvi ≤ qi (add this tile pair's contribution),
  kvi = 3 (write the output block from the accumulator). `scrAfter` and `outAfter` say what the accumulator and the
  output block hold after the point as functions of what they held before; `held` is the table and the nine window
  buffers at given contents. Small facts: a store through the whole-shape rectangle reads back its payload, and the
  table word the kernel loads is the table's entry at the batch coordinate.
-/
import proofs.«419744_j566935683421_1_alg».proof.Proof.KI.Pay
import proofs.«419744_j566935683421_1_alg».proof.Proof.Gen.KernelIdeal.Skeleton
import proofs.«419744_j566935683421_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The first conditional's condition (kvi = 0), as the kernel computes it from the point. -/
abbrev k1_cond1 (i : grid1.Coords) : BitVec 1 :=
  Scalar.cmpi .ne (Scalar.extui (Scalar.cmpi .eq (BitVec.ofNat 32 (i 2).val) 0#32)) 0#32

/-- The word of the sequence-length table the point reads: the one at its batch coordinate. -/
def lenAt (T : Vec F S8 .i32) (i : grid1.Coords) : Elt F .i32 := T (ValueIdx.ix1 (n := 8) (i 0))

/-- This tile pair's contribution added to accumulator contents `S`, at the point's coordinates and table word. -/
abbrev accAt (i : grid1.Coords) (T : Vec F S8 .i32) (q k v : Vec F S1x512x512 .bf16) (S : Vec F S512x512 .f32) :
    Vec F S512x512 .f32 :=
  accStep (BitVec.ofNat 32 (i 1).val) (BitVec.ofNat 32 (i 2).val) (lenAt T i) q k v S

/-- The nine window buffers and the table as the kernel finds them, the accumulator apart: the table at `T`, the
    q, k, v, u, x blocks, the output weights and the layer-norm weights at their contents, the output block at `X`. -/
def held (c : Dev nD) (arg3 : Memref sig .tc .smem S8 .i32) (arg4 arg5 arg6 : Memref sig .tc .vmem S1x512x512 .bf16)
    (arg7 arg8 : Memref sig .tc .vmem S1x512x512 .f32) (arg9 : Memref sig .tc .vmem S1536x512 .bf16)
    (arg10 arg11 : Memref sig .tc .vmem S512 .f32) (arg12 : Memref sig .tc .vmem S1x512x512 .f32)
    (T : Vec F S8 .i32) (q k v : Vec F S1x512x512 .bf16) (u x : Vec F S1x512x512 .f32) (ow : Vec F S1536x512 .bf16)
    (g2 b2 : Vec F S512 .f32) (X : Vec F S1x512x512 .f32) : sProp 𝕄 :=
  iprop(owns (c : Thread nD τ) arg3 fullShare T ∗ owns (c : Thread nD τ) arg4 fullShare q ∗ owns (c : Thread nD τ) arg5 fullShare k
    ∗ owns (c : Thread nD τ) arg6 fullShare v ∗ owns (c : Thread nD τ) arg7 fullShare u ∗ owns (c : Thread nD τ) arg8 fullShare x
    ∗ owns (c : Thread nD τ) arg9 fullShare ow ∗ owns (c : Thread nD τ) arg10 fullShare g2 ∗ owns (c : Thread nD τ) arg11 fullShare b2
    ∗ owns (c : Thread nD τ) arg12 fullShare X)

/-- What the accumulator holds after the point, from what it held before: reset if kvi = 0, then the contribution
    added if kvi ≤ qi. -/
def scrAfter (i : grid1.Coords) (T : Vec F S8 .i32) (q k v : Vec F S1x512x512 .bf16) (S : Vec F S512x512 .f32) :
    Vec F S512x512 .f32 :=
  if k1_cond2 i = 1#1 then accAt i T q k v (if k1_cond1 i = 1#1 then zeroAcc else S)
  else (if k1_cond1 i = 1#1 then zeroAcc else S)

/-- What the output block holds after the point: written from the accumulator if kvi = 3, else as it was. -/
def outAfter (i : grid1.Coords) (T : Vec F S8 .i32) (q k v : Vec F S1x512x512 .bf16) (u x : Vec F S1x512x512 .f32)
    (ow : Vec F S1536x512 .bf16) (g2 b2 : Vec F S512 .f32) (X : Vec F S1x512x512 .f32) (S : Vec F S512x512 .f32) :
    Vec F S1x512x512 .f32 :=
  if k1_cond3 i = 1#1 then finBlk (scrAfter i T q k v S) g2 b2 u x ow else X

/-! ## Whole-shape rectangles -/

/-- The zero offsets of each rank the kernel's whole-buffer loads and stores use, as constant functions. -/
theorem hz3 : (![0, 0, 0] : Fin S1x512x512.rank → ℕ) = fun _ => 0 := by funext a; fin_cases a <;> rfl
theorem hz2 : (![0, 0] : Fin S512x512.rank → ℕ) = fun _ => 0 := by funext a; fin_cases a <;> rfl
theorem hz2w : (![0, 0] : Fin S1536x512.rank → ℕ) = fun _ => 0 := by funext a; fin_cases a <;> rfl
theorem hz1 : (![0] : Fin S512.rank → ℕ) = fun _ => 0 := by funext a; fin_cases a <;> rfl

/-- A buffer whose newest store went through the whole-shape rectangle reads back that store's payload. -/
theorem read_writes_cons_unit_zero {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- The word the kernel loads from the table at the point's offset is the table's entry at the batch coordinate. -/
theorem ld_lenAt (T : Vec F S8 .i32) (i : grid1.Coords) (inb : ∀ a, (k1_off1 i) a + S1.size a ≤ S8.size a)
    (h : 0 < (Rect.unit (s := S8) (k1_off1 i) S1.size inb).shape.numel) :
    View.ld T (Rect.unit (s := S8) (k1_off1 i) S1.size inb) (Shape.Idx.first h) = lenAt T i := by
  unfold lenAt
  show T _ = T _
  congr 1
  funext a
  apply Fin.ext
  show (k1_off1 i) a + 1 * 0 = (ValueIdx.ix1 (n := 8) (i 0) a).val
  rw [k1_off1_eq]
  fin_cases a
  rfl

end Cert.KernelIdeal.Hand

end
-- ==== Proof.KI.R1RunA.lean ====
/-
  The attention kernel's function at a point with kvi = 0 (so kvi ≤ qi and kvi ≠ 3): the accumulator is reset to
  zeros, the point's table word and the q, k, v tiles are read, and the tile pair's contribution is added to the
  zeroed accumulator; nothing else is written.
-/
import proofs.«419744_j566935683421_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case A (kvi = 0): the accumulator is reset, then the contribution is added. -/
theorem sound_kernel1_A (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : k1_cond1 i = 1#1) (h2 : k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare (accAt i T q k v zeroAcc)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; swap; · iexact H13
    ipureintro
    rw [read_writes_cons_unit_zero _ _ hz2]
    sl_unfold_run_names
    unfold accAt accStep zeroAcc
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]

end Cert.KernelIdeal.Hand

end
-- ==== Proof.KI.R1RunB.lean ====
/-
  The attention kernel's function at a point with 0 < kvi ≤ qi, kvi ≠ 3: the point's table word and the q, k, v
  tiles are read and the tile pair's contribution is added to what the accumulator held; nothing else is written.
-/
import proofs.«419744_j566935683421_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case B (0 < kvi ≤ qi, kvi ≠ 3): the contribution is added to what the accumulator held. -/
theorem sound_kernel1_B (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare (accAt i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; swap; · iexact H13
    ipureintro
    rw [read_writes_cons_unit_zero _ _ hz2]
    sl_unfold_run_names
    unfold accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1]
    rw [ld_lenAt]

end Cert.KernelIdeal.Hand

end
-- ==== Proof.KI.R1RunC.lean ====
/-
  The attention kernel's function at a point with kvi = 3 = qi: the tile pair's contribution is added to what the
  accumulator held, then the output block is written from the accumulator just stored (read back), the layer-norm
  weights, u, x and the output weights.
-/
import proofs.«419744_j566935683421_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case C (kvi = 3 = qi): the contribution is added, then the output block is written from the accumulator. -/
theorem sound_kernel1_C (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : k1_cond2 i = 1#1) (h3 : k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (finBlk (accAt i T q k v S) g2 b2 u x ow)
            ∗ owns (c : Thread nD τ) arg13 fullShare (accAt i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; swap; · iexact H12
    ipureintro
    rw [read_writes_cons_unit_zero _ _ hz3]
    sl_unfold_run_names
    unfold finBlk accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]
  · iexists _; isplitr; swap; · iexact H13
    ipureintro
    sl_unfold_run_names
    rw [read_writes_cons_unit_zero _ _ hz2]
    unfold accAt accStep
    simp only [View.readAt_eq_ld, Memref.IsWhole.read_unread, View.ld_unit_zero (S := S512x512) hz2, View.ld_unit_zero (S := S1x512x512) hz3, View.ld_unit_zero (S := S1536x512) hz2w, View.ld_unit_zero (S := S512) hz1, View.readCov_unit_zero (S := S512x512) _ hz2]
    rw [ld_lenAt]

end Cert.KernelIdeal.Hand

end
-- ==== Proof.KI.R1RunD.lean ====
/-
  The attention kernel's function at a point with kvi > qi, kvi ≠ 3: none of its three conditionals is taken;
  every buffer is handed back as it was.
-/
import proofs.«419744_j566935683421_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case D (kvi > qi, kvi ≠ 3): nothing is read or written. -/
theorem sound_kernel1_D (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : ¬ k1_cond2 i = 1#1) (h3 : ¬ k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 X
            ∗ owns (c : Thread nD τ) arg13 fullShare S) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; · ipureintro; exact harg12.read_unread _
    iexact H12
  · iexists _; isplitr; · ipureintro; exact harg13.read_unread _
    iexact H13

end Cert.KernelIdeal.Hand

end
-- ==== Proof.KI.R1RunE.lean ====
/-
  The attention kernel's function at a point with kvi = 3 > qi: no contribution is added; the output block is
  written from what the accumulator held, the layer-norm weights, u, x and the output weights.
-/
import proofs.«419744_j566935683421_1_alg».proof.Proof.KI.R1Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

set_option maxHeartbeats 1000000 in
/-- Case E (kvi = 3 > qi): the output block is written from what the accumulator held. -/
theorem sound_kernel1_E (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)
    (h1 : ¬ k1_cond1 i = 1#1) (h2 : ¬ k1_cond2 i = 1#1) (h3 : k1_cond3 i = 1#1)
    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (finBlk S g2 b2 u x ow)
            ∗ owns (c : Thread nD τ) arg13 fullShare S) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  simp only [cc1_sta_attention_kernel_eq_skeleton]; unfold cc1_sta_attention_kernel_skel
  unfold held owns
  iintro ⟨⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%f13, %hf13, H13⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12; obtain rfl := harg13.eq_unread hf13
  sl_exec (disch := first | exact h1 | exact h2 | exact h3)
  sl_step
  iapply Hk
  isplitr [H13]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    iexists _; isplitr; swap; · iexact H12
    ipureintro
    rw [read_writes_cons_unit_zero _ _ hz3]
    sl_unfold_run_names
    unfold finBlk
    simp only [View.readAt_eq_ld, Memref.IsWhole.read_unread, View.ld_unit_zero (S := S512x512) hz2, View.ld_unit_zero (S := S1x512x512) hz3, View.ld_unit_zero (S := S1536x512) hz2w, View.ld_unit_zero (S := S512) hz1]
  · iexists _; isplitr; · ipureintro; exact harg13.read_unread _
    iexact H13

end Cert.KernelIdeal.Hand

end
-- ==== Proof.KI.R1Run.lean ====
/-
  The attention kernel's function at ANY grid point (b, qi, kvi), on arbitrary whole buffers: it hands every input
  back as it was, leaves the accumulator at `scrAfter` of what it held and the output block at `outAfter` — the five
  control cases (modules R1RunA … R1RunE) in one statement. The three assignments of the conditionals the five cases
  leave out do not occur: on the grid kvi = 0 forces kvi ≤ qi and kvi ≠ 3.
-/
import proofs.«419744_j566935683421_1_alg».proof.Proof.KI.R1RunA
import proofs.«419744_j566935683421_1_alg».proof.Proof.KI.R1RunB
import proofs.«419744_j566935683421_1_alg».proof.Proof.KI.R1RunC
import proofs.«419744_j566935683421_1_alg».proof.Proof.KI.R1RunD
import proofs.«419744_j566935683421_1_alg».proof.Proof.KI.R1RunE

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- On the grid, kvi = 0 gives kvi ≤ qi and kvi ≠ 3: where the accumulator is reset the contribution is added and
    the output block is not written. -/
theorem cond1_imp : ∀ i : grid1.Coords, k1_cond1 i = 1#1 → k1_cond2 i = 1#1 ∧ ¬ k1_cond3 i = 1#1 := by decide +kernel

/-- Every point of the grid: the five cases in one statement. -/
theorem sound_kernel1 (𝒱 : Variants) (c : Dev nD) (i : grid1.Coords) (arg3 : Memref sig .tc .smem S8 .i32) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x512 .f32) (harg7 : arg7.IsWhole) (arg8 : Memref sig .tc .vmem S1x512x512 .f32) (harg8 : arg8.IsWhole) (arg9 : Memref sig .tc .vmem S1536x512 .bf16) (harg9 : arg9.IsWhole) (arg10 : Memref sig .tc .vmem S512 .f32) (harg10 : arg10.IsWhole) (arg11 : Memref sig .tc .vmem S512 .f32) (harg11 : arg11.IsWhole) (arg12 : Memref sig .tc .vmem S1x512x512 .f32) (harg12 : arg12.IsWhole) (arg13 : Memref sig .tc .vmem S512x512 .f32) (harg13 : arg13.IsWhole)

    (T : Vec F S8 .i32) (q k v : Vec F S1x512x512 .bf16) (u x : Vec F S1x512x512 .f32) (ow : Vec F S1536x512 .bf16) (g2 b2 : Vec F S512 .f32) (X : Vec F S1x512x512 .f32) (S : Vec F S512x512 .f32) (E : Set Name) (K : PUnit → sProp 𝕄) :
    iprop(held c arg3 arg4 arg5 arg6 arg7 arg8 arg9 arg10 arg11 arg12 T q k v u x ow g2 b2 X ∗ owns (c : Thread nD τ) arg13 fullShare S
        ∗ (iprop(held c arg3 arg4 arg5 arg6 arg7 arg8 arg9 arg10 arg11 arg12 T q k v u x ow g2 b2 (outAfter i T q k v u x ow g2 b2 X S)
            ∗ owns (c : Thread nD τ) arg13 fullShare (scrAfter i T q k v S)) -∗ K ⟨⟩))
      ⊢ wp frame (wpE (defs₀ (F := F)) 𝒱 c none) E (cc1_sta_attention_kernel i arg3 harg3 arg4 harg4 arg5 harg5 arg6 harg6 arg7 harg7 arg8 harg8 arg9 harg9 arg10 harg10 arg11 harg11 arg12 harg12 arg13 harg13) K := by
  by_cases h1 : k1_cond1 i = 1#1
  · obtain ⟨h2, h3⟩ := cond1_imp i h1
    unfold outAfter scrAfter
    simp only [if_pos h1, if_pos h2, if_neg h3]
    exact sound_kernel1_A 𝒱 c i arg3 harg3 arg4 harg4 arg5 harg5 arg6 harg6 arg7 harg7 arg8 harg8 arg9 harg9 arg10 harg10 arg11 harg11 arg12 harg12 arg13 harg13 h1 h2 h3 T q k v u x ow g2 b2 X S E K
  · by_cases h2 : k1_cond2 i = 1#1
    · by_cases h3 : k1_cond3 i = 1#1
      · unfold outAfter scrAfter
        simp only [if_neg h1, if_pos h2, if_pos h3]
        exact sound_kernel1_C 𝒱 c i arg3 harg3 arg4 harg4 arg5 harg5 arg6 harg6 arg7 harg7 arg8 harg8 arg9 harg9 arg10 harg10 arg11 harg11 arg12 harg12 arg13 harg13 h1 h2 h3 T q k v u x ow g2 b2 X S E K
      · unfold outAfter scrAfter
        simp only [if_neg h1, if_pos h2, if_neg h3]
        exact sound_kernel1_B 𝒱 c i arg3 harg3 arg4 harg4 arg5 harg5 arg6 harg6 arg7 harg7 arg8 harg8 arg9 harg9 arg10 harg10 arg11 harg11 arg12 harg12 arg13 harg13 h1 h2 h3 T q k v u x ow g2 b2 X S E K
    · by_cases h3 : k1_cond3 i = 1#1
      · unfold outAfter scrAfter
        simp only [if_neg h1, if_neg h2, if_pos h3]
        exact sound_kernel1_E 𝒱 c i arg3 harg3 arg4 harg4 arg5 harg5 arg6 harg6 arg7 harg7 arg8 harg8 arg9 harg9 arg10 harg10 arg11 harg11 arg12 harg12 arg13 harg13 h1 h2 h3 T q k v u x ow g2 b2 X S E K
      · unfold outAfter scrAfter
        simp only [if_neg h1, if_neg h2, if_neg h3]
        exact sound_kernel1_D 𝒱 c i arg3 harg3 arg4 harg4 arg5 harg5 arg6 harg6 arg7 harg7 arg8 harg8 arg9 harg9 arg10 harg10 arg11 harg11 arg12 harg12 arg13 harg13 h1 h2 h3 T q k v u x ow g2 b2 X S E K

end Cert.KernelIdeal.Hand

end
-- ==== Proof.KI.R1Points.lean ====
/-
  The attention kernel's region: the scoped buffers and the table it is handed.

  Of the core's scoped buffers that are no staging buffer of this region, one is the accumulator and the others
  are the projection region's staging buffers; the region is handed all of them at some contents, so they split
  into the others and the accumulator owned at some contents, and join back.  The region's one table, the
  sequence lengths, is held whole at its contents: that is its buffer owned at them.
-/
import proofs.«419744_j566935683421_1_alg».proof.Proof.Gen.KernelIdeal.Launch
import Idealize.ShloMosaic.Lib.Pipeline.Frame
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg1 (F := F)).Adm)

/-! ## The scoped buffers the region is handed -/

/-- The accumulator, a whole scoped buffer of the kernel's own. -/
abbrev scM1 : Memref sig .tc .vmem S512x512 .f32 := Memref.whole cc1_scratch0

/-- The core's scoped buffers that are neither a staging buffer of this region nor the accumulator: the other
    region's staging buffers, each at some contents. -/
def scopedOthers1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f))

/-- The scoped buffers outside this region's staging buffers are those and the accumulator at some contents. -/
theorem scopedRest1_split (c : Dev nD) :
    (Pipeline.scopedRest (Ix := Unit) (Name := ℕ) (U := UR sig nD τ) (Lvl := ℕ) (Val := Elt F) spec1 c : sProp 𝕄)
      ⊢ iprop(scopedOthers1 (F := F) c ∗ ∃ d, owns (c : Thread nD τ) scM1 fullShare d) := by
  rw [scopedRest1_eq]; unfold scopedOthers1; simp only [scM1, owns_whole]
  iintro ⟨H0, H1, H2, H3, H4, H5, H6, H7, H8, H9, H10, H11, H12, H13, HS⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · iexact HS

/-- And back. -/
theorem scopedRest1_join (c : Dev nD) :
    (iprop(scopedOthers1 (F := F) c ∗ ∃ d, owns (c : Thread nD τ) scM1 fullShare d) : sProp 𝕄)
      ⊢ Pipeline.scopedRest (Ix := Unit) (Name := ℕ) (U := UR sig nD τ) (Lvl := ℕ) (Val := Elt F) spec1 c := by
  rw [scopedRest1_eq]; unfold scopedOthers1; simp only [scM1, owns_whole]
  iintro ⟨⟨H0, H1, H2, H3, H4, H5, H6, H7, H8, H9, H10, H11, H12, H13⟩, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HS

/-! ## The table the region is handed -/

/-- The region's one table, held whole at the full share at its contents, is its buffer owned at them. -/
theorem prefHeld1_eq (c : Dev nD) :
    (Pipeline.prefHeld (Ix := Unit) (Name := ℕ) (U := UR sig nD τ) (Lvl := ℕ) pre1 c (fun _ => fullShare) a.1 : sProp 𝕄)
      = owns (c : Thread nD τ) (Memref.whole main_arg1 : Memref sig .tc .smem S8 .i32) fullShare (a.1 0) := by
  unfold Pipeline.prefHeld
  rw [show (Finset.univ : Finset (Fin pre1.K)) = {(0 : Fin 1)} from by decide, bigSep_singleton]
  exact (owns_whole (c : Thread nD τ) main_arg1 fullShare (a.1 0)).symm

end Cert.KernelIdeal.Hand

end
-- ==== Proof.KI.R1Dat.lean ====
/-
  The attention kernel's region: when its output window is written back, its proof data and its body obligation.

  The grid has 8 × 4 × 4 points (b, qi, kvi), visited in row-major order, so at position t the coordinates are
  b = t / 16, qi = t / 4 mod 4, kvi = t mod 4.  The accumulator is carried from point to point: it is reset at
  kvi = 0, the tile pair's contribution is added when kvi ≤ qi, and at kvi = 3 the output block is computed from it
  and stored; the output window is written back exactly at those points and is left alone at the others.  All
  eight input windows hold their array's block at every point.  The body reads one word of the sequence-length
  table, the one at the batch coordinate.
-/
import proofs.«419744_j566935683421_1_alg».proof.Proof.KI.Pay
import proofs.«419744_j566935683421_1_alg».proof.Proof.KI.R1Run
import proofs.«419744_j566935683421_1_alg».proof.Proof.KI.R1Points
import proofs.«419744_j566935683421_1_alg».proof.Proof.Gen.KernelIdeal.Skeleton
import proofs.«419744_j566935683421_1_alg».proof.Proof.Gen.KernelIdeal.Launch
import Idealize.ShloMosaic.Lib.Pipeline.Frame
import Idealize.ShloMosaic.Lib.Pipeline.FrameBody
import Idealize.ShloMosaic.Lib.Pipeline.Kit
import Idealize.ShloMosaic.Lib.Pipeline.Dat
import Idealize.ShloMosaic.Lib.Pipeline.TableIdle
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The grid's points and the body's conditions, in closed form -/

/-- The batch coordinate of position `t`. -/
theorem coords1_0 : ∀ t : Fin grid1.N, (grid1.coords t 0).val = t.val / 16 := by decide +kernel
/-- The q-tile coordinate of position `t`. -/
theorem coords1_1 : ∀ t : Fin grid1.N, (grid1.coords t 1).val = t.val / 4 % 4 := by decide +kernel
/-- The kv-tile coordinate of position `t`. -/
theorem coords1_2 : ∀ t : Fin grid1.N, (grid1.coords t 2).val = t.val % 4 := by decide +kernel

/-- The reset condition holds exactly at kvi = 0. -/
theorem hcond1_1 : ∀ t : Fin grid1.N, k1_cond1 (grid1.coords t) = 1#1 ↔ t.val % 4 = 0 := by decide +kernel
/-- The accumulate condition holds exactly at kvi ≤ qi. -/
theorem hcond1_2 : ∀ t : Fin grid1.N, k1_cond2 (grid1.coords t) = 1#1 ↔ t.val % 4 ≤ t.val / 4 % 4 := by decide +kernel
/-- The finish condition holds exactly at kvi = 3. -/
theorem hcond1_3 : ∀ t : Fin grid1.N, k1_cond3 (grid1.coords t) = 1#1 ↔ t.val % 4 = 3 := by decide +kernel

variable (V : (c : Dev nD) → (b : Ref sig .tc) → Buf (Elt F) ((c : Thread nD τ).loc b)) (a : (pcfg1 (F := F)).Adm)

/-! ## When the output window is idle and when it is written back -/

/-- No input window is ever idle; the output window is idle exactly away from kvi = 3. -/
theorem idle1_8 : ∀ t : Fin (cfg1 a).N, (cfg1 a).idle (8 : Fin 9) ((cfg1 a).grid.coords t) = true ↔ ¬ t.val % 4 = 3 :=
  (by decide +kernel : ∀ t : Fin grid1.N, idle1 8 (grid1.coords t) = true ↔ ¬ t.val % 4 = 3)
/-- The output window is written back exactly at kvi = 3: there the next point's block differs, or the grid ends. -/
theorem flush1_8 : ∀ t : Fin (cfg1 a).N, ((cfg1 a).win (8 : Fin 9)).flush t = true ↔ t.val % 4 = 3 :=
  (by decide +kernel : ∀ t : Fin grid1.N, Pipeline.Window.flushOf grid1 true cc1_transform_8 t = true ↔ t.val % 4 = 3)

/-! ## The windows' blocks and the table word -/

/-- Window `w`'s block at position `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The word of the sequence-length table the body reads at position `t`: the one at the batch coordinate. -/
def lenAt1 (t : Fin (cfg1 a).N) : Elt F .i32 := lenAt (a.1 0) (grid1.coords t)

/-! ## What the accumulator and the output block hold after each point -/

/-- The accumulator after the body at position `t`, from what it held before: reset at kvi = 0, then the tile
    pair's contribution added when kvi ≤ qi. -/
def accNext (c : Dev nD) (t : Fin (cfg1 a).N) (S : Vec F S512x512 .f32) : Vec F S512x512 .f32 :=
  if t.val % 4 ≤ t.val / 4 % 4 then
    accStep (BitVec.ofNat 32 (t.val / 4 % 4)) (BitVec.ofNat 32 (t.val % 4)) (lenAt1 a t) (iblk1 V a c 0 t) (iblk1 V a c 1 t) (iblk1 V a c 2 t)
      (if t.val % 4 = 0 then zeroAcc else S)
  else (if t.val % 4 = 0 then zeroAcc else S)

/-- The output block computed from accumulator contents `S` at position `t`. -/
def outNext (c : Dev nD) (t : Fin (cfg1 a).N) (S : Vec F S512x512 .f32) : Vec F S1x512x512 .f32 :=
  finBlk S (iblk1 V a c 6 t) (iblk1 V a c 7 t) (iblk1 V a c 3 t) (iblk1 V a c 4 t) (iblk1 V a c 5 t)

/-- What the output block (first component) and the accumulator (second) hold after the body at position `n`, by
    recursion on the position.  The first component is what the body stores at kvi = 3; at the other points the
    output window is idle and nothing consults it. -/
def outsAt1 (c : Dev nD) : (n : ℕ) → n < (cfg1 a).N → Vec F S1x512x512 .f32 × Vec F S512x512 .f32
  | 0, h => (outNext V a c ⟨0, h⟩ (accNext V a c ⟨0, h⟩ zeroAcc), accNext V a c ⟨0, h⟩ zeroAcc)
  | n + 1, h => (outNext V a c ⟨n + 1, h⟩ (accNext V a c ⟨n + 1, h⟩ (outsAt1 c n (Nat.lt_of_succ_lt h)).2),
      accNext V a c ⟨n + 1, h⟩ (outsAt1 c n (Nat.lt_of_succ_lt h)).2)

/-- The accumulator's recursion: reset at kvi = 0, the contribution added at kvi ≤ qi, over what the point before left. -/
theorem outsAt1_snd (c : Dev nD) (t : Fin (cfg1 a).N) :
    (outsAt1 V a c t.val t.isLt).2 =
      if t.val % 4 ≤ t.val / 4 % 4 then
        accStep (BitVec.ofNat 32 (t.val / 4 % 4)) (BitVec.ofNat 32 (t.val % 4)) (lenAt1 a t) (iblk1 V a c 0 t) (iblk1 V a c 1 t) (iblk1 V a c 2 t)
          (if t.val % 4 = 0 then zeroAcc else (outsAt1 V a c (t.val - 1) (Nat.lt_of_le_of_lt (Nat.sub_le _ _) t.isLt)).2)
      else (if t.val % 4 = 0 then zeroAcc else (outsAt1 V a c (t.val - 1) (Nat.lt_of_le_of_lt (Nat.sub_le _ _) t.isLt)).2) := by
  obtain ⟨n, hn⟩ := t
  cases n with
  | zero =>
    show accNext V a c ⟨0, hn⟩ zeroAcc = _
    unfold accNext
    simp only [Nat.zero_mod, ↓reduceIte]
  | succ n => rfl

/-- The output block is computed from the accumulator as the point leaves it. -/
theorem outsAt1_fst (c : Dev nD) (t : Fin (cfg1 a).N) :
    (outsAt1 V a c t.val t.isLt).1 = finBlk (outsAt1 V a c t.val t.isLt).2 (iblk1 V a c 6 t) (iblk1 V a c 7 t) (iblk1 V a c 3 t) (iblk1 V a c 4 t) (iblk1 V a c 5 t) := by
  obtain ⟨n, hn⟩ := t
  cases n with
  | zero => rfl
  | succ n => rfl

/-! ## The region invariant -/

/-- The region invariant before position `n`: the generator register at some state, the sequence-length table
    whole at its contents, and the scoped buffers — before the first point each at some contents, afterwards the
    accumulator at what the point before left in it and the others at some contents. -/
def PhiS1 (c : Dev nD) : (n : ℕ) → n ≤ (cfg1 a).N → sProp 𝕄
  | 0, _ => iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c)
  | n + 1, hn => iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c n hn).2)

theorem PhiS1_zero (c : Dev nD) (n : ℕ) (h : n ≤ (cfg1 a).N) (hz : n = 0) :
    PhiS1 V a c n h = iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) := by
  subst hz; rfl

/-- After position `n` (before position `n + 1`): the accumulator at that point's contents. -/
theorem PhiS1_succ (c : Dev nD) (n : ℕ) (hn : n < (cfg1 a).N) :
    PhiS1 V a c (n + 1) hn = iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c n hn).2) := rfl

/-- Before a position that is not the first: the accumulator at what the point before left. -/
theorem PhiS1_pos (c : Dev nD) (n : ℕ) (h : n ≤ (cfg1 a).N) (hz : n ≠ 0) :
    PhiS1 V a c n h = iprop((∃ r, prngReg c r) ∗ Pipeline.prefHeld (Ix := Unit) (Name := ℕ) (U := UR sig nD τ) (Lvl := ℕ) pre1 c (fun _ => fullShare) a.1 ∗ scopedOthers1 (F := F) c
      ∗ owns (c : Thread nD τ) scM1 fullShare (outsAt1 V a c (n - 1) (by omega)).2) := by
  cases n with
  | zero => exact absurd rfl hz
  | succ n => rfl

/-- What the kernel leaves in the accumulator at position `t` is the recursion's step. -/
theorem scrAfter_eq (c : Dev nD) (t : Fin (cfg1 a).N) (S : Vec F S512x512 .f32) :
    scrAfter (grid1.coords t) (a.1 0) (iblk1 V a c 0 t) (iblk1 V a c 1 t) (iblk1 V a c 2 t) S = accNext V a c t S := by
  unfold scrAfter accNext accAt lenAt1
  simp only [hcond1_1 t, hcond1_2 t, coords1_1 t, coords1_2 t]

/-- The accumulator's step does not look at what it held before when it is reset; otherwise it is taken over what
    the point before left. -/
theorem accNext_eq (c : Dev nD) (t : Fin (cfg1 a).N) (S : Vec F S512x512 .f32) (hS : t.val ≠ 0 → S = (outsAt1 V a c (t.val - 1) (Nat.lt_of_le_of_lt (Nat.sub_le _ _) t.isLt)).2) :
    accNext V a c t S = (outsAt1 V a c t.val t.isLt).2 := by
  rw [outsAt1_snd]
  unfold accNext
  by_cases hz : t.val = 0
  · have h0 : t.val % 4 = 0 := by rw [hz]
    simp only [h0, ↓reduceIte]
  · rw [hS hz]

/-- What the kernel leaves in the output block at position `t`: the block computed there at kvi = 3, else what
    it held. -/
theorem outAfter_eq (c : Dev nD) (t : Fin (cfg1 a).N) (S : Vec F S512x512 .f32) (hS : t.val ≠ 0 → S = (outsAt1 V a c (t.val - 1) (Nat.lt_of_le_of_lt (Nat.sub_le _ _) t.isLt)).2) (X : Vec F S1x512x512 .f32) :
    outAfter (grid1.coords t) (a.1 0) (iblk1 V a c 0 t) (iblk1 V a c 1 t) (iblk1 V a c 2 t) (iblk1 V a c 3 t) (iblk1 V a c 4 t) (iblk1 V a c 5 t) (iblk1 V a c 6 t) (iblk1 V a c 7 t) X S
      = if t.val % 4 = 3 then (outsAt1 V a c t.val t.isLt).1 else X := by
  unfold outAfter
  rw [scrAfter_eq, accNext_eq V a c t S hS, outsAt1_fst]
  simp only [hcond1_3 t]

/-- The invariant before position `t`, opened: the accumulator at some contents, which after the first point are
    what the point before left. -/
theorem PhiS1_open (c : Dev nD) (t : Fin (cfg1 a).N) :
    PhiS1 V a c t.val (Nat.le_of_lt t.isLt) ⊢ iprop(∃ S : Vec F S512x512 .f32,
      ⌜t.val ≠ 0 → S = (outsAt1 V a c (t.val - 1) (Nat.lt_of_le_of_lt (Nat.sub_le _ _) t.isLt)).2⌝
      ∗ (∃ r, prngReg c r) ∗ owns (c : Thread nD τ) (Memref.whole main_arg1 : Memref sig .tc .smem S8 .i32) fullShare (a.1 0) ∗ scopedOthers1 (F := F) c ∗ owns (c : Thread nD τ) scM1 fullShare S) := by
  by_cases hz : t.val = 0
  · rw [PhiS1_zero V a c _ _ hz, prefHeld1_eq]
    iintro ⟨Hg, Hp, Hr⟩
    have hsp := scopedRest1_split (F := F) c
    ihave Hr' := hsp $$ Hr
    icases Hr' with ⟨Ho, ⟨%S, HS⟩⟩
    iexists S
    isplitr
    · ipureintro; intro h; exact absurd hz h
    isplitl [Hg]; · iexact Hg
    isplitl [Hp]; · iexact Hp
    isplitl [Ho]; · iexact Ho
    iexact HS
  · rw [PhiS1_pos V a c _ _ hz, prefHeld1_eq]
    iintro ⟨Hg, Hp, Ho, HS⟩
    iexists _
    isplitr
    · ipureintro; intro _; rfl
    isplitl [Hg]; · iexact Hg
    isplitl [Hp]; · iexact Hp
    isplitl [Ho]; · iexact Ho
    iexact HS

/-! ## The proof data -/

/-- The proof data of the region on core `c`: the arrays as the region finds them; after the body at position `t`
    each input's buffer at its block and the output's at the block computed there; the invariant above; nothing
    owed; full shares. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, _⟩ => iblk1 V a c 4 t
    | ⟨5, _⟩ => iblk1 V a c 5 t
    | ⟨6, _⟩ => iblk1 V a c 6 t
    | ⟨7, _⟩ => iblk1 V a c 7 t
    | ⟨8, _⟩ => (outsAt1 V a c t.val t.isLt).1
  Φ t := PhiS1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 9) t = iblk1 V a c 0 t := by dsimp only [dat1]
theorem after1_1 (c : Dev nD) (t : Fin (cfg1 a).N) : (dat1 V a c).after (1 : Fin 9) t = iblk1 V a c 1 t := by dsimp only [dat1]
theorem after1_2 (c : Dev nD) (t : Fin (cfg1 a).N) : (dat1 V a c).after (2 : Fin 9) t = iblk1 V a c 2 t := by dsimp only [dat1]
theorem after1_3 (c : Dev nD) (t : Fin (cfg1 a).N) : (dat1 V a c).after (3 : Fin 9) t = iblk1 V a c 3 t := by dsimp only [dat1]
theorem after1_4 (c : Dev nD) (t : Fin (cfg1 a).N) : (dat1 V a c).after (4 : Fin 9) t = iblk1 V a c 4 t := by dsimp only [dat1]
theorem after1_5 (c : Dev nD) (t : Fin (cfg1 a).N) : (dat1 V a c).after (5 : Fin 9) t = iblk1 V a c 5 t := by dsimp only [dat1]
theorem after1_6 (c : Dev nD) (t : Fin (cfg1 a).N) : (dat1 V a c).after (6 : Fin 9) t = iblk1 V a c 6 t := by dsimp only [dat1]
theorem after1_7 (c : Dev nD) (t : Fin (cfg1 a).N) : (dat1 V a c).after (7 : Fin 9) t = iblk1 V a c 7 t := by dsimp only [dat1]
theorem after1_8 (c : Dev nD) (t : Fin (cfg1 a).N) : (dat1 V a c).after (8 : Fin 9) t = (outsAt1 V a c t.val t.isLt).1 := by dsimp only [dat1]

/-! ## The body obligation -/

/-- The invariant at a point's start, restated at `t.val`. -/
theorem PhiS1_castSucc (c : Dev nD) (t : Fin (cfg1 a).N) :
    (dat1 V a c).Φ t.castSucc = PhiS1 V a c t.val (Nat.le_of_lt t.isLt) := by
  dsimp only [dat1]; simp only [Fin.coe_castSucc]

/-- Each input's current staging buffer holds its block at every point, fetched there or not: where it is not
    fetched the block index has not moved since the point before. -/
theorem before1_0 (c : Dev nD) (t : Fin (cfg1 a).N) (d) : (dat1 V a c).before (0 : Fin 9) t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 9) t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before (2 : Fin 9) t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin (cfg1 a).N) (d) : (dat1 V a c).before (3 : Fin 9) t d = iblk1 V a c 3 t :=
  ((dat1 V a c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin (cfg1 a).N) (d) : (dat1 V a c).before (4 : Fin 9) t d = iblk1 V a c 4 t :=
  ((dat1 V a c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin (cfg1 a).N) (d) : (dat1 V a c).before (5 : Fin 9) t d = iblk1 V a c 5 t :=
  ((dat1 V a c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin (cfg1 a).N) (d) : (dat1 V a c).before (6 : Fin 9) t d = iblk1 V a c 6 t :=
  ((dat1 V a c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin (cfg1 a).N) (d) : (dat1 V a c).before (7 : Fin 9) t d = iblk1 V a c 7 t :=
  ((dat1 V a c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)

abbrev ms1_0 (t : Fin (cfg1 a).N) : Memref sig .tc .vmem S1x512x512 .bf16 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x512x512 .bf16 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x512x512 .bf16 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S1x512x512 .f32 := spec1_3.stage ((cfg1 a).slots t 3)
abbrev hs1_3 (t : Fin (cfg1 a).N) : (ms1_3 a t).IsWhole := hstage1_3 (((cfg1 a).slots t 3).cast nbuf1_3)
abbrev ms1_4 (t : Fin (cfg1 a).N) : Memref sig .tc .vmem S1x512x512 .f32 := spec1_4.stage ((cfg1 a).slots t 4)
abbrev hs1_4 (t : Fin (cfg1 a).N) : (ms1_4 a t).IsWhole := hstage1_4 (((cfg1 a).slots t 4).cast nbuf1_4)
abbrev ms1_5 (t : Fin (cfg1 a).N) : Memref sig .tc .vmem S1536x512 .bf16 := spec1_5.stage ((cfg1 a).slots t 5)
abbrev hs1_5 (t : Fin (cfg1 a).N) : (ms1_5 a t).IsWhole := hstage1_5 (((cfg1 a).slots t 5).cast nbuf1_5)
abbrev ms1_6 (t : Fin (cfg1 a).N) : Memref sig .tc .vmem S512 .f32 := spec1_6.stage ((cfg1 a).slots t 6)
abbrev hs1_6 (t : Fin (cfg1 a).N) : (ms1_6 a t).IsWhole := hstage1_6 (((cfg1 a).slots t 6).cast nbuf1_6)
abbrev ms1_7 (t : Fin (cfg1 a).N) : Memref sig .tc .vmem S512 .f32 := spec1_7.stage ((cfg1 a).slots t 7)
abbrev hs1_7 (t : Fin (cfg1 a).N) : (ms1_7 a t).IsWhole := hstage1_7 (((cfg1 a).slots t 7).cast nbuf1_7)
abbrev ms1_8 (t : Fin (cfg1 a).N) : Memref sig .tc .vmem S1x512x512 .f32 := spec1_8.stage ((cfg1 a).slots t 8)
abbrev hs1_8 (t : Fin (cfg1 a).N) : (ms1_8 a t).IsWhole := hstage1_8 (((cfg1 a).slots t 8).cast nbuf1_8)

/-- The kernel body at position `t`, on what the pipeline calls it with. -/
abbrev bodyAt1 (t : Fin (cfg1 a).N) : Prog (TpuEff nD τ sig (Elt F) Λ₀ .tc) PUnit :=
  cc1_sta_attention_kernel (grid1.coords t) (Memref.whole main_arg1) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) scM1 (Memref.isWhole_whole _)

/-- The kernel body at position `t`, over the accumulator at `S` and the output buffer at `X`: it returns the
    inputs as they were, the accumulator at the recursion's value and the output buffer at the block computed
    there when kvi = 3, else as it was. -/
theorem kernel_at (c : Dev nD) (t : Fin (cfg1 a).N) (S : Vec F S512x512 .f32) (hS : t.val ≠ 0 → S = (outsAt1 V a c (t.val - 1) (Nat.lt_of_le_of_lt (Nat.sub_le _ _) t.isLt)).2)
    (X : Vec F S1x512x512 .f32) (K : PUnit → sProp 𝕄) :
    iprop(held c (Memref.whole main_arg1) (ms1_0 a t) (ms1_1 a t) (ms1_2 a t) (ms1_3 a t) (ms1_4 a t) (ms1_5 a t) (ms1_6 a t) (ms1_7 a t) (ms1_8 a t) (a.1 0) (iblk1 V a c 0 t) (iblk1 V a c 1 t) (iblk1 V a c 2 t) (iblk1 V a c 3 t) (iblk1 V a c 4 t) (iblk1 V a c 5 t) (iblk1 V a c 6 t) (iblk1 V a c 7 t) X
        ∗ owns (c : Thread nD τ) scM1 fullShare S
        ∗ (iprop(held c (Memref.whole main_arg1) (ms1_0 a t) (ms1_1 a t) (ms1_2 a t) (ms1_3 a t) (ms1_4 a t) (ms1_5 a t) (ms1_6 a t) (ms1_7 a t) (ms1_8 a t) (a.1 0) (iblk1 V a c 0 t) (iblk1 V a c 1 t) (iblk1 V a c 2 t) (iblk1 V a c 3 t) (iblk1 V a c 4 t) (iblk1 V a c 5 t) (iblk1 V a c 6 t) (iblk1 V a c 7 t) (if t.val % 4 = 3 then (outsAt1 V a c t.val t.isLt).1 else X)
            ∗ owns (c : Thread nD τ) scM1 fullShare (outsAt1 V a c t.val t.isLt).2) -∗ K ⟨⟩))
      ⊢ wp frame (wpE (defs₀ (F := F)) Variants.none c none) Set.univ (bodyAt1 a t) K := by
  have hk := sound_kernel1 (Ix := Unit) (Name := ℕ) (U := UR sig nD τ) (Lvl := ℕ) Variants.none c (grid1.coords t)
    (Memref.whole main_arg1) (Memref.isWhole_whole _) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) scM1 (Memref.isWhole_whole _)
    (a.1 0) (iblk1 V a c 0 t) (iblk1 V a c 1 t) (iblk1 V a c 2 t) (iblk1 V a c 3 t) (iblk1 V a c 4 t) (iblk1 V a c 5 t) (iblk1 V a c 6 t) (iblk1 V a c 7 t) X S Set.univ K
  rw [outAfter_eq V a c t S hS X, scrAfter_eq, accNext_eq V a c t S hS] at hk
  exact hk

/-- What the body is called with at position `t`, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before (0 : Fin 9) t d))
    ∗ (∃ d, owns (c : Thread nD τ) (ms1_1 a t) fullShare ((dat1 V a c).before (1 : Fin 9) t d))
    ∗ (∃ d, owns (c : Thread nD τ) (ms1_2 a t) fullShare ((dat1 V a c).before (2 : Fin 9) t d))
    ∗ (∃ d, owns (c : Thread nD τ) (ms1_3 a t) fullShare ((dat1 V a c).before (3 : Fin 9) t d))
    ∗ (∃ d, owns (c : Thread nD τ) (ms1_4 a t) fullShare ((dat1 V a c).before (4 : Fin 9) t d))
    ∗ (∃ d, owns (c : Thread nD τ) (ms1_5 a t) fullShare ((dat1 V a c).before (5 : Fin 9) t d))
    ∗ (∃ d, owns (c : Thread nD τ) (ms1_6 a t) fullShare ((dat1 V a c).before (6 : Fin 9) t d))
    ∗ (∃ d, owns (c : Thread nD τ) (ms1_7 a t) fullShare ((dat1 V a c).before (7 : Fin 9) t d))
    ∗ (∃ d, owns (c : Thread nD τ) (ms1_8 a t) fullShare ((dat1 V a c).before (8 : Fin 9) t d)))

/-- and what it returns. -/
def bodyPost1 (c : Dev nD) (t : Fin (cfg1 a).N) : sProp 𝕄 :=
  iprop((dat1 V a c).Φ t.succ ∗ (dat1 V a c).owesAt () t.succ
    ∗ (dat1 V a c).leavesExact (0 : Fin 9) t
    ∗ (dat1 V a c).leavesExact (1 : Fin 9) t
    ∗ (dat1 V a c).leavesExact (2 : Fin 9) t
    ∗ (dat1 V a c).leavesExact (3 : Fin 9) t
    ∗ (dat1 V a c).leavesExact (4 : Fin 9) t
    ∗ (dat1 V a c).leavesExact (5 : Fin 9) t
    ∗ (dat1 V a c).leavesExact (6 : Fin 9) t
    ∗ (dat1 V a c).leavesExact (7 : Fin 9) t
    ∗ (dat1 V a c).leavesExact (8 : Fin 9) t)

set_option maxHeartbeats 1600000 in
/-- The body at any position: the inputs' buffers hold their blocks; the invariant hands the body the table and the
    accumulator at what the point before left (at anything at the first point, where it is reset) and takes the
    accumulator back at this point's contents; the output buffer comes back at the block computed here when kvi = 3
    and untouched otherwise; the core owes nothing throughout. -/
theorem sound_body1 (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2, before1_3, before1_4, before1_5, before1_6, before1_7]
  rw [show (dat1 V a c).owesAt () t.succ = (dat1 V a c).owesAt () t.castSucc from rfl]
  rw [show (dat1 V a c).Φ t.succ = PhiS1 V a c (t.val + 1) t.isLt from rfl, PhiS1_succ, PhiS1_castSucc, prefHeld1_eq]
  rw [show (dat1 V a c).leavesExact (0 : Fin 9) t = owns (c : Thread nD τ) (ms1_0 a t) fullShare ((dat1 V a c).after (0 : Fin 9) t) from rfl, after1_0]
  rw [show (dat1 V a c).leavesExact (1 : Fin 9) t = owns (c : Thread nD τ) (ms1_1 a t) fullShare ((dat1 V a c).after (1 : Fin 9) t) from rfl, after1_1]
  rw [show (dat1 V a c).leavesExact (2 : Fin 9) t = owns (c : Thread nD τ) (ms1_2 a t) fullShare ((dat1 V a c).after (2 : Fin 9) t) from rfl, after1_2]
  rw [show (dat1 V a c).leavesExact (3 : Fin 9) t = owns (c : Thread nD τ) (ms1_3 a t) fullShare ((dat1 V a c).after (3 : Fin 9) t) from rfl, after1_3]
  rw [show (dat1 V a c).leavesExact (4 : Fin 9) t = owns (c : Thread nD τ) (ms1_4 a t) fullShare ((dat1 V a c).after (4 : Fin 9) t) from rfl, after1_4]
  rw [show (dat1 V a c).leavesExact (5 : Fin 9) t = owns (c : Thread nD τ) (ms1_5 a t) fullShare ((dat1 V a c).after (5 : Fin 9) t) from rfl, after1_5]
  rw [show (dat1 V a c).leavesExact (6 : Fin 9) t = owns (c : Thread nD τ) (ms1_6 a t) fullShare ((dat1 V a c).after (6 : Fin 9) t) from rfl, after1_6]
  rw [show (dat1 V a c).leavesExact (7 : Fin 9) t = owns (c : Thread nD τ) (ms1_7 a t) fullShare ((dat1 V a c).after (7 : Fin 9) t) from rfl, after1_7]
  by_cases h3 : t.val % 4 = 3
  · rw [show (dat1 V a c).leavesExact (8 : Fin 9) t = owns (c : Thread nD τ) (ms1_8 a t) fullShare ((dat1 V a c).after (8 : Fin 9) t) from by
      unfold Dat.leavesExact; rw [Bool.eq_false_iff.mpr (fun h => ((idle1_8 a t).mp h) h3)], after1_8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hopen := PhiS1_open V a c t
    ihave HΦ' := hopen $$ HΦ
    icases HΦ' with ⟨%S, %hS, Hg, Hp, Hoth, HS⟩
    have hk := kernel_at V a c t S hS ((dat1 V a c).before (8 : Fin 9) t d8) (fun _ => iprop(
      ((∃ r, prngReg c r) ∗ owns (c : Thread nD τ) (Memref.whole main_arg1 : Memref sig .tc .smem S8 .i32) fullShare (a.1 0) ∗ scopedOthers1 (F := F) c
        ∗ owns (c : Thread nD τ) scM1 fullShare (outsAt1 V a c t.val t.isLt).2)
      ∗ (dat1 V a c).owesAt () t.castSucc
      ∗ owns (c : Thread nD τ) (ms1_0 a t) fullShare (iblk1 V a c 0 t)
      ∗ owns (c : Thread nD τ) (ms1_1 a t) fullShare (iblk1 V a c 1 t)
      ∗ owns (c : Thread nD τ) (ms1_2 a t) fullShare (iblk1 V a c 2 t)
      ∗ owns (c : Thread nD τ) (ms1_3 a t) fullShare (iblk1 V a c 3 t)
      ∗ owns (c : Thread nD τ) (ms1_4 a t) fullShare (iblk1 V a c 4 t)
      ∗ owns (c : Thread nD τ) (ms1_5 a t) fullShare (iblk1 V a c 5 t)
      ∗ owns (c : Thread nD τ) (ms1_6 a t) fullShare (iblk1 V a c 6 t)
      ∗ owns (c : Thread nD τ) (ms1_7 a t) fullShare (iblk1 V a c 7 t)
      ∗ owns (c : Thread nD τ) (ms1_8 a t) fullShare (outsAt1 V a c t.val t.isLt).1))
    rw [if_pos h3] at hk
    iapply hk
    unfold held
    isplitl [Hp H0 H1 H2 H3 H4 H5 H6 H7 H8]
    · isplitl [Hp]; · iexact Hp
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iintro ⟨⟨Hp, H0, H1, H2, H3, H4, H5, H6, H7, H8⟩, HS⟩
    isplitl [Hg Hp Hoth HS]
    · isplitl [Hg]; · iexact Hg
      isplitl [Hp]; · iexact Hp
      isplitl [Hoth]; · iexact Hoth
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hi : (cfg1 a).idle (8 : Fin 9) ((cfg1 a).grid.coords t) = true := (idle1_8 a t).mpr h3
    have hf : ((cfg1 a).win (8 : Fin 9)).flush t = false := Bool.eq_false_iff.mpr (fun h => h3 ((flush1_8 a t).mp h))
    rw [Dat.leavesExact_idle (dat1 V a c) (8 : Fin 9) t hi hf]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hopen := PhiS1_open V a c t
    ihave HΦ' := hopen $$ HΦ
    icases HΦ' with ⟨%S, %hS, Hg, Hp, Hoth, HS⟩
    have hk := kernel_at V a c t S hS ((dat1 V a c).before (8 : Fin 9) t d8) (fun _ => iprop(
      ((∃ r, prngReg c r) ∗ owns (c : Thread nD τ) (Memref.whole main_arg1 : Memref sig .tc .smem S8 .i32) fullShare (a.1 0) ∗ scopedOthers1 (F := F) c
        ∗ owns (c : Thread nD τ) scM1 fullShare (outsAt1 V a c t.val t.isLt).2)
      ∗ (dat1 V a c).owesAt () t.castSucc
      ∗ owns (c : Thread nD τ) (ms1_0 a t) fullShare (iblk1 V a c 0 t)
      ∗ owns (c : Thread nD τ) (ms1_1 a t) fullShare (iblk1 V a c 1 t)
      ∗ owns (c : Thread nD τ) (ms1_2 a t) fullShare (iblk1 V a c 2 t)
      ∗ owns (c : Thread nD τ) (ms1_3 a t) fullShare (iblk1 V a c 3 t)
      ∗ owns (c : Thread nD τ) (ms1_4 a t) fullShare (iblk1 V a c 4 t)
      ∗ owns (c : Thread nD τ) (ms1_5 a t) fullShare (iblk1 V a c 5 t)
      ∗ owns (c : Thread nD τ) (ms1_6 a t) fullShare (iblk1 V a c 6 t)
      ∗ owns (c : Thread nD τ) (ms1_7 a t) fullShare (iblk1 V a c 7 t)
      ∗ ∃ d, owns (c : Thread nD τ) (((cfg1 a).win (8 : Fin 9)).stage ((cfg1 a).slots t (8 : Fin 9))) fullShare ((dat1 V a c).before (8 : Fin 9) t d)))
    rw [if_neg h3] at hk
    iapply hk
    unfold held
    isplitl [Hp H0 H1 H2 H3 H4 H5 H6 H7 H8]
    · isplitl [Hp]; · iexact Hp
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [HS]; · iexact HS
    iintro ⟨⟨Hp, H0, H1, H2, H3, H4, H5, H6, H7, H8⟩, HS⟩
    isplitl [Hg Hp Hoth HS]
    · isplitl [Hg]; · iexact Hg
      isplitl [Hp]; · iexact Hp
      isplitl [Hoth]; · iexact Hoth
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists d8; iexact H8

/-- The library's body obligation, at every point. -/
theorem body_obligation1 (c : Dev nD) : BodyObligation (dat1 (F := F) V a c) (defs₀ (F := F)) Variants.none () Set.univ := fun t => by
  rw [bigSep_W1, bigSep_W1]
  exact sound_body1 V a c t

/-! ## Into the invariant and out of it -/

/-- What the region hands the kernel at entry is the invariant before the first point. -/
theorem hin1 (c : Dev nD) : (iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) : sProp 𝕄) ⊢ (dat1 V a c).Φ 0 := by
  rw [show (dat1 V a c).Φ 0 = PhiS1 V a c 0 (Nat.zero_le _) from rfl, PhiS1_zero V a c 0 _ rfl]

/-- After the last point the invariant gives the same back: the accumulator's contents are forgotten. -/
theorem hout1 (c : Dev nD) : (dat1 V a c).Φ (Fin.last (cfg1 a).N) ⊢ (iprop((∃ r, prngReg c r) ∗ Pipeline.prefHeld (Ix := Unit) (Name := ℕ) (U := UR sig nD τ) (Lvl := ℕ) pre1 c (fun _ => fullShare) a.1 ∗ Pipeline.scopedRest (Ix := Unit) (Name := ℕ) (U := UR sig nD τ) (Lvl := ℕ) (Val := Elt F) spec1 c) : sProp 𝕄) := by
  rw [show (dat1 V a c).Φ (Fin.last (cfg1 a).N) = PhiS1 V a c (cfg1 a).N (Nat.le_refl _) from rfl,
    PhiS1_pos V a c _ _ (by have : (cfg1 a).N = 128 := N_1; omega)]
  iintro ⟨Hg, Hp, Ho, HS⟩
  isplitl [Hg]; · iexact Hg
  isplitl [Hp]; · iexact Hp
  have hj := scopedRest1_join (F := F) c
  iapply hj
  isplitl [Ho]; · iexact Ho
  iexists _; iexact HS

end Cert.KernelIdeal.Hand

end
-- ==== Proof.KI.Launch.lean ====
/-
  The run of the whole program: the two conversions of the weight matrices on the host, then the projection kernel,
  then the attention kernel.

  Between two items every unscoped buffer of the core is held whole at a known valuation: the launch memory; then the
  two converted weight matrices written beside it; then u, v, q, k at what the projection pipeline's write-backs leave
  in them (every other buffer as before); then the result at what the attention pipeline's write-backs leave in it.
  The sequence-length table stays in scalar memory as launched and is handed whole to the attention pipeline, which
  returns it at its exit.  At the end the result buffer and the nine argument buffers are read off the last valuation:
  the result is the attention pipeline's final array, each argument is as launched, no item having written it.
-/
import proofs.«419744_j566935683421_1_alg».proof.Proof.KI.R0
import proofs.«419744_j566935683421_1_alg».proof.Proof.KI.R1Dat
import proofs.«419744_j566935683421_1_alg».proof.Proof.KI.RunCond
import proofs.«419744_j566935683421_1_alg».proof.Proof.Gen.KernelIdeal.Launch
import proofs.«419744_j566935683421_1_alg».proof.Proof.Gen.KernelIdeal.Regions
import Idealize.ShloMosaic.Lib.Pipeline.FrameSuffix
import Idealize.ShloMosaic.Lib.Pipeline.RegionsLoop
import Idealize.ShloMosaic.Lib.Pipeline.Kit
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-! ## The contents of the buffers between the items -/

variable (m : (ℓ : Loc nD τ sig) → Buf (Elt F) ℓ)

/-- The sequence-length table as launched (one device: device 0's). -/
def tbl : pre1.Contents (Elt F) := fun k => m (((0 : Dev nD).tc : Thread nD τ).loc (pre1.ref k))

/-- The prefetched tables' contents the two pipelines run at: the projection pipeline has none; the attention pipeline
    has the sequence lengths as launched (its side condition on them is trivial). -/
def admOf : (p : Fin 2) → (pcfgs (F := F) p).Adm
  | ⟨0, _⟩ => cfg0.toPCfg_adm
  | ⟨1, _⟩ => ⟨tbl m, trivial⟩

/-- The attention pipeline's table is the launch's sequence lengths, on every core. -/
theorem admOf_tbl (c : Dev nD) : (admOf m 1).1 0 = m ((c.tc : Thread nD τ).loc main_arg1) := by
  obtain rfl : c = 0 := Subsingleton.elim _ _; rfl

/-- The contents the projection region is entered from: the launch memory after the two host conversions. -/
def Vin0 : (c : Dev nD) → (b : Ref sig .tc) → Buf (Elt F) ((c : Thread nD τ).loc b) := fun c b => V1 m c b

/-- The core's buffers with the projection pipeline's arrays at what its write-backs leave. -/
def W2 (c : Dev nD) : Valuation τ sig (Elt F) :=
  Pipeline.withArrays spec0 c (V1 m c) fun w => (dat0 (Vin0 m) c).arrAt w cfg0.N

/-- What the projection region leaves in the buffers it may change. -/
def outs2 : Outs (F := F) := fun _ r c => W2 m c r

/-- The contents the attention region is entered from: as the projection region was entered, with u, v, q, k at what
    the projection pipeline leaves in them. -/
def Vin1 : (c : Dev nD) → (b : Ref sig .tc) → Buf (Elt F) ((c : Thread nD τ).loc b) := fun c b => V2 m (outs2 m) c b

/-- The core's buffers with the attention pipeline's arrays at what its write-backs leave. -/
def W3 (c : Dev nD) : Valuation τ sig (Elt F) :=
  Pipeline.withArrays spec1 c (V2 m (outs2 m) c) fun w => (dat1 (Vin1 m) (admOf m 1) c).arrAt w (cfg1 (admOf m 1)).N

/-- What the two regions leave in the buffers they may change. -/
def outsOf : Outs (F := F) := fun J r c => match J with
  | 2 => W2 m c r
  | _ => W3 m c r

theorem V2_outsOf (c : Dev nD) : V2 m (outsOf m) c = V2 m (outs2 m) c := rfl

theorem Vin1_v2_0 (c : Dev nD) : Vin1 m c main_v2_0 = (dat0 (Vin0 m) c).arrAt 5 cfg0.N := by
  have h : Vin1 m c main_v2_0 = W2 m c (Proc.devRef .tc main_v2_0) := by
    unfold Vin1
    simp only [V2, outs2, Function.update_of_ne (StableHlo.devRef_ne_of_ne (by decide : (main_v2_0 : Ref sig .tc) ≠ main_v2_3) : (Proc.devRef .tc main_v2_0 : DevRef τ sig) ≠ Proc.devRef .tc main_v2_3), Function.update_of_ne (StableHlo.devRef_ne_of_ne (by decide : (main_v2_0 : Ref sig .tc) ≠ main_v2_2) : (Proc.devRef .tc main_v2_0 : DevRef τ sig) ≠ Proc.devRef .tc main_v2_2), Function.update_of_ne (StableHlo.devRef_ne_of_ne (by decide : (main_v2_0 : Ref sig .tc) ≠ main_v2_1) : (Proc.devRef .tc main_v2_0 : DevRef τ sig) ≠ Proc.devRef .tc main_v2_1), Function.update_self]
  exact h.trans (Pipeline.withArrays_arr spec0 winFacts0.arr_inj c _ _ 5)
theorem Vin1_v2_1 (c : Dev nD) : Vin1 m c main_v2_1 = (dat0 (Vin0 m) c).arrAt 6 cfg0.N := by
  have h : Vin1 m c main_v2_1 = W2 m c (Proc.devRef .tc main_v2_1) := by
    unfold Vin1
    simp only [V2, outs2, Function.update_of_ne (StableHlo.devRef_ne_of_ne (by decide : (main_v2_1 : Ref sig .tc) ≠ main_v2_3) : (Proc.devRef .tc main_v2_1 : DevRef τ sig) ≠ Proc.devRef .tc main_v2_3), Function.update_of_ne (StableHlo.devRef_ne_of_ne (by decide : (main_v2_1 : Ref sig .tc) ≠ main_v2_2) : (Proc.devRef .tc main_v2_1 : DevRef τ sig) ≠ Proc.devRef .tc main_v2_2), Function.update_self]
  exact h.trans (Pipeline.withArrays_arr spec0 winFacts0.arr_inj c _ _ 6)
theorem Vin1_v2_2 (c : Dev nD) : Vin1 m c main_v2_2 = (dat0 (Vin0 m) c).arrAt 7 cfg0.N := by
  have h : Vin1 m c main_v2_2 = W2 m c (Proc.devRef .tc main_v2_2) := by
    unfold Vin1
    simp only [V2, outs2, Function.update_of_ne (StableHlo.devRef_ne_of_ne (by decide : (main_v2_2 : Ref sig .tc) ≠ main_v2_3) : (Proc.devRef .tc main_v2_2 : DevRef τ sig) ≠ Proc.devRef .tc main_v2_3), Function.update_self]
  exact h.trans (Pipeline.withArrays_arr spec0 winFacts0.arr_inj c _ _ 7)
theorem Vin1_v2_3 (c : Dev nD) : Vin1 m c main_v2_3 = (dat0 (Vin0 m) c).arrAt 8 cfg0.N := by
  have h : Vin1 m c main_v2_3 = W2 m c (Proc.devRef .tc main_v2_3) := by
    unfold Vin1
    simp only [V2, outs2, Function.update_self]
  exact h.trans (Pipeline.withArrays_arr spec0 winFacts0.arr_inj c _ _ 8)

theorem Vin1_of_arg (c : Dev nD) (b : Ref sig .tc) (hb : b ∉ ([main_v2_0, main_v2_1, main_v2_2, main_v2_3] : List (Ref sig .tc))) :
    Vin1 m c b = Vin0 m c b := V2_of m (outs2 m) c b hb

theorem Vin0_arg0 (c : Dev nD) : Vin0 m c main_arg0 = m ((c.tc : Thread nD τ).loc main_arg0) := (V1_of m c main_arg0 (by decide)).trans rfl
theorem Vin0_arg1 (c : Dev nD) : Vin0 m c main_arg1 = m ((c.tc : Thread nD τ).loc main_arg1) := (V1_of m c main_arg1 (by decide)).trans rfl
theorem Vin0_arg2 (c : Dev nD) : Vin0 m c main_arg2 = m ((c.tc : Thread nD τ).loc main_arg2) := (V1_of m c main_arg2 (by decide)).trans rfl
theorem Vin0_arg3 (c : Dev nD) : Vin0 m c main_arg3 = m ((c.tc : Thread nD τ).loc main_arg3) := (V1_of m c main_arg3 (by decide)).trans rfl
theorem Vin0_arg4 (c : Dev nD) : Vin0 m c main_arg4 = m ((c.tc : Thread nD τ).loc main_arg4) := (V1_of m c main_arg4 (by decide)).trans rfl
theorem Vin0_arg5 (c : Dev nD) : Vin0 m c main_arg5 = m ((c.tc : Thread nD τ).loc main_arg5) := (V1_of m c main_arg5 (by decide)).trans rfl
theorem Vin0_arg6 (c : Dev nD) : Vin0 m c main_arg6 = m ((c.tc : Thread nD τ).loc main_arg6) := (V1_of m c main_arg6 (by decide)).trans rfl
theorem Vin0_arg7 (c : Dev nD) : Vin0 m c main_arg7 = m ((c.tc : Thread nD τ).loc main_arg7) := (V1_of m c main_arg7 (by decide)).trans rfl
theorem Vin0_arg8 (c : Dev nD) : Vin0 m c main_arg8 = m ((c.tc : Thread nD τ).loc main_arg8) := (V1_of m c main_arg8 (by decide)).trans rfl

/-- The projection weights as the projection region finds them: the launch's, read at bf16. -/
theorem Vin0_v0 (c : Dev nD) : Vin0 m c main_v0 = ((truncf .bf16 · bitsLt_bf16_f32) : (⟨S512x2048, .f32⟩ : BufTy).Contents (Elt F) → (⟨S512x2048, .bf16⟩ : BufTy).Contents (Elt F)) (m ((c.tc : Thread nD τ).loc main_arg2)) := by
  show StableHlo.after hostOps0 (fun b => m (c, b)) (Proc.devRef .tc main_v0) = _
  after_results
/-- The output weights as the attention region finds them: the launch's, read at bf16. -/
theorem Vin0_v1 (c : Dev nD) : Vin0 m c main_v1 = ((truncf .bf16 · bitsLt_bf16_f32) : (⟨S1536x512, .f32⟩ : BufTy).Contents (Elt F) → (⟨S1536x512, .bf16⟩ : BufTy).Contents (Elt F)) (m ((c.tc : Thread nD τ).loc main_arg4)) := by
  show StableHlo.after hostOps0 (fun b => m (c, b)) (Proc.devRef .tc main_v1) = _
  after_results

/-- The result buffer after the attention region: the attention pipeline's final array. -/
theorem V3_main_v3 (c : Dev nD) : V3 m (outsOf m) c main_v3 = (dat1 (Vin1 m) (admOf m 1) c).arrAt 8 (cfg1 (admOf m 1)).N := by
  have h : V3 m (outsOf m) c main_v3 = W3 m c (Proc.devRef .tc main_v3) := by
    simp only [V3, Function.update_self]
    rfl
  exact h.trans (Pipeline.withArrays_arr spec1 winFacts1.arr_inj c _ _ 8)

/-! ## What each region leaves: its arrays at the pipeline's final contents, every other buffer as entered -/

/-- After the projection region each of its arrays holds what the pipeline leaves: an input as entered, an output
    its write-backs. -/
theorem hF0 (c : Dev nD) : ∀ w : Fin cfg0.W, (dat0 (Vin0 m) c).arrAt w cfg0.N = Vin1 m c (Pipeline.arrRef spec0 w) :=
  fun | 0 => (((dat0 (Vin0 m) c).arrAt_in 0 rfl _).trans (A_eq0 (Vin0 m) c 0)).trans (Vin1_of_arg m c _ (by decide)).symm | 1 => (((dat0 (Vin0 m) c).arrAt_in 1 rfl _).trans (A_eq0 (Vin0 m) c 1)).trans (Vin1_of_arg m c _ (by decide)).symm | 2 => (((dat0 (Vin0 m) c).arrAt_in 2 rfl _).trans (A_eq0 (Vin0 m) c 2)).trans (Vin1_of_arg m c _ (by decide)).symm | 3 => (((dat0 (Vin0 m) c).arrAt_in 3 rfl _).trans (A_eq0 (Vin0 m) c 3)).trans (Vin1_of_arg m c _ (by decide)).symm | 4 => (((dat0 (Vin0 m) c).arrAt_in 4 rfl _).trans (A_eq0 (Vin0 m) c 4)).trans (Vin1_of_arg m c _ (by decide)).symm | 5 => (Vin1_v2_0 m c).symm | 6 => (Vin1_v2_1 m c).symm | 7 => (Vin1_v2_2 m c).symm | 8 => (Vin1_v2_3 m c).symm | ⟨_ + 9, h⟩ => absurd h (Nat.not_lt.2 (Nat.le_add_left _ _))
theorem hrest0 (c : Dev nD) : ∀ b, b ∉ Finset.univ.image (Pipeline.arrRef spec0) → Vin1 m c b = Vin0 m c b :=
  fun b hb => Vin1_of_arg m c b fun hm => hb (by
    simp only [List.mem_cons, List.not_mem_nil, or_false] at hm
    rcases hm with rfl | rfl | rfl | rfl
    · exact Finset.mem_image.mpr ⟨5, Finset.mem_univ _, rfl⟩
    · exact Finset.mem_image.mpr ⟨6, Finset.mem_univ _, rfl⟩
    · exact Finset.mem_image.mpr ⟨7, Finset.mem_univ _, rfl⟩
    · exact Finset.mem_image.mpr ⟨8, Finset.mem_univ _, rfl⟩)

/-- The contents after the attention region. -/
def Vout : (c : Dev nD) → (b : Ref sig .tc) → Buf (Elt F) ((c : Thread nD τ).loc b) := fun c b => V3 m (outsOf m) c b

theorem Vout_of (c : Dev nD) (b : Ref sig .tc) (hb : b ∉ ([main_v3] : List (Ref sig .tc))) : Vout m c b = Vin1 m c b :=
  V3_of m (outsOf m) c b hb

/-- After the attention region each of its arrays holds what the pipeline leaves. -/
theorem hF1 (c : Dev nD) : ∀ w : Fin (cfg1 (admOf m 1)).W, (dat1 (Vin1 m) (admOf m 1) c).arrAt w (cfg1 (admOf m 1)).N = Vout m c (Pipeline.arrRef spec1 w) :=
  fun | 0 => (((dat1 (Vin1 m) (admOf m 1) c).arrAt_in 0 rfl _).trans (A_eq1 (Vin1 m) (admOf m 1) c 0)).trans (Vout_of m c (Pipeline.arrRef spec1 (0 : Fin 9)) (by decide)).symm | 1 => (((dat1 (Vin1 m) (admOf m 1) c).arrAt_in 1 rfl _).trans (A_eq1 (Vin1 m) (admOf m 1) c 1)).trans (Vout_of m c (Pipeline.arrRef spec1 (1 : Fin 9)) (by decide)).symm | 2 => (((dat1 (Vin1 m) (admOf m 1) c).arrAt_in 2 rfl _).trans (A_eq1 (Vin1 m) (admOf m 1) c 2)).trans (Vout_of m c (Pipeline.arrRef spec1 (2 : Fin 9)) (by decide)).symm | 3 => (((dat1 (Vin1 m) (admOf m 1) c).arrAt_in 3 rfl _).trans (A_eq1 (Vin1 m) (admOf m 1) c 3)).trans (Vout_of m c (Pipeline.arrRef spec1 (3 : Fin 9)) (by decide)).symm | 4 => (((dat1 (Vin1 m) (admOf m 1) c).arrAt_in 4 rfl _).trans (A_eq1 (Vin1 m) (admOf m 1) c 4)).trans (Vout_of m c (Pipeline.arrRef spec1 (4 : Fin 9)) (by decide)).symm | 5 => (((dat1 (Vin1 m) (admOf m 1) c).arrAt_in 5 rfl _).trans (A_eq1 (Vin1 m) (admOf m 1) c 5)).trans (Vout_of m c (Pipeline.arrRef spec1 (5 : Fin 9)) (by decide)).symm | 6 => (((dat1 (Vin1 m) (admOf m 1) c).arrAt_in 6 rfl _).trans (A_eq1 (Vin1 m) (admOf m 1) c 6)).trans (Vout_of m c (Pipeline.arrRef spec1 (6 : Fin 9)) (by decide)).symm | 7 => (((dat1 (Vin1 m) (admOf m 1) c).arrAt_in 7 rfl _).trans (A_eq1 (Vin1 m) (admOf m 1) c 7)).trans (Vout_of m c (Pipeline.arrRef spec1 (7 : Fin 9)) (by decide)).symm | 8 => (V3_main_v3 m c).symm | ⟨_ + 9, h⟩ => absurd h (Nat.not_lt.2 (Nat.le_add_left _ _))
theorem hrest1 (c : Dev nD) : ∀ b, b ∉ Finset.univ.image (Pipeline.arrRef spec1) → Vout m c b = Vin1 m c b :=
  fun b hb => Vout_of m c b fun hm => hb (by
    simp only [List.mem_cons, List.not_mem_nil, or_false] at hm
    subst hm
    exact Finset.mem_image.mpr ⟨8, Finset.mem_univ _, rfl⟩)

/-- On every core the table's buffer holds the launch's sequence lengths when the attention region is entered. -/
theorem Vin1_pre (c : Dev nD) : (fun k => Vin1 m c (pre1.ref k)) = (admOf m 1).1 := by
  funext k
  obtain rfl : c = 0 := Subsingleton.elim _ _
  obtain rfl : k = 0 := Subsingleton.elim _ _
  exact (Vin1_of_arg m 0 main_arg1 (by decide)).trans (Vin0_arg1 m 0)

/-- Every unscoped buffer of the core at one of these contents is the held set at the corresponding valuation. -/
theorem held_Vin0 (c : Dev nD) : (unscopedBufs (Ix := Unit) (Name := ℕ) (U := UR sig nD τ) (Lvl := ℕ) c (Vin0 m c) : sProp 𝕄)
    = StableHlo.held (c : Thread nD τ) (Pipeline.ucRefs τ sig) (V1 m c) := Pipeline.unscopedBufs_held c (V1 m c)
theorem held_Vin1 (c : Dev nD) : (unscopedBufs (Ix := Unit) (Name := ℕ) (U := UR sig nD τ) (Lvl := ℕ) c (Vin1 m c) : sProp 𝕄)
    = StableHlo.held (c : Thread nD τ) (Pipeline.ucRefs τ sig) (V2 m (outsOf m) c) := Pipeline.unscopedBufs_held c (V2 m (outsOf m) c)
theorem held_Vout (c : Dev nD) : (unscopedBufs (Ix := Unit) (Name := ℕ) (U := UR sig nD τ) (Lvl := ℕ) c (Vout m c) : sProp 𝕄)
    = StableHlo.held (c : Thread nD τ) (Pipeline.ucRefs τ sig) (V3 m (outsOf m) c) := Pipeline.unscopedBufs_held c (V3 m (outsOf m) c)

/-- The attention region's unscoped buffers that are no window's array: the table, at the launch's sequence lengths, and the rest. -/
theorem rest1_split (c : Dev nD) : (Pipeline.unscopedRest (Ix := Unit) (Name := ℕ) (U := UR sig nD τ) (Lvl := ℕ) (Pipeline.pin (pcfgs (F := F)) (admOf m) 1).spec c (Vin1 m c) : sProp 𝕄)
    = iprop(Pipeline.prefHeld pre1 c (fun _ => fullShare) (admOf m 1).1 ∗ Pipeline.unscopedRestP pre1 spec1 c (Vin1 m c)) := by
  rw [← Vin1_pre m c]; exact Pipeline.unscopedRest_split preFacts1 c (Vin1 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) (admOf m) p) c
  | ⟨0, _⟩ => fun c => dat0 (Vin0 m) c
  | ⟨1, _⟩ => fun c => dat1 (Vin1 m) (admOf m 1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The regions' records -/

set_option backward.isDefEq.respectTransparency.types false in
/-- The projection region: entered from every unscoped buffer at the contents after the host conversions, left with
    u, v, q, k at the pipeline's final arrays. -/
def reg0 : RegionSeg (pcfgs (F := F)) (admOf m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) (admOf m) (pdats m) winFacts0 arr_whole0 c
      ((pdats m 0 c).share_full fun _ => rfl) (Vin0 m c) fun _ => rfl
    rw [held_Vin0] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (admOf m) (Ix := Unit) (Name := ℕ) (U := UR sig nD τ) (Lvl := ℕ)
      winFacts0 arr_whole0 c (pdats m) ((pdats m 0 c).share_full fun _ => rfl)
      (Vin0 m c) (Vin1 m c) ((pdats m 0 c).arrAt · cfg0.N) (hF0 m c) (hrest0 m c)
    rw [held_Vin1] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at the contents the projection region left, the table
    handed to the pipeline whole and taken back at the exit, left with the result at the pipeline's final array. -/
def reg1 : RegionSeg (pcfgs (F := F)) (admOf m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (Vin1 m) (admOf m 1) c).loose
  hwaits := Pipeline.hwaits_of_owed_zero _ _ _ _ L lv 1 fun _ _ => rfl
  pre c := iprop(StableHlo.held (c : Thread nD τ) (Pipeline.ucRefs τ sig) (V2 m (outsOf m) c) ∗ R c)
  post c := iprop(StableHlo.held (c : Thread nD τ) (Pipeline.ucRefs τ sig) (V3 m (outsOf m) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (admOf m 1).1)
  Z c := Pipeline.unscopedRestP (Ix := Unit) (Name := ℕ) (U := UR sig nD τ) (Lvl := ℕ) pre1 spec1 c (Vin1 m c)
  hentry c := by
    rw [Pipeline.ownSems0_none]
    have hsplit := Pipeline.arrays_of_unscopedBufs (p := 1) (pcfgs (F := F)) (admOf m) (pdats m) winFacts1 arr_whole1 c
      ((pdats m 1 c).share_full fun _ => rfl) (Vin1 m c) fun _ => rfl
    rw [held_Vin1, rest1_split] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (Vin1 m) (admOf m 1) c
  hout c := by
    rw [Pipeline.ownSems0_none]
    refine (hout1 (Vin1 m) (admOf m 1) c).trans ?_
    iintro ⟨Hp, Ht, Hr⟩
    isplitl [Hp Ht]
    · isplitl [Hp]; · iexact Hp
      iexact Ht
    isplitr; · iempintro
    iexact Hr
  hexit c := by
    have hjoin := Pipeline.unscopedBufs_of_arrays (p := 1) (pcfgs (F := F)) (admOf m) (Ix := Unit) (Name := ℕ) (U := UR sig nD τ) (Lvl := ℕ)
      winFacts1 arr_whole1 c (pdats m) ((pdats m 1 c).share_full fun _ => rfl)
      (Vin1 m c) (Vout m c) ((pdats m 1 c).arrAt · (cfg1 (admOf m 1)).N) (hF1 m c) (hrest1 m c)
    rw [held_Vout, rest1_split] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The run -/

set_option backward.isDefEq.respectTransparency.types false in
theorem run_main (ρ : Dev nD → PrngReg) : θ_run defs (onTc (τ := τ) (main (F := F))) ⟨m, fun _ => 0, ρ⟩ (fun r => ∀ c : Dev nD,
      r.2.mem ((c.tc : Thread nD τ).loc main_v3) = (dat1 (Vin1 m) (admOf m 1) c).arrAt 8 (cfg1 (admOf m 1)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ⟨(h c).1.trans (V3_main_v3 m c), (h c).2⟩)
    (run_cond m emb₁ () 𝒱₀ L lv (fun _ _ => rfl) ρ (outsOf m) (admOf m) (pdats m) 0 (fun _ => iprop(emp))
      (initOf (Pipeline.cells (Pipeline.pin (pcfgs (F := F)) (admOf m)) (cellOf_inj (admOf m))) (Pipeline.launchToks (Pipeline.pin (pcfgs (F := F)) (admOf m)) (cellOf_inj (admOf m))))
      ?hu (fun _ c => R c) ?hE0 (fun c => ?hE2) (reg0 m) (fun _ => .rfl) (fun _ => .rfl) (reg1 m) (fun _ => .rfl) (fun _ => .rfl))
  case hu =>
    iintro Hu; imodintro
    isplitl [Hu]
    · iapply (show (ownU (initOf (Pipeline.cells (Pipeline.pin (pcfgs (F := F)) (admOf m)) (cellOf_inj (admOf m))) (Pipeline.launchToks (Pipeline.pin (pcfgs (F := F)) (admOf m)) (cellOf_inj (admOf m)))) : sProp 𝕄)
          ⊢ BI.own (emb₁ (initOf (Pipeline.cells (Pipeline.pin (pcfgs (F := F)) (admOf m)) (cellOf_inj (admOf m))) (Pipeline.launchToks (Pipeline.pin (pcfgs (F := F)) (admOf m)) (cellOf_inj (admOf m))))) from .rfl)
      iexact Hu
    iapply (show (BI.emp : sProp 𝕄) ⊢ bigSep Finset.univ (fun _ : Dev nD => (BI.emp : sProp 𝕄)) from by rw [BI.bigSep_emp_const])
    iempintro
  case hE0 =>
    refine Pipeline.initEach L lv fun c => ?_
    iintro ⟨⟨-, HO, -, Hp, -⟩, -⟩
    imodintro
    isplitl [Hp]; · iexists _; iexact Hp
    iexists ∅; iexact HO
  case hE2 =>
    iintro ⟨-, HO⟩; iexact HO

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Hand

end
-- ==== Proof.Val.Spec.lean ====
/-
  The specification: what the layer computes, index by index, as functions of the nine argument arrays over the
  extended reals.

  A row of 512 features is layer-normalised (ln): centred by its mean, scaled by the reciprocal square root of its
  variance plus ε, then by a gain, and shifted by a bias. The normalised input times the projection weights plus a bias
  (proj, 2048 columns per position) is cut into four blocks of 512 columns: u (through silu), v, q, k.
  The 512 features of q, k, v are 8 heads of 64 lanes (hd). For a head, the score of positions (n, m) is silu of
  q[n]·k[m] / 8, kept where m ≤ n and m lies before the batch row's sequence length and zeroed elsewhere (maskOf,
  maskF); attnOf is the sum over m of the kept scores times v[m]. The attention rows are layer-normalised again,
  gated by u, and the concatenation [u | x | u · LN(attn)] (1536 features, yOf) times the output weights, plus x,
  is the result (outOf); refOut composes the stages from the arguments.

  Float constants stay the words the programs print: 512 (c512), ε (eps), 1/8 (c8th).
-/
import Idealize.ShloMosaic.PureOps.Ideal
import Idealize.ShloMosaic.Lib.ValueIdx
import Idealize.ShloMosaic.Lib.IdealHost

noncomputable section

open scoped BigOperators

namespace Cert.Spec

open Idealize.ShloMosaic Idealize.ShloMosaic.ValueIdx

/-! ## Arrays and constants -/

/-- A rank-1 array of extended reals. -/
abbrev Arr1 (n : Nat) : Type := (⟨1, ![n]⟩ : Shape).Idx → EReal
/-- A rank-2 array of extended reals. -/
abbrev Arr2 (n0 n1 : Nat) : Type := (⟨2, ![n0, n1]⟩ : Shape).Idx → EReal
/-- A rank-3 array of extended reals. -/
abbrev Arr3 (n0 n1 n2 : Nat) : Type := (⟨3, ![n0, n1, n2]⟩ : Shape).Idx → EReal
/-- The table of sequence lengths, one signed 32-bit word per batch row. -/
abbrev Lens : Type := (⟨1, ![8]⟩ : Shape).Idx → BitVec 32

/-- The row width 512 as a float. -/
abbrev c512 : EReal := Ideal.ofBits .f32 0x44000000#32
/-- The variance offset ε = 10⁻⁶ as a float. -/
abbrev eps : EReal := Ideal.ofBits .f32 0x358637BD#32
/-- The score scale 64^(-1/2) = 1/8 as a float. -/
abbrev c8th : EReal := Ideal.ofBits .f32 0x3E000000#32

/-! ## Layer normalisation of a row -/

/-- The mean of a row of 512. -/
def mean (row : Fin 512 → EReal) : EReal := Ideal.div (∑ j, row j) c512

/-- The variance of a row of 512: the mean of the squared deviations. -/
def var (row : Fin 512 → EReal) : EReal := Ideal.div (∑ j, (row j - mean row) * (row j - mean row)) c512

/-- Layer normalisation of a row at feature e, with gain g and bias b. -/
def ln (row g b : Fin 512 → EReal) (e : Fin 512) : EReal :=
  (row e - mean row) * Ideal.rsqrt (var row + eps) * g e + b e

/-! ## The projection and its four blocks -/

/-- Column f of the projection of position (b, s): LN(x[b, s]) · W[·, f] + bias[f]. -/
def proj (x : Arr3 8 2048 512) (g1 b1 : Arr1 512) (w : Arr2 512 2048) (bias : Arr1 2048)
    (b : Fin 8) (s : Fin 2048) (f : Fin 2048) : EReal :=
  (∑ e : Fin 512, ln (fun j => x (ix3 b s j)) (fun j => g1 (ix1 j)) (fun j => b1 (ix1 j)) e * w (ix2 e f)) + bias (ix1 f)

/-- silu z = z · logistic z. -/
def silu (z : EReal) : EReal := z * Ideal.logistic z

/-- silu as spelled with a quotient: z · (1 / (1 + exp (−z))), the ones as float words. -/
theorem silu_eq (z : EReal) :
    z * Ideal.div (Ideal.ofBits .f32 0x3F800000#32) (Ideal.ofBits .f32 0x3F800000#32 + Ideal.exp (-z)) = silu z := by
  rw [Ideal.ofBits_one_f32]; rfl

/-- u[b, s, j] = silu of projection column j. -/
def uOf (x : Arr3 8 2048 512) (g1 b1 : Arr1 512) (w : Arr2 512 2048) (bias : Arr1 2048)
    (b : Fin 8) (s : Fin 2048) (j : Fin 512) : EReal :=
  silu (proj x g1 b1 w bias b s ⟨j.val, by have := j.isLt; omega⟩)

/-- v[b, s, j] = projection column 512 + j. -/
def vOf (x : Arr3 8 2048 512) (g1 b1 : Arr1 512) (w : Arr2 512 2048) (bias : Arr1 2048)
    (b : Fin 8) (s : Fin 2048) (j : Fin 512) : EReal :=
  proj x g1 b1 w bias b s ⟨512 + j.val, by have := j.isLt; omega⟩

/-- q[b, s, j] = projection column 1024 + j. -/
def qOf (x : Arr3 8 2048 512) (g1 b1 : Arr1 512) (w : Arr2 512 2048) (bias : Arr1 2048)
    (b : Fin 8) (s : Fin 2048) (j : Fin 512) : EReal :=
  proj x g1 b1 w bias b s ⟨1024 + j.val, by have := j.isLt; omega⟩

/-- k[b, s, j] = projection column 1536 + j. -/
def kOf (x : Arr3 8 2048 512) (g1 b1 : Arr1 512) (w : Arr2 512 2048) (bias : Arr1 2048)
    (b : Fin 8) (s : Fin 2048) (j : Fin 512) : EReal :=
  proj x g1 b1 w bias b s ⟨1536 + j.val, by have := j.isLt; omega⟩

/-! ## Attention -/

/-- Feature 64 h + e: lane e of head h. -/
abbrev hd (h : Fin 8) (e : Fin 64) : Fin 512 := ⟨h.val * 64 + e.val, by have := h.isLt; have := e.isLt; omega⟩

/-- The mask bit of (row n, column m) in batch row b: causal (n ≥ m, compared as signed words) and m before the
    sequence length (signed). -/
def maskOf (sl : Lens) (b : Fin 8) (n m : Fin 2048) : BitVec 1 :=
  IntOp.andi (IntOp.cmpi .sge (BitVec.ofNat 32 n.val) (BitVec.ofNat 32 m.val))
    (IntOp.cmpi .slt (BitVec.ofNat 32 m.val) (sl (ix1 b)))

/-- The mask bit as a float: 1 or 0. -/
def maskF (sl : Lens) (b : Fin 8) (n m : Fin 2048) : EReal := (((maskOf sl b n m).toNat : ℝ) : EReal)

/-- The score of positions (n, m) for head h: silu (q[n] · k[m] / 8) over the head's 64 lanes. -/
def score (q k : Arr3 8 2048 512) (b h : Fin 8) (n m : Fin 2048) : EReal :=
  silu ((∑ e : Fin 64, q (ix3 b n (hd h e)) * k (ix3 b m (hd h e))) * c8th)

/-- Attention output of position n, head h, lane d: the masked scores of row n times v. -/
def attnOf (q k v : Arr3 8 2048 512) (sl : Lens) (b : Fin 8) (n : Fin 2048) (h : Fin 8) (d : Fin 64) : EReal :=
  ∑ m : Fin 2048, (score q k b h n m * maskF sl b n m) * v (ix3 b m (hd h d))

/-- The attention output of position n as a row of 512 features: feature f is head f / 64, lane f % 64. -/
def attnRow (q k v : Arr3 8 2048 512) (sl : Lens) (b : Fin 8) (n : Fin 2048) (f : Fin 512) : EReal :=
  attnOf q k v sl b n ⟨f.val / 64, by have := f.isLt; omega⟩ ⟨f.val % 64, Nat.mod_lt _ (by decide)⟩

/-! ## The output -/

/-- u[b, n, j] · LN(attention row of (b, n))[j]. -/
def gated (q k v u : Arr3 8 2048 512) (g2 b2 : Arr1 512) (sl : Lens) (b : Fin 8) (n : Fin 2048) (j : Fin 512) : EReal :=
  u (ix3 b n j) * ln (attnRow q k v sl b n) (fun j => g2 (ix1 j)) (fun j => b2 (ix1 j)) j

/-- Feature f of the concatenation [u | x | u · LN(attn)] at position (b, n): block f / 512, feature f % 512. -/
def yOf (q k v u x : Arr3 8 2048 512) (g2 b2 : Arr1 512) (sl : Lens) (b : Fin 8) (n : Fin 2048) (f : Fin 1536) : EReal :=
  if f.val < 512 then u (ix3 b n ⟨f.val % 512, Nat.mod_lt _ (by decide)⟩)
  else if f.val < 1024 then x (ix3 b n ⟨f.val % 512, Nat.mod_lt _ (by decide)⟩)
  else gated q k v u g2 b2 sl b n ⟨f.val % 512, Nat.mod_lt _ (by decide)⟩

/-- The result at (b, n, e): the concatenation times the output weights, plus x. -/
def outOf (q k v u x : Arr3 8 2048 512) (ow : Arr2 1536 512) (g2 b2 : Arr1 512) (sl : Lens)
    (b : Fin 8) (n : Fin 2048) (e : Fin 512) : EReal :=
  (∑ f : Fin 1536, yOf q k v u x g2 b2 sl b n f * ow (ix2 f e)) + x (ix3 b n e)

/-! ## The whole layer from its arguments -/

/-- The u array. -/
def uArr (x : Arr3 8 2048 512) (g1 b1 : Arr1 512) (w : Arr2 512 2048) (bias : Arr1 2048) : Arr3 8 2048 512 :=
  fun i => uOf x g1 b1 w bias (i 0) (i 1) (i 2)
/-- The v array. -/
def vArr (x : Arr3 8 2048 512) (g1 b1 : Arr1 512) (w : Arr2 512 2048) (bias : Arr1 2048) : Arr3 8 2048 512 :=
  fun i => vOf x g1 b1 w bias (i 0) (i 1) (i 2)
/-- The q array. -/
def qArr (x : Arr3 8 2048 512) (g1 b1 : Arr1 512) (w : Arr2 512 2048) (bias : Arr1 2048) : Arr3 8 2048 512 :=
  fun i => qOf x g1 b1 w bias (i 0) (i 1) (i 2)
/-- The k array. -/
def kArr (x : Arr3 8 2048 512) (g1 b1 : Arr1 512) (w : Arr2 512 2048) (bias : Arr1 2048) : Arr3 8 2048 512 :=
  fun i => kOf x g1 b1 w bias (i 0) (i 1) (i 2)

/-- The layer's result at (b, n, e) as one function of the nine arguments. -/
def refOut (x : Arr3 8 2048 512) (sl : Lens) (w : Arr2 512 2048) (bias : Arr1 2048) (ow : Arr2 1536 512)
    (g1 b1 g2 b2 : Arr1 512) (b : Fin 8) (n : Fin 2048) (e : Fin 512) : EReal :=
  outOf (qArr x g1 b1 w bias) (kArr x g1 b1 w bias) (vArr x g1 b1 w bias) (uArr x g1 b1 w bias) x ow g2 b2 sl b n e

end Cert.Spec

end
-- ==== Proof.Val.R0ValA.lean ====
/-
  The projection tile at an index.

  One grid point of the projection kernel is handed 512 rows of x.  For a row r it takes the mean and the
  variance of the row's 512 entries, normalises the row, scales and shifts it by the layer-norm weights, multiplies
  by the 512 x 2048 weight matrix and adds the bias.  Here every stage of that computation is read at one index,
  over the extended reals, where the format changes are the identity, a lane reduction is the sum over the lane
  and the matrix product into a zero accumulator is the sum of the products.  The result: entry (r, f) of the tile
  is projRow of row r of x, and the four output blocks are silu of columns 0..511 and columns 512.., 1024..,
  1536.. of it.
-/
import proofs.«419744_j566935683421_1_alg».proof.Proof.KI.Pay
import proofs.«419744_j566935683421_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx Idealize.SL.Sem
open Cert.KernelIdeal Cert.KernelIdeal.Gen Cert.KernelIdeal.Hand

/-! ## The projection of one row -/

/-- The projection of a row of 512 entries at output column f: the normalised row times column f of the weights,
    plus the bias there. -/
def projRow (row : Fin 512 → EReal) (g b : Spec.Arr1 512) (w : Spec.Arr2 512 2048) (bias : Spec.Arr1 2048)
    (f : Fin 2048) : EReal :=
  (∑ e : Fin 512, Spec.ln row (fun j => g (ValueIdx.ix1 j)) (fun j => b (ValueIdx.ix1 j)) e * w (ix2 e f))
    + bias (ValueIdx.ix1 f)

/-- P[b, s, f]: the projection of row (b, s) of the whole array x at output column f. -/
abbrev projAt (x : Spec.Arr3 8 2048 512) (g b : Spec.Arr1 512) (w : Spec.Arr2 512 2048) (bias : Spec.Arr1 2048)
    (bb : Fin 8) (s : Fin 2048) (f : Fin 2048) : EReal := Spec.proj x g b w bias bb s f

/-- It is the projection of that row. -/
theorem projAt_eq (x : Spec.Arr3 8 2048 512) (g b : Spec.Arr1 512) (w : Spec.Arr2 512 2048) (bias : Spec.Arr1 2048)
    (bb : Fin 8) (s : Fin 2048) (f : Fin 2048) :
    projAt x g b w bias bb s f = projRow (fun j => x (ix3 bb s j)) g b w bias f := rfl

/-! ## Layout operations with a unit column -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Layout

/-! ## The lane sum of a 512 x 512 tile -/

/-- The sum over the lanes of a 512 x 512 tile, at row r. -/
theorem rowSum_apply (v : FVec Ideal S512x512 .f32) (hφ : FKind.Formats .f32)
    (hacc : (0x00000000#32 : BitVec 32) = 0x00000000#32) (r : Fin 512) :
    multiReduction (F := Ideal) .add [1] S512 v 0x00000000#32 reduces_S512x512_S512 hφ hacc (ValueIdx.ix1 r)
      = ∑ k : Fin 512, v (ix2 r k) := by
  refine (Ideal.multiReduction_add_single v 0x00000000#32 reduces_S512x512_S512 hφ hacc (ValueIdx.ix1 r)).trans ?_
  refine Finset.sum_congr rfl fun k _ => congrArg v ?_
  funext a
  match a with
  | ⟨0, _⟩ => rfl
  | ⟨1, _⟩ => rfl

/-! ## The matrix product of the tile -/

theorem lhs_proj_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_proj_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_proj_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_proj_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- The product of a 512 x 512 tile with the 512 x 2048 weights into a zero accumulator, at (r, f): the sum over
    the 512 inner coordinates of the products. -/
theorem matmul_proj_apply (lhs : FVec Ideal S512x512 .bf16) (rhs : FVec Ideal S512x2048 .bf16) (r : Fin 512) (f : Fin 2048) :
    matmul dot_S512x512_S512x2048_S512x2048_1_0_0_1_n_n none lhs rhs (constant (F := Ideal) S512x2048 .f32 0x00000000#32) (ix2 r f)
      = ∑ k : Fin 512, lhs (ix2 r k) * rhs (ix2 k f) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r f) ((contrEquiv1 dot_S512x512_S512x2048_S512x2048_1_0_0_1_n_n 512 rfl rfl).symm k) = ix2 r k := funext fun a => Fin.ext (by
    match a with
    | ⟨0, _⟩ => exact lhs_proj_0 _ _
    | ⟨1, _⟩ => exact (lhs_proj_1 _ _).trans hk)
  have er : dot_S512x512_S512x2048_S512x2048_1_0_0_1_n_n.rhsIdx (ix2 r f) ((contrEquiv1 dot_S512x512_S512x2048_S512x2048_1_0_0_1_n_n 512 rfl rfl).symm k) = ix2 k f := funext fun a => Fin.ext (by
    match a with
    | ⟨0, _⟩ => exact (rhs_proj_0 _ _).trans hk
    | ⟨1, _⟩ => exact rhs_proj_1 _ _)
  rw [el, er]

/-! ## The stages of the tile -/

/-- The 512 rows handed to the point, as a matrix. -/
def xRows (x : Vec Ideal S1x512x512 .f32) : FVec Ideal S512x512 .f32 :=
  shapeCast S512x512 x shapeCasts_S1x512x512_S512x512

/-- The column of the rows' means. -/
def meanCol (x : Vec Ideal S1x512x512 .f32) : FVec Ideal S512x1 .f32 :=
  divf (shapeCast S512x1 (multiReduction (F := Ideal) .add [1] S512 (xRows x) 0x00000000#32 reduces_S512x512_S512 (.inl rfl) rfl) shapeCasts_S512_S512x1)
    (broadcast S512x1 (Scalar.ofBits (F := Ideal) .f32 0x44000000#32))

/-- The rows minus their means. -/
def centred (x : Vec Ideal S1x512x512 .f32) : FVec Ideal S512x512 .f32 :=
  subf (xRows x) (broadcastTo S512x512 (meanCol x) broadcasts_S512x1_S512x512)

/-- The column of the rows' variances. -/
def varCol (x : Vec Ideal S1x512x512 .f32) : FVec Ideal S512x1 .f32 :=
  divf (shapeCast S512x1 (multiReduction (F := Ideal) .add [1] S512 (mulf (centred x) (centred x)) 0x00000000#32 reduces_S512x512_S512 (.inl rfl) rfl) shapeCasts_S512_S512x1)
    (broadcast S512x1 (Scalar.ofBits (F := Ideal) .f32 0x44000000#32))

/-- The normalised rows, scaled and shifted. -/
def lnTile (x : Vec Ideal S1x512x512 .f32) (g b : Vec Ideal S512 .f32) : FVec Ideal S512x512 .f32 :=
  addf (mulf (mulf (centred x)
          (broadcastTo S512x512 (rsqrt (addf (varCol x) (broadcast S512x1 (Scalar.ofBits (F := Ideal) .f32 0x358637BD#32)))) broadcasts_S512x1_S512x512))
        (broadcastTo S512x512 (shapeCast S1x512 g shapeCasts_S512_S1x512) broadcasts_S1x512_S512x512))
    (broadcastTo S512x512 (shapeCast S1x512 b shapeCasts_S512_S1x512) broadcasts_S1x512_S512x512)

/-- The tile is the product of the normalised rows with the weights, plus the bias row. -/
theorem proj_eq (x : Vec Ideal S1x512x512 .f32) (g b : Vec Ideal S512 .f32) (w : Vec Ideal S512x2048 .bf16) (bias : Vec Ideal S2048 .f32) :
    proj (F := Ideal) x g b w bias
      = addf (matmul dot_S512x512_S512x2048_S512x2048_1_0_0_1_n_n none (truncf .bf16 (lnTile x g b) bitsLt_bf16_f32)
            (shapeCast S512x2048 w shapeCasts_S512x2048_S512x2048 : FVec Ideal S512x2048 .bf16) (constant (F := Ideal) S512x2048 .f32 0x00000000#32))
          (broadcastTo S512x2048 (shapeCast S1x2048 bias shapeCasts_S2048_S1x2048) broadcasts_S1x2048_S512x2048) := rfl

/-! ## The stages at an index -/

/-- Row r of the block of 512 rows. -/
abbrev rowOf (x : Vec Ideal S1x512x512 .f32) (r : Fin 512) : Fin 512 → EReal := fun j => x (ix3 (0 : Fin 1) r j)

theorem xRows_apply (x : Vec Ideal S1x512x512 .f32) (r j : Fin 512) : xRows x (ix2 r j) = rowOf x r j :=
  shapeCast_1ab_ab_apply x shapeCasts_S1x512x512_S512x512 r j

/-- The mean column at row r is the mean of row r. -/
theorem meanCol_apply (x : Vec Ideal S1x512x512 .f32) (r : Fin 512) (u : Fin 1) :
    meanCol x (ix2 r u) = Spec.mean (rowOf x r) := by
  unfold meanCol Spec.mean
  show Ideal.div (shapeCast S512x1 _ shapeCasts_S512_S512x1 (ix2 r u)) Spec.c512 = _
  refine congrArg (fun z => Ideal.div z Spec.c512) ?_
  refine (shapeCast_a_a1_apply _ shapeCasts_S512_S512x1 r u).trans ?_
  refine (rowSum_apply (xRows x) (.inl rfl) rfl r).trans ?_
  exact Finset.sum_congr rfl fun k _ => xRows_apply x r k

/-- The centred tile at (r, j) is the row's entry minus the row's mean. -/
theorem centred_apply (x : Vec Ideal S1x512x512 .f32) (r j : Fin 512) :
    centred x (ix2 r j) = rowOf x r j - Spec.mean (rowOf x r) := by
  unfold centred
  show xRows x (ix2 r j) - broadcastTo S512x512 (meanCol x) broadcasts_S512x1_S512x512 (ix2 r j) = _
  rw [xRows_apply, broadcastTo_a1_ab_apply, meanCol_apply]

/-- The variance column at row r is the variance of row r. -/
theorem varCol_apply (x : Vec Ideal S1x512x512 .f32) (r : Fin 512) (u : Fin 1) :
    varCol x (ix2 r u) = Spec.var (rowOf x r) := by
  unfold varCol Spec.var
  show Ideal.div (shapeCast S512x1 _ shapeCasts_S512_S512x1 (ix2 r u)) Spec.c512 = _
  refine congrArg (fun z => Ideal.div z Spec.c512) ?_
  refine (shapeCast_a_a1_apply _ shapeCasts_S512_S512x1 r u).trans ?_
  refine (rowSum_apply (mulf (centred x) (centred x)) (.inl rfl) rfl r).trans ?_
  refine Finset.sum_congr rfl fun k _ => ?_
  show centred x (ix2 r k) * centred x (ix2 r k) = _
  rw [centred_apply]

/-- The normalised tile at (r, e) is the layer normalisation of row r at e. -/
theorem lnTile_apply (x : Vec Ideal S1x512x512 .f32) (g b : Vec Ideal S512 .f32) (r e : Fin 512) :
    lnTile x g b (ix2 r e)
      = Spec.ln (rowOf x r) (fun j => g (ValueIdx.ix1 j)) (fun j => b (ValueIdx.ix1 j)) e := by
  unfold lnTile Spec.ln
  show centred x (ix2 r e)
        * broadcastTo S512x512 (rsqrt (addf (varCol x) (broadcast S512x1 (Scalar.ofBits (F := Ideal) .f32 0x358637BD#32)))) broadcasts_S512x1_S512x512 (ix2 r e)
        * broadcastTo S512x512 (shapeCast S1x512 g shapeCasts_S512_S1x512) broadcasts_S1x512_S512x512 (ix2 r e)
      + broadcastTo S512x512 (shapeCast S1x512 b shapeCasts_S512_S1x512) broadcasts_S1x512_S512x512 (ix2 r e) = _
  rw [centred_apply, broadcastTo_a1_ab_apply, broadcastTo_1b_ab_apply, broadcastTo_1b_ab_apply, shapeCast_a_1a_apply,
    shapeCast_a_1a_apply]
  show _ * Ideal.rsqrt (varCol x (ix2 r (0 : Fin 1)) + Spec.eps) * _ + _ = _
  rw [varCol_apply]

/-- THE TILE AT (r, f): the projection of row r at column f. -/
theorem proj_apply (x : Vec Ideal S1x512x512 .f32) (g b : Vec Ideal S512 .f32) (w : Vec Ideal S512x2048 .bf16)
    (bias : Vec Ideal S2048 .f32) (r : Fin 512) (f : Fin 2048) :
    proj (F := Ideal) x g b w bias (ix2 r f) = projRow (rowOf x r) g b w bias f := by
  rw [proj_eq]
  show matmul dot_S512x512_S512x2048_S512x2048_1_0_0_1_n_n none (truncf .bf16 (lnTile x g b) bitsLt_bf16_f32)
          (shapeCast S512x2048 w shapeCasts_S512x2048_S512x2048 : FVec Ideal S512x2048 .bf16) (constant (F := Ideal) S512x2048 .f32 0x00000000#32) (ix2 r f)
        + broadcastTo S512x2048 (shapeCast S1x2048 bias shapeCasts_S2048_S1x2048) broadcasts_S1x2048_S512x2048 (ix2 r f) = _
  rw [matmul_proj_apply, broadcastTo_1b_ab_apply, shapeCast_a_1a_apply, shapeCast_self]
  unfold projRow
  refine congrArg (· + bias (ValueIdx.ix1 f)) (Finset.sum_congr rfl fun k _ => ?_)
  show lnTile x g b (ix2 r k) * w (ix2 k f) = _
  rw [lnTile_apply]

/-! ## The four output blocks at an index -/

/-- The u block at (u, r, j): silu of the tile's column j. -/
theorem uBlk_apply (x : Vec Ideal S1x512x512 .f32) (g b : Vec Ideal S512 .f32) (w : Vec Ideal S512x2048 .bf16)
    (bias : Vec Ideal S2048 .f32) (u : Fin 1) (r j : Fin 512) :
    uBlk (F := Ideal) x g b w bias (ix3 u r j)
      = Spec.silu (projRow (rowOf x r) g b w bias ⟨j.val, by have := j.isLt; omega⟩) := by
  have hs : extractStridedSlice S512x512 ![0, 0] (proj (F := Ideal) x g b w bias) slices_S512x2048_o0_0_S512x512 (ix2 r j)
      = projRow (rowOf x r) g b w bias ⟨j.val, by have := j.isLt; omega⟩ :=
    (slice2_axis1_apply 0 (proj (F := Ideal) x g b w bias) slices_S512x2048_o0_0_S512x512 r j
      ⟨j.val, by have := j.isLt; omega⟩ (Nat.zero_add _).symm).trans (proj_apply x g b w bias r _)
  unfold uBlk k0_pay1 k0_pay6
  refine (shapeCast_ab_1ab_apply _ shapeCasts_S512x512_S1x512x512 u r j).trans ?_
  show extractStridedSlice S512x512 ![0, 0] (proj (F := Ideal) x g b w bias) slices_S512x2048_o0_0_S512x512 (ix2 r j)
      * Ideal.logistic (extractStridedSlice S512x512 ![0, 0] (proj (F := Ideal) x g b w bias) slices_S512x2048_o0_0_S512x512 (ix2 r j)) = _
  rw [hs]
  rfl

/-- The v block at (u, r, j): the tile's column 512 + j. -/
theorem vBlk_apply (x : Vec Ideal S1x512x512 .f32) (g b : Vec Ideal S512 .f32) (w : Vec Ideal S512x2048 .bf16)
    (bias : Vec Ideal S2048 .f32) (u : Fin 1) (r j : Fin 512) :
    vBlk (F := Ideal) x g b w bias (ix3 u r j)
      = projRow (rowOf x r) g b w bias ⟨512 + j.val, by have := j.isLt; omega⟩ := by
  unfold vBlk k0_pay2
  refine (shapeCast_ab_1ab_apply _ shapeCasts_S512x512_S1x512x512 u r j).trans ?_
  show extractStridedSlice S512x512 ![0, 512] (proj (F := Ideal) x g b w bias) slices_S512x2048_o0_512_S512x512 (ix2 r j) = _
  exact (slice2_axis1_apply 512 (proj (F := Ideal) x g b w bias) slices_S512x2048_o0_512_S512x512 r j
      ⟨512 + j.val, by have := j.isLt; omega⟩ rfl).trans (proj_apply x g b w bias r _)

/-- The q block at (u, r, j): the tile's column 1024 + j. -/
theorem qBlk_apply (x : Vec Ideal S1x512x512 .f32) (g b : Vec Ideal S512 .f32) (w : Vec Ideal S512x2048 .bf16)
    (bias : Vec Ideal S2048 .f32) (u : Fin 1) (r j : Fin 512) :
    qBlk (F := Ideal) x g b w bias (ix3 u r j)
      = projRow (rowOf x r) g b w bias ⟨1024 + j.val, by have := j.isLt; omega⟩ := by
  unfold qBlk k0_pay3
  refine (shapeCast_ab_1ab_apply _ shapeCasts_S512x512_S1x512x512 u r j).trans ?_
  show extractStridedSlice S512x512 ![0, 1024] (proj (F := Ideal) x g b w bias) slices_S512x2048_o0_1024_S512x512 (ix2 r j) = _
  exact (slice2_axis1_apply 1024 (proj (F := Ideal) x g b w bias) slices_S512x2048_o0_1024_S512x512 r j
      ⟨1024 + j.val, by have := j.isLt; omega⟩ rfl).trans (proj_apply x g b w bias r _)

/-- The k block at (u, r, j): the tile's column 1536 + j. -/
theorem kBlk_apply (x : Vec Ideal S1x512x512 .f32) (g b : Vec Ideal S512 .f32) (w : Vec Ideal S512x2048 .bf16)
    (bias : Vec Ideal S2048 .f32) (u : Fin 1) (r j : Fin 512) :
    kBlk (F := Ideal) x g b w bias (ix3 u r j)
      = projRow (rowOf x r) g b w bias ⟨1536 + j.val, by have := j.isLt; omega⟩ := by
  unfold kBlk k0_pay4
  refine (shapeCast_ab_1ab_apply _ shapeCasts_S512x512_S1x512x512 u r j).trans ?_
  show extractStridedSlice S512x512 ![0, 1536] (proj (F := Ideal) x g b w bias) slices_S512x2048_o0_1536_S512x512 (ix2 r j) = _
  exact (slice2_axis1_apply 1536 (proj (F := Ideal) x g b w bias) slices_S512x2048_o0_1536_S512x512 r j
      ⟨1536 + j.val, by have := j.isLt; omega⟩ rfl).trans (proj_apply x g b w bias r _)

end Cert.KernelIdeal.Val

end
-- ==== Proof.Val.R0Val.lean ====
/-
  The value of the projection region: each of the four arrays it leaves, as one function of the input arrays.

  The grid has 8 x 4 points; point t = 4 b + i is handed rows 512 i .. 512 i + 511 of batch row b of x and the whole
  of the two layer-norm vectors, the weights and the bias, and writes back block (b, i) of each of u, v, q, k.
  A block's entry (r, j) is a function of row r of the x block alone, and that row is row (b, 512 i + r) of x: so
  every block is the restriction of one function of the whole arrays, the blocks tile the arrays, and each array
  ends holding that function.
-/
import proofs.«419744_j566935683421_1_alg».proof.Proof.Val.R0ValA
import proofs.«419744_j566935683421_1_alg».proof.Proof.KI.R0
import proofs.«419744_j566935683421_1_alg».proof.Proof.Gen.KernelIdeal.Launch
import proofs.«419744_j566935683421_1_alg».proof.Proof.Gen.KernelIdeal.Points

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The index maps over the grid -/

/-- The printed index maps, decided over the 32 points: the x window and the u window sit at block
    (t / 4, t % 4, 0); the four whole windows at block 0. -/
theorem idx_facts0 : ∀ t : Fin cfg0.N,
    win0_5.index t (0 : Fin 3) = t.val / 4 ∧ win0_5.index t (1 : Fin 3) = t.val % 4 ∧ win0_5.index t (2 : Fin 3) = 0
    ∧ win0_0.index t (0 : Fin 3) = t.val / 4 ∧ win0_0.index t (1 : Fin 3) = t.val % 4 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- The v, q and k windows move with the u window. -/
theorem idx_same0 : ∀ t : Fin cfg0.N,
    win0_6.index t = win0_5.index t ∧ win0_7.index t = win0_5.index t ∧ win0_8.index t = win0_5.index t :=
  (by decide +kernel : ∀ t : Fin grid0.N, _)

/-- The batch row of point t. -/
abbrev rowB (t : Fin cfg0.N) : Fin 8 := ⟨t.val / 4, by have := t.isLt; have : cfg0.N = 32 := N_0; omega⟩
/-- The position, in its batch row, of row r of point t's block. -/
abbrev rowS (t : Fin cfg0.N) (r : Fin 512) : Fin 2048 := ⟨t.val % 4 * 512 + r.val, by omega⟩

/-- The point whose blocks hold index i. -/
def ptOf (i : S8x2048x512.Idx) : Fin cfg0.N := ⟨(i 0).val * 4 + (i 1).val / 512, by
  have h0 : (i 0).val < 8 := (i 0).isLt
  have h1 : (i 1).val < 2048 := (i 1).isLt
  have : cfg0.N = 32 := N_0
  omega⟩

/-- Where entry (u, r, e) of a block at block index (t / 4, t % 4, 0) lies in the array. -/
theorem emb_arith (idx : Fin 3 → ℕ) (t : Fin cfg0.N) (h0 : idx 0 = t.val / 4) (h1 : idx 1 = t.val % 4) (h2 : idx 2 = 0)
    (u : Fin 1) (r e : Fin 512) (k : S8x2048x512.Idx)
    (hk : ∀ a : Fin 3, (k a).val = idx a * S1x512x512.size a + 1 * (ix3 u r e a).val) :
    k = ix3 (rowB t) (rowS t r) e := by
  funext a; apply Fin.ext
  match a with
  | ⟨0, _⟩ => have := hk 0; show (k 0).val = t.val / 4; change (k 0).val = idx 0 * 1 + 1 * u.val at this; omega
  | ⟨1, _⟩ => have := hk 1; show (k 1).val = t.val % 4 * 512 + r.val; change (k 1).val = idx 1 * 512 + 1 * r.val at this; omega
  | ⟨2, _⟩ => have := hk 2; show (k 2).val = e.val; change (k 2).val = idx 2 * 512 + 1 * e.val at this; omega

/-- Index i lies in the block at block index (t / 4, t % 4, 0) of its own point. -/
theorem blk_arith (idx : Fin 3 → ℕ) (i : S8x2048x512.Idx) (h0 : idx 0 = (ptOf i).val / 4) (h1 : idx 1 = (ptOf i).val % 4)
    (h2 : idx 2 = 0) :
    ∀ a : Fin 3, idx a * S1x512x512.size a ≤ (i a).val ∧ (i a).val < idx a * S1x512x512.size a + S1x512x512.size a := by
  intro a
  have hi0 : (i 0).val < 8 := (i 0).isLt
  have hi1 : (i 1).val < 2048 := (i 1).isLt
  have hi2 : (i 2).val < 512 := (i 2).isLt
  have htv : (ptOf i).val = (i 0).val * 4 + (i 1).val / 512 := rfl
  match a with
  | ⟨0, _⟩ => show idx 0 * 1 ≤ (i 0).val ∧ (i 0).val < idx 0 * 1 + 1; omega
  | ⟨1, _⟩ => show idx 1 * 512 ≤ (i 1).val ∧ (i 1).val < idx 1 * 512 + 512; omega
  | ⟨2, _⟩ => show idx 2 * 512 ≤ (i 2).val ∧ (i 2).val < idx 2 * 512 + 512; omega

/-! ## The input blocks of a point, read off the arrays -/

/-- Row r of point t's x block is row (t / 4, 512 (t % 4) + r) of x. -/
theorem xblk_apply (c : Dev nD) (t : Fin cfg0.N) (u : Fin 1) (r j : Fin 512) :
    (iblk0 V c 0 t : Vec Ideal S1x512x512 .f32) (ix3 u r j)
      = (V c main_arg0 : Vec Ideal S8x2048x512 .f32) (ix3 (rowB t) (rowS t r) j) := by
  obtain ⟨-, -, -, f0, f1, f2, -⟩ := idx_facts0 t
  show V c main_arg0 (((cfg0.win 0).blk t).view.emb (ix3 u r j)) = _
  refine congrArg (V c main_arg0) ?_
  exact emb_arith (win0_0.index t) t f0 f1 f2 u r j _ (fun a => rfl)

/-- The first layer-norm vector's block is the whole vector. -/
theorem gblk_eq (c : Dev nD) (t : Fin cfg0.N) : (iblk0 V c 1 t : Vec Ideal S512 .f32) = V c main_arg5 := by
  obtain ⟨-, -, -, -, -, -, e1, -⟩ := idx_facts0 t
  funext y
  show V c main_arg5 (((cfg0.win 1).blk t).view.emb y) = V c main_arg5 y
  refine congrArg (V c main_arg5) ?_
  funext a; apply Fin.ext
  match a with
  | ⟨0, _⟩ => show win0_1.index t (0 : Fin 1) * 512 + 1 * (y 0).val = (y 0).val; omega

/-- The second layer-norm vector's block is the whole vector. -/
theorem bblk_eq (c : Dev nD) (t : Fin cfg0.N) : (iblk0 V c 2 t : Vec Ideal S512 .f32) = V c main_arg6 := by
  obtain ⟨-, -, -, -, -, -, -, e2, -⟩ := idx_facts0 t
  funext y
  show V c main_arg6 (((cfg0.win 2).blk t).view.emb y) = V c main_arg6 y
  refine congrArg (V c main_arg6) ?_
  funext a; apply Fin.ext
  match a with
  | ⟨0, _⟩ => show win0_2.index t (0 : Fin 1) * 512 + 1 * (y 0).val = (y 0).val; omega

/-- The weights' block is the whole matrix. -/
theorem wblk_eq (c : Dev nD) (t : Fin cfg0.N) : (iblk0 V c 3 t : Vec Ideal S512x2048 .bf16) = V c main_v0 := by
  obtain ⟨-, -, -, -, -, -, -, -, e30, e31, -⟩ := idx_facts0 t
  funext y
  show V c main_v0 (((cfg0.win 3).blk t).view.emb y) = V c main_v0 y
  refine congrArg (V c main_v0) ?_
  funext a; apply Fin.ext
  match a with
  | ⟨0, _⟩ => show win0_3.index t (0 : Fin 2) * 512 + 1 * (y 0).val = (y 0).val; omega
  | ⟨1, _⟩ => show win0_3.index t (1 : Fin 2) * 2048 + 1 * (y 1).val = (y 1).val; omega

/-- The bias's block is the whole vector. -/
theorem biasblk_eq (c : Dev nD) (t : Fin cfg0.N) : (iblk0 V c 4 t : Vec Ideal S2048 .f32) = V c main_arg3 := by
  obtain ⟨-, -, -, -, -, -, -, -, -, -, e4⟩ := idx_facts0 t
  funext y
  show V c main_arg3 (((cfg0.win 4).blk t).view.emb y) = V c main_arg3 y
  refine congrArg (V c main_arg3) ?_
  funext a; apply Fin.ext
  match a with
  | ⟨0, _⟩ => show win0_4.index t (0 : Fin 1) * 2048 + 1 * (y 0).val = (y 0).val; omega

/-- Row r of point t's x block, as a row of the array x. -/
theorem xrow_eq (c : Dev nD) (t : Fin cfg0.N) (x : Vec Ideal S8x2048x512 .f32) (hx : V c main_arg0 = x) (r : Fin 512) :
    rowOf (iblk0 V c 0 t : Vec Ideal S1x512x512 .f32) r = fun j => x (ix3 (rowB t) (rowS t r) j) := by
  funext j
  exact (xblk_apply V c t 0 r j).trans (congrFun hx _)

/-! ## What a point writes back, as the restriction of one function of the arrays -/

section Point
variable (c : Dev nD) (t : Fin cfg0.N) (x : Vec Ideal S8x2048x512 .f32) (g b : Vec Ideal S512 .f32)
  (w : Vec Ideal S512x2048 .bf16) (bias : Vec Ideal S2048 .f32)
  (hx : V c main_arg0 = x) (hg : V c main_arg5 = g) (hb : V c main_arg6 = b) (hw : V c main_v0 = w)
  (hbias : V c main_arg3 = bias)
include hx hg hb hw hbias

/-- The u block of point t at (u, r, e) is the u array at (t / 4, 512 (t % 4) + r, e). -/
theorem uBlk_pt (u : Fin 1) (r e : Fin 512) :
    uBlk (F := Ideal) (iblk0 V c 0 t) (iblk0 V c 1 t) (iblk0 V c 2 t) (iblk0 V c 3 t) (iblk0 V c 4 t) (ix3 u r e)
      = Spec.uArr x g b w bias (ix3 (rowB t) (rowS t r) e) := by
  rw [gblk_eq, bblk_eq, wblk_eq, biasblk_eq, hg, hb, hw, hbias]
  refine (uBlk_apply _ g b w bias u r e).trans ?_
  rw [xrow_eq V c t x hx r]
  rfl

/-- The v block of point t at (u, r, e) is the v array at (t / 4, 512 (t % 4) + r, e). -/
theorem vBlk_pt (u : Fin 1) (r e : Fin 512) :
    vBlk (F := Ideal) (iblk0 V c 0 t) (iblk0 V c 1 t) (iblk0 V c 2 t) (iblk0 V c 3 t) (iblk0 V c 4 t) (ix3 u r e)
      = Spec.vArr x g b w bias (ix3 (rowB t) (rowS t r) e) := by
  rw [gblk_eq, bblk_eq, wblk_eq, biasblk_eq, hg, hb, hw, hbias]
  refine (vBlk_apply _ g b w bias u r e).trans ?_
  rw [xrow_eq V c t x hx r]
  rfl

/-- The q block of point t at (u, r, e) is the q array at (t / 4, 512 (t % 4) + r, e). -/
theorem qBlk_pt (u : Fin 1) (r e : Fin 512) :
    qBlk (F := Ideal) (iblk0 V c 0 t) (iblk0 V c 1 t) (iblk0 V c 2 t) (iblk0 V c 3 t) (iblk0 V c 4 t) (ix3 u r e)
      = Spec.qArr x g b w bias (ix3 (rowB t) (rowS t r) e) := by
  rw [gblk_eq, bblk_eq, wblk_eq, biasblk_eq, hg, hb, hw, hbias]
  refine (qBlk_apply _ g b w bias u r e).trans ?_
  rw [xrow_eq V c t x hx r]
  rfl

/-- The k block of point t at (u, r, e) is the k array at (t / 4, 512 (t % 4) + r, e). -/
theorem kBlk_pt (u : Fin 1) (r e : Fin 512) :
    kBlk (F := Ideal) (iblk0 V c 0 t) (iblk0 V c 1 t) (iblk0 V c 2 t) (iblk0 V c 3 t) (iblk0 V c 4 t) (ix3 u r e)
      = Spec.kArr x g b w bias (ix3 (rowB t) (rowS t r) e) := by
  rw [gblk_eq, bblk_eq, wblk_eq, biasblk_eq, hg, hb, hw, hbias]
  refine (kBlk_apply _ g b w bias u r e).trans ?_
  rw [xrow_eq V c t x hx r]
  rfl

/-- WHAT POINT t WRITES BACK to u is block t of the u array. -/
theorem flushed0_u : (dat0 V c).flushed 5 t = ((cfg0.win 5).blk t).view.read (Elt Ideal) (Spec.uArr x g b w bias) := by
  show (cfg0.win 5).cut (grid0.coords t) ((dat0 V c).after 5 t) = _
  rw [after0_5]
  obtain ⟨e0, e1, e2, -⟩ := idx_facts0 t
  funext j
  obtain ⟨u, r, e, rfl⟩ : ∃ (u : Fin 1) (r e : Fin 512), j = ix3 u r e := ⟨j 0, j 1, j 2, eq_ix3 j⟩
  show uBlk (F := Ideal) (iblk0 V c 0 t) (iblk0 V c 1 t) (iblk0 V c 2 t) (iblk0 V c 3 t) (iblk0 V c 4 t) (ix3 u r e)
      = Spec.uArr x g b w bias (((cfg0.win 5).blk t).view.emb (ix3 u r e))
  rw [emb_arith (win0_5.index t) t e0 e1 e2 u r e (((cfg0.win 5).blk t).view.emb (ix3 u r e)) (fun a => rfl)]
  exact uBlk_pt V c t x g b w bias hx hg hb hw hbias u r e

/-- WHAT POINT t WRITES BACK to v is block t of the v array. -/
theorem flushed0_v : (dat0 V c).flushed 6 t = ((cfg0.win 6).blk t).view.read (Elt Ideal) (Spec.vArr x g b w bias) := by
  show (cfg0.win 6).cut (grid0.coords t) ((dat0 V c).after 6 t) = _
  rw [after0_6]
  obtain ⟨e0, e1, e2, -⟩ := idx_facts0 t
  obtain ⟨s6, -, -⟩ := idx_same0 t
  funext j
  obtain ⟨u, r, e, rfl⟩ : ∃ (u : Fin 1) (r e : Fin 512), j = ix3 u r e := ⟨j 0, j 1, j 2, eq_ix3 j⟩
  show vBlk (F := Ideal) (iblk0 V c 0 t) (iblk0 V c 1 t) (iblk0 V c 2 t) (iblk0 V c 3 t) (iblk0 V c 4 t) (ix3 u r e)
      = Spec.vArr x g b w bias (((cfg0.win 6).blk t).view.emb (ix3 u r e))
  rw [emb_arith (win0_6.index t) t ((congrFun s6 0).trans e0) ((congrFun s6 1).trans e1) ((congrFun s6 2).trans e2) u r e
    (((cfg0.win 6).blk t).view.emb (ix3 u r e)) (fun a => rfl)]
  exact vBlk_pt V c t x g b w bias hx hg hb hw hbias u r e

/-- WHAT POINT t WRITES BACK to q is block t of the q array. -/
theorem flushed0_q : (dat0 V c).flushed 7 t = ((cfg0.win 7).blk t).view.read (Elt Ideal) (Spec.qArr x g b w bias) := by
  show (cfg0.win 7).cut (grid0.coords t) ((dat0 V c).after 7 t) = _
  rw [after0_7]
  obtain ⟨e0, e1, e2, -⟩ := idx_facts0 t
  obtain ⟨-, s7, -⟩ := idx_same0 t
  funext j
  obtain ⟨u, r, e, rfl⟩ : ∃ (u : Fin 1) (r e : Fin 512), j = ix3 u r e := ⟨j 0, j 1, j 2, eq_ix3 j⟩
  show qBlk (F := Ideal) (iblk0 V c 0 t) (iblk0 V c 1 t) (iblk0 V c 2 t) (iblk0 V c 3 t) (iblk0 V c 4 t) (ix3 u r e)
      = Spec.qArr x g b w bias (((cfg0.win 7).blk t).view.emb (ix3 u r e))
  rw [emb_arith (win0_7.index t) t ((congrFun s7 0).trans e0) ((congrFun s7 1).trans e1) ((congrFun s7 2).trans e2) u r e
    (((cfg0.win 7).blk t).view.emb (ix3 u r e)) (fun a => rfl)]
  exact qBlk_pt V c t x g b w bias hx hg hb hw hbias u r e

/-- WHAT POINT t WRITES BACK to k is block t of the k array. -/
theorem flushed0_k : (dat0 V c).flushed 8 t = ((cfg0.win 8).blk t).view.read (Elt Ideal) (Spec.kArr x g b w bias) := by
  show (cfg0.win 8).cut (grid0.coords t) ((dat0 V c).after 8 t) = _
  rw [after0_8]
  obtain ⟨e0, e1, e2, -⟩ := idx_facts0 t
  obtain ⟨-, -, s8⟩ := idx_same0 t
  funext j
  obtain ⟨u, r, e, rfl⟩ : ∃ (u : Fin 1) (r e : Fin 512), j = ix3 u r e := ⟨j 0, j 1, j 2, eq_ix3 j⟩
  show kBlk (F := Ideal) (iblk0 V c 0 t) (iblk0 V c 1 t) (iblk0 V c 2 t) (iblk0 V c 3 t) (iblk0 V c 4 t) (ix3 u r e)
      = Spec.kArr x g b w bias (((cfg0.win 8).blk t).view.emb (ix3 u r e))
  rw [emb_arith (win0_8.index t) t ((congrFun s8 0).trans e0) ((congrFun s8 1).trans e1) ((congrFun s8 2).trans e2) u r e
    (((cfg0.win 8).blk t).view.emb (ix3 u r e)) (fun a => rfl)]
  exact kBlk_pt V c t x g b w bias hx hg hb hw hbias u r e

end Point

/-! ## The blocks tile the arrays -/

/-- An index of the u array is in point t's block iff each coordinate is in the block's range on its axis. -/
theorem mem_blk5 (t : Fin cfg0.N) (i : S8x2048x512.Idx) :
    i ∈ ((cfg0.win 5).blk t).view.set ↔ ∀ a : Fin 3, win0_5.index t a * S1x512x512.size a ≤ (i a).val
      ∧ (i a).val < win0_5.index t a * S1x512x512.size a + S1x512x512.size a := by
  show i ∈ ((View.whole main_v2_0).slice (win0_5.rect t)).set ↔ _
  rw [View.set_slice_whole, Rect.mem_set_unit]
  exact Iff.rfl
/-- The same for the v array. -/
theorem mem_blk6 (t : Fin cfg0.N) (i : S8x2048x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v2_1).slice (win0_6.rect t)).set ↔ _
  rw [View.set_slice_whole, Rect.mem_set_unit]
  exact Iff.rfl
/-- The same for the q array. -/
theorem mem_blk7 (t : Fin cfg0.N) (i : S8x2048x512.Idx) :
    i ∈ ((cfg0.win 7).blk t).view.set ↔ ∀ a : Fin 3, win0_7.index t a * S1x512x512.size a ≤ (i a).val
      ∧ (i a).val < win0_7.index t a * S1x512x512.size a + S1x512x512.size a := by
  show i ∈ ((View.whole main_v2_2).slice (win0_7.rect t)).set ↔ _
  rw [View.set_slice_whole, Rect.mem_set_unit]
  exact Iff.rfl
/-- The same for the k array. -/
theorem mem_blk8 (t : Fin cfg0.N) (i : S8x2048x512.Idx) :
    i ∈ ((cfg0.win 8).blk t).view.set ↔ ∀ a : Fin 3, win0_8.index t a * S1x512x512.size a ≤ (i a).val
      ∧ (i a).val < win0_8.index t a * S1x512x512.size a + S1x512x512.size a := by
  show i ∈ ((View.whole main_v2_3).slice (win0_8.rect t)).set ↔ _
  rw [View.set_slice_whole, Rect.mem_set_unit]
  exact Iff.rfl

/-- Every index of the u array is in the block of the point 4 b + s / 512, which writes it back. -/
theorem cover5 (i : S8x2048x512.Idx) :
    ∃ t : Fin cfg0.N, (cfg0.win 5).flush t = true ∧ i ∈ ((cfg0.win 5).blk t).view.set := by
  obtain ⟨e0, e1, e2, -⟩ := idx_facts0 (ptOf i)
  refine ⟨ptOf i, flush0_5 _, ?_⟩
  rw [mem_blk5]
  exact blk_arith (win0_5.index (ptOf i)) i e0 e1 e2
/-- The same for the v array. -/
theorem cover6 (i : S8x2048x512.Idx) :
    ∃ t : Fin cfg0.N, (cfg0.win 6).flush t = true ∧ i ∈ ((cfg0.win 6).blk t).view.set := by
  obtain ⟨e0, e1, e2, -⟩ := idx_facts0 (ptOf i)
  obtain ⟨s6, -, -⟩ := idx_same0 (ptOf i)
  refine ⟨ptOf i, flush0_6 _, ?_⟩
  rw [mem_blk6]
  exact blk_arith (win0_6.index (ptOf i)) i ((congrFun s6 0).trans e0) ((congrFun s6 1).trans e1) ((congrFun s6 2).trans e2)
/-- The same for the q array. -/
theorem cover7 (i : S8x2048x512.Idx) :
    ∃ t : Fin cfg0.N, (cfg0.win 7).flush t = true ∧ i ∈ ((cfg0.win 7).blk t).view.set := by
  obtain ⟨e0, e1, e2, -⟩ := idx_facts0 (ptOf i)
  obtain ⟨-, s7, -⟩ := idx_same0 (ptOf i)
  refine ⟨ptOf i, flush0_7 _, ?_⟩
  rw [mem_blk7]
  exact blk_arith (win0_7.index (ptOf i)) i ((congrFun s7 0).trans e0) ((congrFun s7 1).trans e1) ((congrFun s7 2).trans e2)
/-- The same for the k array. -/
theorem cover8 (i : S8x2048x512.Idx) :
    ∃ t : Fin cfg0.N, (cfg0.win 8).flush t = true ∧ i ∈ ((cfg0.win 8).blk t).view.set := by
  obtain ⟨e0, e1, e2, -⟩ := idx_facts0 (ptOf i)
  obtain ⟨-, -, s8⟩ := idx_same0 (ptOf i)
  refine ⟨ptOf i, flush0_8 _, ?_⟩
  rw [mem_blk8]
  exact blk_arith (win0_8.index (ptOf i)) i ((congrFun s8 0).trans e0) ((congrFun s8 1).trans e1) ((congrFun s8 2).trans e2)

/-! ## The four arrays after the region -/

/-- THE u ARRAY after the projection region: silu of the projection's columns 0..511. -/
theorem arrAt0_u (c : Dev nD) (x : Vec Ideal S8x2048x512 .f32) (g b : Vec Ideal S512 .f32) (w : Vec Ideal S512x2048 .bf16)
    (bias : Vec Ideal S2048 .f32) (hx : V c main_arg0 = x) (hg : V c main_arg5 = g) (hb : V c main_arg6 = b)
    (hw : V c main_v0 = w) (hbias : V c main_arg3 = bias) :
    (dat0 V c).arrAt 5 cfg0.N = Spec.uArr x g b w bias :=
  (dat0 V c).arrAt_eq_of_cover 5 (Spec.uArr x g b w bias)
    (fun t _ => flushed0_u V c t x g b w bias hx hg hb hw hbias) cover5

/-- THE v ARRAY after the projection region: the projection's columns 512..1023. -/
theorem arrAt0_v (c : Dev nD) (x : Vec Ideal S8x2048x512 .f32) (g b : Vec Ideal S512 .f32) (w : Vec Ideal S512x2048 .bf16)
    (bias : Vec Ideal S2048 .f32) (hx : V c main_arg0 = x) (hg : V c main_arg5 = g) (hb : V c main_arg6 = b)
    (hw : V c main_v0 = w) (hbias : V c main_arg3 = bias) :
    (dat0 V c).arrAt 6 cfg0.N = Spec.vArr x g b w bias :=
  (dat0 V c).arrAt_eq_of_cover 6 (Spec.vArr x g b w bias)
    (fun t _ => flushed0_v V c t x g b w bias hx hg hb hw hbias) cover6

/-- THE q ARRAY after the projection region: the projection's columns 1024..1535. -/
theorem arrAt0_q (c : Dev nD) (x : Vec Ideal S8x2048x512 .f32) (g b : Vec Ideal S512 .f32) (w : Vec Ideal S512x2048 .bf16)
    (bias : Vec Ideal S2048 .f32) (hx : V c main_arg0 = x) (hg : V c main_arg5 = g) (hb : V c main_arg6 = b)
    (hw : V c main_v0 = w) (hbias : V c main_arg3 = bias) :
    (dat0 V c).arrAt 7 cfg0.N = Spec.qArr x g b w bias :=
  (dat0 V c).arrAt_eq_of_cover 7 (Spec.qArr x g b w bias)
    (fun t _ => flushed0_q V c t x g b w bias hx hg hb hw hbias) cover7

/-- THE k ARRAY after the projection region: the projection's columns 1536..2047. -/
theorem arrAt0_k (c : Dev nD) (x : Vec Ideal S8x2048x512 .f32) (g b : Vec Ideal S512 .f32) (w : Vec Ideal S512x2048 .bf16)
    (bias : Vec Ideal S2048 .f32) (hx : V c main_arg0 = x) (hg : V c main_arg5 = g) (hb : V c main_arg6 = b)
    (hw : V c main_v0 = w) (hbias : V c main_arg3 = bias) :
    (dat0 V c).arrAt 8 cfg0.N = Spec.kArr x g b w bias :=
  (dat0 V c).arrAt_eq_of_cover 8 (Spec.kArr x g b w bias)
    (fun t _ => flushed0_k V c t x g b w bias hx hg hb hw hbias) cover8

end Cert.KernelIdeal.Val

end
-- ==== Proof.Val.MatmulAt.lean ====
/-
  The three block products of the attention kernel read at an output index: into a zero accumulator, the product of a
  block A (rows × depth) with a block B (depth × columns) is, at (r, c), the plain sum over the depth of A[r, e] · B[e, c]
  over the extended reals.
-/
import proofs.«419744_j566935683421_1_alg».proof.Proof.Gen.KernelIdeal.Skeleton
import Idealize.ShloMosaic.Lib.ValueIdx
import Idealize.ShloMosaic.PureOps.Ideal.Laws

noncomputable section

namespace Cert.KernelIdeal.Val

open Idealize.ShloMosaic Idealize.SL.Sem Cert.KernelIdeal Cert.KernelIdeal.Gen
open Idealize.ShloMosaic.ValueIdx (ix2)

/-! ## a 512×64 block times a 64×512 block -/

theorem lhsA_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhsA_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhsA_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhsA_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product at (r, c): the sum over the 64 depth positions. -/
theorem matmulA_apply {φ₁ φ₂ : FTy} (A : FVec Ideal S512x64 φ₁) (B : FVec Ideal S64x512 φ₂) (r : Fin 512) (c : Fin 512) :
    matmul dot_S512x64_S64x512_S512x512_1_0_0_1_n_n none A B (constant (F := Ideal) S512x512 .f32 0x00000000#32) (ix2 r c)
      = ∑ e : Fin 64, A (ix2 r e) * B (ix2 e c) := by
  simp only [matmul]
  rw [Ideal.matmul_constant_zero_apply, ← Equiv.sum_comp (ValueIdx.contrEquiv1 dot_S512x64_S64x512_S512x512_1_0_0_1_n_n 64 rfl rfl).symm]
  refine Finset.sum_congr rfl fun e _ => ?_
  have hk := ValueIdx.contrEquiv1_symm_val dot_S512x64_S64x512_S512x512_1_0_0_1_n_n 64 rfl rfl e
  have el : dot_S512x64_S64x512_S512x512_1_0_0_1_n_n.lhsIdx (ix2 r c) ((ValueIdx.contrEquiv1 dot_S512x64_S64x512_S512x512_1_0_0_1_n_n 64 rfl rfl).symm e) = ix2 r e := funext fun a => Fin.ext (by
    match a with
    | ⟨0, _⟩ => exact lhsA_0 _ _
    | ⟨1, _⟩ => exact (lhsA_1 _ _).trans hk)
  have er : dot_S512x64_S64x512_S512x512_1_0_0_1_n_n.rhsIdx (ix2 r c) ((ValueIdx.contrEquiv1 dot_S512x64_S64x512_S512x512_1_0_0_1_n_n 64 rfl rfl).symm e) = ix2 e c := funext fun a => Fin.ext (by
    match a with
    | ⟨0, _⟩ => exact (rhsA_0 _ _).trans hk
    | ⟨1, _⟩ => exact rhsA_1 _ _)
  rw [el, er]

/-! ## a 512×512 block times a 512×64 block -/

theorem lhsB_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhsB_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhsB_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhsB_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The product at (r, c): the sum over the 512 depth positions. -/
theorem matmulB_apply {φ₁ φ₂ : FTy} (A : FVec Ideal S512x512 φ₁) (B : FVec Ideal S512x64 φ₂) (r : Fin 512) (c : Fin 64) :
    matmul dot_S512x512_S512x64_S512x64_1_0_0_1_n_n none A B (constant (F := Ideal) S512x64 .f32 0x00000000#32) (ix2 r c)
      = ∑ e : Fin 512, A (ix2 r e) * B (ix2 e c) := by
  simp only [matmul]
  rw [Ideal.matmul_constant_zero_apply, ← Equiv.sum_comp (ValueIdx.contrEquiv1 dot_S512x512_S512x64_S512x64_1_0_0_1_n_n 512 rfl rfl).symm]
  refine Finset.sum_congr rfl fun e _ => ?_
  have hk := ValueIdx.contrEquiv1_symm_val dot_S512x512_S512x64_S512x64_1_0_0_1_n_n 512 rfl rfl e
  have el : dot_S512x512_S512x64_S512x64_1_0_0_1_n_n.lhsIdx (ix2 r c) ((ValueIdx.contrEquiv1 dot_S512x512_S512x64_S512x64_1_0_0_1_n_n 512 rfl rfl).symm e) = ix2 r e := funext fun a => Fin.ext (by
    match a with
    | ⟨0, _⟩ => exact lhsB_0 _ _
    | ⟨1, _⟩ => exact (lhsB_1 _ _).trans hk)
  have er : dot_S512x512_S512x64_S512x64_1_0_0_1_n_n.rhsIdx (ix2 r c) ((ValueIdx.contrEquiv1 dot_S512x512_S512x64_S512x64_1_0_0_1_n_n 512 rfl rfl).symm e) = ix2 e c := funext fun a => Fin.ext (by
    match a with
    | ⟨0, _⟩ => exact (rhsB_0 _ _).trans hk
    | ⟨1, _⟩ => exact rhsB_1 _ _)
  rw [el, er]

/-! ## a 512×1536 block times a 1536×512 block -/

theorem lhsC_0 (i : S512x512.Idx) (q : dot_S512x1536_S1536x512_S512x512_1_0_0_1_n_n.contr.Idx) :
    (dot_S512x1536_S1536x512_S512x512_1_0_0_1_n_n.lhsIdx i q 0).val = (i 0).val := by
  unfold DotDims.lhsIdx
  rw [dif_neg (show ¬(0 : Fin S512x1536.rank) ∈ dot_S512x1536_S1536x512_S512x512_1_0_0_1_n_n.lhsBatch by decide), dif_pos (show (0 : Fin S512x1536.rank) ∈ dot_S512x1536_S1536x512_S512x512_1_0_0_1_n_n.lhsNonContracting by decide)]
  rfl
theorem lhsC_1 (i : S512x512.Idx) (q : dot_S512x1536_S1536x512_S512x512_1_0_0_1_n_n.contr.Idx) :
    (dot_S512x1536_S1536x512_S512x512_1_0_0_1_n_n.lhsIdx i q 1).val = (q ⟨0, by decide⟩).val :=
  dot_S512x1536_S1536x512_S512x512_1_0_0_1_n_n.lhsIdx_val_of_single rfl i q
theorem rhsC_0 (i : S512x512.Idx) (q : dot_S512x1536_S1536x512_S512x512_1_0_0_1_n_n.contr.Idx) :
    (dot_S512x1536_S1536x512_S512x512_1_0_0_1_n_n.rhsIdx i q 0).val = (q ⟨0, by decide⟩).val :=
  dot_S512x1536_S1536x512_S512x512_1_0_0_1_n_n.rhsIdx_val_of_single rfl i q
theorem rhsC_1 (i : S512x512.Idx) (q : dot_S512x1536_S1536x512_S512x512_1_0_0_1_n_n.contr.Idx) :
    (dot_S512x1536_S1536x512_S512x512_1_0_0_1_n_n.rhsIdx i q 1).val = (i 1).val := by
  unfold DotDims.rhsIdx
  rw [dif_neg (show ¬(1 : Fin S1536x512.rank) ∈ dot_S512x1536_S1536x512_S512x512_1_0_0_1_n_n.rhsBatch by decide), dif_pos (show (1 : Fin S1536x512.rank) ∈ dot_S512x1536_S1536x512_S512x512_1_0_0_1_n_n.rhsNonContracting by decide)]
  rfl

/-- The product at (r, c): the sum over the 1536 depth positions. -/
theorem matmulC_apply {φ₁ φ₂ : FTy} (A : FVec Ideal S512x1536 φ₁) (B : FVec Ideal S1536x512 φ₂) (r : Fin 512) (c : Fin 512) :
    matmul dot_S512x1536_S1536x512_S512x512_1_0_0_1_n_n none A B (constant (F := Ideal) S512x512 .f32 0x00000000#32) (ix2 r c)
      = ∑ e : Fin 1536, A (ix2 r e) * B (ix2 e c) := by
  simp only [matmul]
  rw [Ideal.matmul_constant_zero_apply, ← Equiv.sum_comp (ValueIdx.contrEquiv1 dot_S512x1536_S1536x512_S512x512_1_0_0_1_n_n 1536 rfl rfl).symm]
  refine Finset.sum_congr rfl fun e _ => ?_
  have hk := ValueIdx.contrEquiv1_symm_val dot_S512x1536_S1536x512_S512x512_1_0_0_1_n_n 1536 rfl rfl e
  have el : dot_S512x1536_S1536x512_S512x512_1_0_0_1_n_n.lhsIdx (ix2 r c) ((ValueIdx.contrEquiv1 dot_S512x1536_S1536x512_S512x512_1_0_0_1_n_n 1536 rfl rfl).symm e) = ix2 r e := funext fun a => Fin.ext (by
    match a with
    | ⟨0, _⟩ => exact lhsC_0 _ _
    | ⟨1, _⟩ => exact (lhsC_1 _ _).trans hk)
  have er : dot_S512x1536_S1536x512_S512x512_1_0_0_1_n_n.rhsIdx (ix2 r c) ((ValueIdx.contrEquiv1 dot_S512x1536_S1536x512_S512x512_1_0_0_1_n_n 1536 rfl rfl).symm e) = ix2 e c := funext fun a => Fin.ext (by
    match a with
    | ⟨0, _⟩ => exact (rhsC_0 _ _).trans hk
    | ⟨1, _⟩ => exact rhsC_1 _ _)
  rw [el, er]

end Cert.KernelIdeal.Val

end
-- ==== Proof.Val.R1ValA.lean ====
/-
  One (q tile, kv tile) step of the attention kernel, read at an index.

  The step adds to the accumulator, head by head, the product of the masked silu scores of the tile pair with the v tile.
  For head h the scores are z · logistic z with z[r, c] = (∑ₑ q[r, 64h + e] · k[c, 64h + e]) / 8; an entry is kept where
  the mask bit is set and replaced by zero elsewhere; the head's 64 output columns are ∑_c kept[r, c] · v[c, 64h + d].
  The eight heads' outputs sit side by side in the 512 columns.
-/
import proofs.«419744_j566935683421_1_alg».proof.Proof.KI.Pay
import proofs.«419744_j566935683421_1_alg».proof.Proof.Val.MatmulAt
import proofs.«419744_j566935683421_1_alg».proof.Proof.Val.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.SL.Sem Cert.KernelIdeal Cert.KernelIdeal.Gen Cert.KernelIdeal.Hand
open Idealize.ShloMosaic.ValueIdx (ix2 ix3)

section Generic

variable {F : FTy → Type} [FloatOps F]

/-- The scaled scores of one head before silu: (q_h · k_hᵀ) / 8. -/
def headZ (qs ks : FVec F S512x64 .bf16) : FVec F S512x512 .f32 :=
  mulf (matmul dot_S512x64_S64x512_S512x512_1_0_0_1_n_n none qs (transpose S64x512 [1, 0] ks transposes_S512x64_p1_0_S64x512)
      (constant S512x512 .f32 0x00000000#32))
    (broadcast S512x512 (Scalar.ofBits .f32 0x3E000000#32))

/-- One head's contribution: the masked silu scores times the head's v columns. -/
def headOut (mask : IVec S512x512 1) (qs ks vs : FVec F S512x64 .bf16) : FVec F S512x64 .f32 :=
  matmul dot_S512x512_S512x64_S512x64_1_0_0_1_n_n none
    (truncf .bf16 (select mask (mulf (headZ qs ks) (logistic (headZ qs ks))) (broadcast S512x512 (Scalar.ofBits .f32 0x00000000#32))) bitsLt_bf16_f32)
    vs (constant S512x64 .f32 0x00000000#32)

/-- The 64 columns of head h of a 512-column tile. -/
theorem slicesHead : ∀ h : Fin 8, S512x512.Slices ![0, 64 * h.val] S512x64 := by decide

def headCols (h : Fin 8) (x : FVec F S512x512 .bf16) : FVec F S512x64 .bf16 :=
  extractStridedSlice S512x64 ![0, 64 * h.val] x (slicesHead h)

/-- Head h of the step, from the mask and the three tiles as 512×512 blocks. -/
def headOf (mask : IVec S512x512 1) (Q K Vv : FVec F S512x512 .bf16) (h : Fin 8) : FVec F S512x64 .f32 :=
  headOut mask (headCols h Q) (headCols h K) (headCols h Vv)

theorem concatsHeads (f : Fin 8 → FVec F S512x64 .f32) :
    Shape.Concatenates ((List.ofFn fun n : Fin 8 => (⟨S512x64, f n⟩ : (s : Shape) × (s.Idx → F .f32))).map (·.1)) S512x512 1 :=
  concatenates_S512x64_S512x64_S512x64_S512x64_S512x64_S512x64_S512x64_S512x64_S512x512_d1

/-- The step: the accumulator plus the eight heads side by side. -/
theorem accStep_eq (qi kvi : BitVec 32) (len : Elt F .i32) (q k v : Vec F S1x512x512 .bf16) (acc : Vec F S512x512 .f32) :
    accStep qi kvi len q k v acc
      = addf acc (concatenate S512x512 1
          (List.ofFn fun n : Fin 8 => (⟨S512x64, headOf (k1_pay3 qi kvi len) (k1_pay4 q) (k1_pay5 k) (k1_pay6 v) n⟩ : (s : Shape) × (s.Idx → F .f32)))
          (concatsHeads _)) := by
  unfold accStep k1_pay17
  dsimp only
  rw [shapeCast_self]
  rfl

end Generic

/-! ## At the extended reals -/

/-- The mask bit at (r, c) of the tile pair (qi, kvi): the causal comparison and the length comparison of the absolute
    positions 512·qi + r and 512·kvi + c. -/
theorem mask_apply (qi kvi : ℕ) (len : BitVec 32) (r c : Fin 512) :
    k1_pay3 (F := Ideal) (BitVec.ofNat 32 qi) (BitVec.ofNat 32 kvi) len (ix2 r c)
      = IntOp.andi (IntOp.cmpi .sge (BitVec.ofNat 32 (512 * qi + r.val)) (BitVec.ofNat 32 (512 * kvi + c.val)))
          (IntOp.cmpi .slt (BitVec.ofNat 32 (512 * kvi + c.val)) len) := by
  unfold k1_pay3
  show IntOp.andi (IntOp.cmpi .sge (IntOp.addi (Scalar.muli (BitVec.ofNat 32 qi) 512#32) (iota Kind.tc S512x512 32 [0] iota_S512x512_d0_w32 (ix2 r c)))
        (IntOp.addi (Scalar.muli (BitVec.ofNat 32 kvi) 512#32) (iota Kind.tc S512x512 32 [1] iota_S512x512_d1_w32 (ix2 r c))))
      (IntOp.cmpi .slt (IntOp.addi (Scalar.muli (BitVec.ofNat 32 kvi) 512#32) (iota Kind.tc S512x512 32 [1] iota_S512x512_d1_w32 (ix2 r c))) len) = _
  rw [iota_single_apply, iota_single_apply]
  have e : ∀ (t x : ℕ), IntOp.addi (Scalar.muli (BitVec.ofNat 32 t) 512#32) (BitVec.ofNat 32 x) = BitVec.ofNat 32 (512 * t + x) := fun t x => by
    show BitVec.ofNat 32 t * BitVec.ofNat 32 512 + BitVec.ofNat 32 x = _
    rw [← BitVec.ofNat_mul, ← BitVec.ofNat_add, Nat.mul_comm]
  show IntOp.andi (IntOp.cmpi .sge (IntOp.addi (Scalar.muli (BitVec.ofNat 32 qi) 512#32) (BitVec.ofNat 32 r.val))
        (IntOp.addi (Scalar.muli (BitVec.ofNat 32 kvi) 512#32) (BitVec.ofNat 32 c.val)))
      (IntOp.cmpi .slt (IntOp.addi (Scalar.muli (BitVec.ofNat 32 kvi) 512#32) (BitVec.ofNat 32 c.val)) len) = _
  rw [e, e]

/-- A [1, 512, 512] tile viewed as a 512×512 block reads (0, r, f) at (r, f). -/
theorem tile_apply {α : Type} (x : S1x512x512.Idx → α) (r f : Fin 512) :
    shapeCast S512x512 x shapeCasts_S1x512x512_S512x512 (ix2 r f) = x (ix3 0 r f) := by
  refine (shapeCast_dropUnit_apply ![512, 512] x shapeCasts_S1x512x512_S512x512 (ix2 r f)).trans ?_
  congr 1
  funext a
  match a with
  | ⟨0, _⟩ => rfl
  | ⟨1, _⟩ => rfl
  | ⟨2, _⟩ => rfl

/-- Head h's columns of a tile: column e of the slice is column 64h + e of the tile. -/
theorem headCols_apply (h : Fin 8) (x : FVec Ideal S512x512 .bf16) (r : Fin 512) (e : Fin 64) :
    headCols h x (ix2 r e) = x (ix2 r (Spec.hd h e)) := by
  unfold headCols
  refine extractStridedSlice_apply ![0, 64 * h.val] x (slicesHead h) (ix2 r e) (ix2 r (Spec.hd h e)) fun a => ?_
  match a with
  | ⟨0, _⟩ => show r.val = 0 + r.val; omega
  | ⟨1, _⟩ => show h.val * 64 + e.val = 64 * h.val + e.val; omega

/-- The transposed k slice at (e, c) is the slice at (c, e). -/
theorem transpose_at (ks : FVec Ideal S512x64 .bf16) (e : Fin 64) (c : Fin 512) :
    transpose S64x512 [1, 0] ks transposes_S512x64_p1_0_S64x512 (ix2 e c) = ks (ix2 c e) :=
  transpose_apply [1, 0] ks transposes_S512x64_p1_0_S64x512 (ix2 e c) (ix2 c e) fun b => by
    match b with
    | ⟨0, _⟩ => rfl
    | ⟨1, _⟩ => rfl

/-- The scaled scores at (r, c). -/
theorem headZ_apply (qs ks : FVec Ideal S512x64 .bf16) (r c : Fin 512) :
    headZ qs ks (ix2 r c) = (∑ e : Fin 64, qs (ix2 r e) * ks (ix2 c e)) * Spec.c8th := by
  unfold headZ
  show matmul dot_S512x64_S64x512_S512x512_1_0_0_1_n_n none qs (transpose S64x512 [1, 0] ks transposes_S512x64_p1_0_S64x512)
      (constant (F := Ideal) S512x512 .f32 0x00000000#32) (ix2 r c) * Spec.c8th = _
  refine congrArg (· * Spec.c8th) ?_
  refine (matmulA_apply qs _ r c).trans ?_
  exact Finset.sum_congr rfl fun e _ => congrArg (qs (ix2 r e) * ·) (transpose_at ks e c)

/-- One head's contribution at (r, d). -/
theorem headOut_apply (mask : IVec S512x512 1) (qs ks vs : FVec Ideal S512x64 .bf16) (r : Fin 512) (d : Fin 64) :
    headOut mask qs ks vs (ix2 r d)
      = ∑ c : Fin 512, Scalar.select (mask (ix2 r c)) (Spec.silu ((∑ e : Fin 64, qs (ix2 r e) * ks (ix2 c e)) * Spec.c8th))
            (Ideal.ofBits .f32 0x00000000#32) * vs (ix2 c d) := by
  unfold headOut
  refine (matmulB_apply _ vs r d).trans ?_
  refine Finset.sum_congr rfl fun c _ => congrArg (· * vs (ix2 c d)) ?_
  show Scalar.select (mask (ix2 r c)) (headZ qs ks (ix2 r c) * Ideal.logistic (headZ qs ks (ix2 r c))) (Ideal.ofBits .f32 0x00000000#32) = _
  rw [headZ_apply]
  rfl

/-- Head h of the step at (r, d), over the three tiles as 512×512 blocks. -/
theorem headOf_apply (mask : IVec S512x512 1) (Q K Vv : FVec Ideal S512x512 .bf16) (h : Fin 8) (r : Fin 512) (d : Fin 64) :
    headOf mask Q K Vv h (ix2 r d)
      = ∑ c : Fin 512, Scalar.select (mask (ix2 r c))
            (Spec.silu ((∑ e : Fin 64, Q (ix2 r (Spec.hd h e)) * K (ix2 c (Spec.hd h e))) * Spec.c8th))
            (Ideal.ofBits .f32 0x00000000#32) * Vv (ix2 c (Spec.hd h d)) := by
  unfold headOf
  refine (headOut_apply mask _ _ _ r d).trans ?_
  refine Finset.sum_congr rfl fun c _ => ?_
  rw [headCols_apply h Vv c d]
  refine congrArg (fun s => Scalar.select (mask (ix2 r c)) (Spec.silu (s * Spec.c8th)) (Ideal.ofBits .f32 0x00000000#32) * Vv (ix2 c (Spec.hd h d))) ?_
  exact Finset.sum_congr rfl fun e _ => by rw [headCols_apply h Q r e, headCols_apply h K c e]

/-- The mask bit of absolute positions n (query) and m (key) against the length word. -/
def maskW (n m : ℕ) (len : BitVec 32) : BitVec 1 :=
  IntOp.andi (IntOp.cmpi .sge (BitVec.ofNat 32 n) (BitVec.ofNat 32 m)) (IntOp.cmpi .slt (BitVec.ofNat 32 m) len)

/-- THE STEP AT AN INDEX: at row r and lane d of head h the step adds, over the kv tile's 512 columns c, the kept silu
    score of (r, c) in head h times v[c, 64h + d]. -/
theorem accStep_apply (qi kvi : ℕ) (len : BitVec 32) (q k v : Vec Ideal S1x512x512 .bf16) (acc : Vec Ideal S512x512 .f32)
    (r : Fin 512) (h : Fin 8) (d : Fin 64) :
    accStep (F := Ideal) (BitVec.ofNat 32 qi) (BitVec.ofNat 32 kvi) len q k v acc (ix2 r (Spec.hd h d))
      = acc (ix2 r (Spec.hd h d))
        + ∑ c : Fin 512, Scalar.select (maskW (512 * qi + r.val) (512 * kvi + c.val) len)
              (Spec.silu ((∑ e : Fin 64, q (ix3 0 r (Spec.hd h e)) * k (ix3 0 c (Spec.hd h e))) * Spec.c8th))
              (Ideal.ofBits .f32 0x00000000#32) * v (ix3 0 c (Spec.hd h d)) := by
  rw [accStep_eq]
  show acc (ix2 r (Spec.hd h d)) + concatenate S512x512 1 _ _ (ix2 r (Spec.hd h d)) = _
  refine congrArg (acc (ix2 r (Spec.hd h d)) + ·) ?_
  refine (concatenate_ofFn_apply (t := S512x512) (s₁ := S512x64) (1 : Fin 2)
    (fun n : Fin 8 => headOf (k1_pay3 (F := Ideal) (BitVec.ofNat 32 qi) (BitVec.ofNat 32 kvi) len) (k1_pay4 q) (k1_pay5 k) (k1_pay6 v) n)
    (concatsHeads _) rfl 64 rfl (ix2 r (Spec.hd h d)) h ?_ (ix2 r d) ?_ ?_).trans ?_
  · show (h.val * 64 + d.val) / 64 = h.val
    omega
  · show d.val = (h.val * 64 + d.val) % 64
    omega
  · intro b hb
    match b with
    | ⟨0, _⟩ => rfl
    | ⟨1, _⟩ => exact absurd rfl hb
  · refine (headOf_apply _ _ _ _ h r d).trans ?_
    refine Finset.sum_congr rfl fun c _ => ?_
    rw [mask_apply qi kvi len r c]
    unfold k1_pay4 k1_pay5 k1_pay6
    rw [tile_apply v c (Spec.hd h d)]
    refine congrArg (fun s => Scalar.select _ (Spec.silu (s * Spec.c8th)) (Ideal.ofBits .f32 0x00000000#32) * v (ix3 0 c (Spec.hd h d))) ?_
    exact Finset.sum_congr rfl fun e _ => by rw [tile_apply q r (Spec.hd h e), tile_apply k c (Spec.hd h e)]

end Cert.KernelIdeal.Val

end
-- ==== Proof.Val.AttnAlgebra.lean ====
/-
  The regrouping behind the attention sum, over an arbitrary additive commutative monoid (read at the extended reals).

  A sum over the 2048 key positions of one sequence is the sum, over the four tiles of 512 positions, of the sums over
  each tile's columns (position m = 512·kv + c). A causal mask zeroes every term of a tile that lies wholly after the
  query tile (kv > qi), so only the tiles kv ≤ qi contribute; the running sum over the tiles 0 … kvi, taken with the
  tiles after qi left out, is at kvi = 3 the whole sum.
-/
import Mathlib.Data.EReal.Basic
import Mathlib.Algebra.BigOperators.Fin
import Mathlib.Logic.Equiv.Fin.Basic

namespace Cert.KernelIdeal.Val.AttnAlgebra

open Finset

variable {M : Type*} [AddCommMonoid M]

/-- Position 512·kv + c of tile kv, column c. -/
abbrev pos (kv : Fin 4) (c : Fin 512) : Fin 2048 := ⟨512 * kv.val + c.val, by omega⟩

/-- A sum over the 2048 positions, tile by tile. -/
theorem sum_tiles (f : Fin 2048 → M) : ∑ m : Fin 2048, f m = ∑ kv : Fin 4, ∑ c : Fin 512, f (pos kv c) := by
  rw [← Fintype.sum_prod_type']
  refine (Equiv.sum_comp (finProdFinEquiv (m := 4) (n := 512)) f).symm.trans ?_
  refine Fintype.sum_congr _ _ fun x => congrArg f (Fin.ext ?_)
  show x.2.val + 512 * x.1.val = 512 * x.1.val + x.2.val
  omega

/-- Tile kv's contribution as a function of a natural tile number (zero past the last tile). -/
def tileN (T : Fin 4 → M) (kv : ℕ) : M := if h : kv < 4 then T ⟨kv, h⟩ else 0

theorem tileN_of_lt (T : Fin 4 → M) (kv : ℕ) (h : kv < 4) : tileN T kv = T ⟨kv, h⟩ := dif_pos h

/-- The running sum over the tiles 0 … kvi that are not after the query tile qi. -/
def upTo (T : Fin 4 → M) (qi kvi : ℕ) : M := ∑ kv ∈ range (kvi + 1), if kv ≤ qi then tileN T kv else 0

/-- At the first tile it is tile 0's contribution. -/
theorem upTo_zero (T : Fin 4 → M) (qi : ℕ) : upTo T qi 0 = T 0 := by
  unfold upTo
  rw [sum_range_one, if_pos (Nat.zero_le _)]
  exact tileN_of_lt T 0 (by omega)

/-- Each later tile adds its contribution when it is not after the query tile, and nothing otherwise. -/
theorem upTo_succ (T : Fin 4 → M) (qi kvi : ℕ) (h : kvi + 1 < 4) :
    upTo T qi (kvi + 1) = if kvi + 1 ≤ qi then upTo T qi kvi + T ⟨kvi + 1, h⟩ else upTo T qi kvi := by
  unfold upTo
  rw [sum_range_succ _ (kvi + 1)]
  split
  · rw [tileN_of_lt T _ h]
  · rw [add_zero]

/-- After the last tile, when every tile after the query tile contributes zero, it is the sum over all four tiles. -/
theorem upTo_last (T : Fin 4 → M) (qi : ℕ) (hz : ∀ kv : Fin 4, qi < kv.val → T kv = 0) :
    upTo T qi 3 = ∑ kv : Fin 4, T kv := by
  unfold upTo
  rw [Fin.sum_univ_eq_sum_range (fun kv => tileN T kv) 4 |>.symm.trans (Fintype.sum_congr _ _ fun kv => tileN_of_lt T kv.val kv.isLt) |>.symm]
  refine sum_congr rfl fun kv hkv => ?_
  have hlt : kv < 4 := mem_range.mp hkv
  split
  · rfl
  · rename_i hle
    rw [tileN_of_lt T kv hlt]
    exact (hz ⟨kv, hlt⟩ (by show qi < kv; omega)).symm

/-- So the running sum after the last tile is the sum over all 2048 positions, when the terms of the tiles after the
    query tile vanish. -/
theorem upTo_last_eq_sum (f : Fin 2048 → M) (qi : ℕ) (hz : ∀ (kv : Fin 4) (c : Fin 512), qi < kv.val → f (pos kv c) = 0) :
    upTo (fun kv => ∑ c : Fin 512, f (pos kv c)) qi 3 = ∑ m : Fin 2048, f m := by
  rw [upTo_last _ qi (fun kv h => sum_eq_zero fun c _ => hz kv c h), sum_tiles]

end Cert.KernelIdeal.Val.AttnAlgebra
-- ==== Proof.Val.SpecLaws.lean ====
/-
  Laws of the specification's pieces: the mask bit as the two order conditions it encodes and as a float; the
  product of the 1536-feature concatenation with the output weights as the sum of its three blocks of 512.
-/
import proofs.«419744_j566935683421_1_alg».proof.Proof.Val.Spec
import Idealize.ShloMosaic.Lib.Affine
import Idealize.ShloMosaic.Lib.StableHlo.Predicate
import Mathlib.Algebra.BigOperators.Fin

noncomputable section

open scoped BigOperators

namespace Cert.Spec

open Idealize.ShloMosaic Idealize.ShloMosaic.ValueIdx

/-! ## The mask -/

/-- The mask bit is set exactly where the column is not after the row and lies before the sequence length. -/
theorem maskOf_eq_one_iff (sl : Lens) (b : Fin 8) (n m : Fin 2048) :
    maskOf sl b n m = 1#1 ↔ m.val ≤ n.val ∧ (m.val : Int) < (sl (ix1 b)).toInt := by
  have hn := n.isLt
  have hm := m.isLt
  unfold maskOf
  rw [IntOp.andi_eq_one, IntOp.cmpi_sge, IntOp.cmpi_slt,
    StableHlo.Predicate.toInt_ofNat_small n.val (by omega), StableHlo.Predicate.toInt_ofNat_small m.val (by omega)]
  omega

/-- A set mask bit is the float one. -/
theorem maskF_of_one {sl : Lens} {b : Fin 8} {n m : Fin 2048} (h : maskOf sl b n m = 1#1) : maskF sl b n m = 1 := by
  unfold maskF; rw [h]; norm_num

/-- A clear mask bit is the float zero. -/
theorem maskF_of_zero {sl : Lens} {b : Fin 8} {n m : Fin 2048} (h : maskOf sl b n m = 0#1) : maskF sl b n m = 0 := by
  unfold maskF; rw [h]; norm_num

/-- The float mask is one where the bit is set and zero elsewhere. -/
theorem maskF_eq_ite (sl : Lens) (b : Fin 8) (n m : Fin 2048) :
    maskF sl b n m = if maskOf sl b n m = 1#1 then 1 else 0 := by
  by_cases h : maskOf sl b n m = 1#1
  · rw [if_pos h, maskF_of_one h]
  · rw [if_neg h, maskF_of_zero (eq_zero_of_ne_one h)]

/-! ## The concatenation, block by block -/

/-- Feature j of the first block. -/
theorem yOf_block0 (q k v u x : Arr3 8 2048 512) (g2 b2 : Arr1 512) (sl : Lens) (b : Fin 8) (n : Fin 2048) (j : Fin 512) :
    yOf q k v u x g2 b2 sl b n ⟨j.val, by have := j.isLt; omega⟩ = u (ix3 b n j) := by
  have hj := j.isLt
  unfold yOf
  rw [if_pos (show j.val < 512 from hj)]
  exact congrArg (fun t => u (ix3 b n t)) (Fin.ext (Nat.mod_eq_of_lt hj))

/-- Feature j of the second block. -/
theorem yOf_block1 (q k v u x : Arr3 8 2048 512) (g2 b2 : Arr1 512) (sl : Lens) (b : Fin 8) (n : Fin 2048) (j : Fin 512) :
    yOf q k v u x g2 b2 sl b n ⟨512 + j.val, by have := j.isLt; omega⟩ = x (ix3 b n j) := by
  have hj := j.isLt
  unfold yOf
  rw [if_neg (show ¬ 512 + j.val < 512 by omega), if_pos (show 512 + j.val < 1024 by omega)]
  exact congrArg (fun t => x (ix3 b n t)) (Fin.ext (show (512 + j.val) % 512 = j.val by omega))

/-- Feature j of the third block. -/
theorem yOf_block2 (q k v u x : Arr3 8 2048 512) (g2 b2 : Arr1 512) (sl : Lens) (b : Fin 8) (n : Fin 2048) (j : Fin 512) :
    yOf q k v u x g2 b2 sl b n ⟨1024 + j.val, by have := j.isLt; omega⟩ = gated q k v u g2 b2 sl b n j := by
  have hj := j.isLt
  unfold yOf
  rw [if_neg (show ¬ 1024 + j.val < 512 by omega), if_neg (show ¬ 1024 + j.val < 1024 by omega)]
  exact congrArg (gated q k v u g2 b2 sl b n) (Fin.ext (show (1024 + j.val) % 512 = j.val by omega))

/-- A sum over 1536 features is the sum of the sums over its three blocks of 512. -/
theorem sum_blocks (F : Fin 1536 → EReal) :
    ∑ f : Fin 1536, F f
      = (∑ j : Fin 512, F ⟨j.val, by have := j.isLt; omega⟩)
        + (∑ j : Fin 512, F ⟨512 + j.val, by have := j.isLt; omega⟩)
        + (∑ j : Fin 512, F ⟨1024 + j.val, by have := j.isLt; omega⟩) := by
  have h1 := Fin.sum_univ_add (a := 1024) (b := 512) (fun t : Fin (1024 + 512) => F t)
  have h2 := Fin.sum_univ_add (a := 512) (b := 512) (fun t : Fin (512 + 512) => F (Fin.castAdd 512 t))
  exact h1.trans (congrArg (· + ∑ j : Fin 512, F (Fin.natAdd 1024 j)) h2)

/-- The concatenation times the output weights is the sum of the three blocks' products. -/
theorem outOf_split (q k v u x : Arr3 8 2048 512) (ow : Arr2 1536 512) (g2 b2 : Arr1 512) (sl : Lens)
    (b : Fin 8) (n : Fin 2048) (e : Fin 512) :
    outOf q k v u x ow g2 b2 sl b n e
      = ((∑ j : Fin 512, u (ix3 b n j) * ow (ix2 (⟨j.val, by have := j.isLt; omega⟩ : Fin 1536) e))
        + (∑ j : Fin 512, x (ix3 b n j) * ow (ix2 (⟨512 + j.val, by have := j.isLt; omega⟩ : Fin 1536) e))
        + (∑ j : Fin 512, gated q k v u g2 b2 sl b n j * ow (ix2 (⟨1024 + j.val, by have := j.isLt; omega⟩ : Fin 1536) e)))
        + x (ix3 b n e) := by
  unfold outOf
  rw [sum_blocks]
  simp only [yOf_block0, yOf_block1, yOf_block2]

end Cert.Spec

end
-- ==== Proof.Val.R1ValC.lean ====
/-
  The attention kernel's blocks as parts of its arrays, and one accumulation step in terms of the arrays.

  At grid position n = (b·4 + qi)·4 + kvi the query-side windows (q, u, x) hold rows 512·qi … 512·qi + 511 of sequence b,
  the key-side windows (k, v) rows 512·kvi … 512·kvi + 511, the weight windows their whole arrays, and the length word is
  entry b of the table. So the step adds, at row r, head h, lane d, the attention terms of query position 512·qi + r over
  the key positions of tile kvi.
-/
import proofs.«419744_j566935683421_1_alg».proof.Proof.KI.Pay
import proofs.«419744_j566935683421_1_alg».proof.Proof.KI.R1Dat
import proofs.«419744_j566935683421_1_alg».proof.Proof.Val.R1ValA
import proofs.«419744_j566935683421_1_alg».proof.Proof.Val.AttnAlgebra
import proofs.«419744_j566935683421_1_alg».proof.Proof.Val.Spec
import proofs.«419744_j566935683421_1_alg».proof.Proof.Val.SpecLaws
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Cert.KernelIdeal Cert.KernelIdeal.Gen Cert.KernelIdeal.Hand
open Idealize.ShloMosaic.Pipeline (Dat)
open Idealize.ShloMosaic.ValueIdx (ix2 ix3)

/-! ## Where each window's block sits -/

/-- The query-side index maps (q, u, x and the output): block (b, qi, 0). -/
theorem idx_q : ∀ t : Fin grid1.N,
    (cc1_transform_0 (grid1.coords t) 0 = t.val / 16 ∧ cc1_transform_0 (grid1.coords t) 1 = t.val / 4 % 4 ∧ cc1_transform_0 (grid1.coords t) 2 = 0)
    ∧ (cc1_transform_3 (grid1.coords t) 0 = t.val / 16 ∧ cc1_transform_3 (grid1.coords t) 1 = t.val / 4 % 4 ∧ cc1_transform_3 (grid1.coords t) 2 = 0)
    ∧ (cc1_transform_4 (grid1.coords t) 0 = t.val / 16 ∧ cc1_transform_4 (grid1.coords t) 1 = t.val / 4 % 4 ∧ cc1_transform_4 (grid1.coords t) 2 = 0)
    ∧ (cc1_transform_8 (grid1.coords t) 0 = t.val / 16 ∧ cc1_transform_8 (grid1.coords t) 1 = t.val / 4 % 4 ∧ cc1_transform_8 (grid1.coords t) 2 = 0) := by
  decide +kernel

/-- The key-side index maps (k, v): block (b, kvi, 0). -/
theorem idx_kv : ∀ t : Fin grid1.N,
    (cc1_transform_1 (grid1.coords t) 0 = t.val / 16 ∧ cc1_transform_1 (grid1.coords t) 1 = t.val % 4 ∧ cc1_transform_1 (grid1.coords t) 2 = 0)
    ∧ (cc1_transform_2 (grid1.coords t) 0 = t.val / 16 ∧ cc1_transform_2 (grid1.coords t) 1 = t.val % 4 ∧ cc1_transform_2 (grid1.coords t) 2 = 0) := by
  decide +kernel

/-- The weight windows' index maps: block 0 on every axis. -/
theorem idx_w : ∀ t : Fin grid1.N,
    (cc1_transform_5 (grid1.coords t) 0 = 0 ∧ cc1_transform_5 (grid1.coords t) 1 = 0)
    ∧ cc1_transform_6 (grid1.coords t) 0 = 0 ∧ cc1_transform_7 (grid1.coords t) 0 = 0 := by
  decide +kernel

/-- The batch coordinate of position t. -/
theorem coord_b : ∀ t : Fin grid1.N, (grid1.coords t 0).val = t.val / 16 := by decide +kernel

section Blocks

variable (V : (c : Dev nD) → (b : Ref sig .tc) → Buf (Elt Ideal) ((c : Thread nD τ).loc b)) (a : (pcfg1 (F := Ideal)).Adm)

/-- Query position 512·qi + r of position n's query tile. -/
abbrev qpos (n : ℕ) (r : Fin 512) : Fin 2048 := ⟨512 * (n / 4 % 4) + r.val, by omega⟩
/-- Key position 512·kvi + cc of position n's key tile. -/
abbrev kpos (n : ℕ) (cc : Fin 512) : Fin 2048 := ⟨512 * (n % 4) + cc.val, by omega⟩
/-- The sequence of position n. -/
abbrev seqOf (n : ℕ) (hn : n < 128) : Fin 8 := ⟨n / 16, by omega⟩

/-- The q window holds the query tile's rows of q. -/
theorem blk_q (c : Dev nD) (n : ℕ) (hn : n < 128) (r f : Fin 512) :
    (iblk1 V a c 0 ⟨n, hn⟩ : Vec Ideal S1x512x512 .bf16) (ix3 0 r f)
      = (V c main_v2_2 : Vec Ideal S8x2048x512 .bf16) (ix3 (seqOf n hn) (qpos n r) f) := by
  obtain ⟨e0, e1, e2⟩ : cc1_transform_0 (grid1.coords ⟨n, hn⟩) 0 = n / 16 ∧ cc1_transform_0 (grid1.coords ⟨n, hn⟩) 1 = n / 4 % 4
      ∧ cc1_transform_0 (grid1.coords ⟨n, hn⟩) 2 = 0 := (fun h => h.1) (idx_q ⟨n, hn⟩)
  show (V c main_v2_2 : Vec Ideal S8x2048x512 .bf16) ((((cfg1 a).win 0).blk ⟨n, hn⟩).view.emb (ix3 0 r f)) = _
  refine congrArg (V c main_v2_2 : Vec Ideal S8x2048x512 .bf16) (funext fun x => Fin.ext ?_)
  match x with
  | ⟨0, _⟩ => show cc1_transform_0 (grid1.coords ⟨n, hn⟩) 0 * 1 + 1 * 0 = n / 16; omega
  | ⟨1, _⟩ => show cc1_transform_0 (grid1.coords ⟨n, hn⟩) 1 * 512 + 1 * r.val = 512 * (n / 4 % 4) + r.val; omega
  | ⟨2, _⟩ => show cc1_transform_0 (grid1.coords ⟨n, hn⟩) 2 * 512 + 1 * f.val = f.val; omega

/-- The k window holds the key tile's rows of k. -/
theorem blk_k (c : Dev nD) (n : ℕ) (hn : n < 128) (r f : Fin 512) :
    (iblk1 V a c 1 ⟨n, hn⟩ : Vec Ideal S1x512x512 .bf16) (ix3 0 r f)
      = (V c main_v2_3 : Vec Ideal S8x2048x512 .bf16) (ix3 (seqOf n hn) (kpos n r) f) := by
  obtain ⟨e0, e1, e2⟩ : cc1_transform_1 (grid1.coords ⟨n, hn⟩) 0 = n / 16 ∧ cc1_transform_1 (grid1.coords ⟨n, hn⟩) 1 = n % 4
      ∧ cc1_transform_1 (grid1.coords ⟨n, hn⟩) 2 = 0 := (fun h => h.1) (idx_kv ⟨n, hn⟩)
  show (V c main_v2_3 : Vec Ideal S8x2048x512 .bf16) ((((cfg1 a).win 1).blk ⟨n, hn⟩).view.emb (ix3 0 r f)) = _
  refine congrArg (V c main_v2_3 : Vec Ideal S8x2048x512 .bf16) (funext fun x => Fin.ext ?_)
  match x with
  | ⟨0, _⟩ => show cc1_transform_1 (grid1.coords ⟨n, hn⟩) 0 * 1 + 1 * 0 = n / 16; omega
  | ⟨1, _⟩ => show cc1_transform_1 (grid1.coords ⟨n, hn⟩) 1 * 512 + 1 * r.val = 512 * (n % 4) + r.val; omega
  | ⟨2, _⟩ => show cc1_transform_1 (grid1.coords ⟨n, hn⟩) 2 * 512 + 1 * f.val = f.val; omega

/-- The v window holds the key tile's rows of v. -/
theorem blk_v (c : Dev nD) (n : ℕ) (hn : n < 128) (r f : Fin 512) :
    (iblk1 V a c 2 ⟨n, hn⟩ : Vec Ideal S1x512x512 .bf16) (ix3 0 r f)
      = (V c main_v2_1 : Vec Ideal S8x2048x512 .bf16) (ix3 (seqOf n hn) (kpos n r) f) := by
  obtain ⟨e0, e1, e2⟩ : cc1_transform_2 (grid1.coords ⟨n, hn⟩) 0 = n / 16 ∧ cc1_transform_2 (grid1.coords ⟨n, hn⟩) 1 = n % 4
      ∧ cc1_transform_2 (grid1.coords ⟨n, hn⟩) 2 = 0 := (fun h => h.2) (idx_kv ⟨n, hn⟩)
  show (V c main_v2_1 : Vec Ideal S8x2048x512 .bf16) ((((cfg1 a).win 2).blk ⟨n, hn⟩).view.emb (ix3 0 r f)) = _
  refine congrArg (V c main_v2_1 : Vec Ideal S8x2048x512 .bf16) (funext fun x => Fin.ext ?_)
  match x with
  | ⟨0, _⟩ => show cc1_transform_2 (grid1.coords ⟨n, hn⟩) 0 * 1 + 1 * 0 = n / 16; omega
  | ⟨1, _⟩ => show cc1_transform_2 (grid1.coords ⟨n, hn⟩) 1 * 512 + 1 * r.val = 512 * (n % 4) + r.val; omega
  | ⟨2, _⟩ => show cc1_transform_2 (grid1.coords ⟨n, hn⟩) 2 * 512 + 1 * f.val = f.val; omega

/-- The u window holds the query tile's rows of u. -/
theorem blk_u (c : Dev nD) (n : ℕ) (hn : n < 128) (r f : Fin 512) :
    (iblk1 V a c 3 ⟨n, hn⟩ : Vec Ideal S1x512x512 .f32) (ix3 0 r f)
      = (V c main_v2_0 : Vec Ideal S8x2048x512 .f32) (ix3 (seqOf n hn) (qpos n r) f) := by
  obtain ⟨e0, e1, e2⟩ : cc1_transform_3 (grid1.coords ⟨n, hn⟩) 0 = n / 16 ∧ cc1_transform_3 (grid1.coords ⟨n, hn⟩) 1 = n / 4 % 4
      ∧ cc1_transform_3 (grid1.coords ⟨n, hn⟩) 2 = 0 := (fun h => h.2.1) (idx_q ⟨n, hn⟩)
  show (V c main_v2_0 : Vec Ideal S8x2048x512 .f32) ((((cfg1 a).win 3).blk ⟨n, hn⟩).view.emb (ix3 0 r f)) = _
  refine congrArg (V c main_v2_0 : Vec Ideal S8x2048x512 .f32) (funext fun x => Fin.ext ?_)
  match x with
  | ⟨0, _⟩ => show cc1_transform_3 (grid1.coords ⟨n, hn⟩) 0 * 1 + 1 * 0 = n / 16; omega
  | ⟨1, _⟩ => show cc1_transform_3 (grid1.coords ⟨n, hn⟩) 1 * 512 + 1 * r.val = 512 * (n / 4 % 4) + r.val; omega
  | ⟨2, _⟩ => show cc1_transform_3 (grid1.coords ⟨n, hn⟩) 2 * 512 + 1 * f.val = f.val; omega

/-- The x window holds the query tile's rows of x. -/
theorem blk_x (c : Dev nD) (n : ℕ) (hn : n < 128) (r f : Fin 512) :
    (iblk1 V a c 4 ⟨n, hn⟩ : Vec Ideal S1x512x512 .f32) (ix3 0 r f)
      = (V c main_arg0 : Vec Ideal S8x2048x512 .f32) (ix3 (seqOf n hn) (qpos n r) f) := by
  obtain ⟨e0, e1, e2⟩ : cc1_transform_4 (grid1.coords ⟨n, hn⟩) 0 = n / 16 ∧ cc1_transform_4 (grid1.coords ⟨n, hn⟩) 1 = n / 4 % 4
      ∧ cc1_transform_4 (grid1.coords ⟨n, hn⟩) 2 = 0 := (fun h => h.2.2.1) (idx_q ⟨n, hn⟩)
  show (V c main_arg0 : Vec Ideal S8x2048x512 .f32) ((((cfg1 a).win 4).blk ⟨n, hn⟩).view.emb (ix3 0 r f)) = _
  refine congrArg (V c main_arg0 : Vec Ideal S8x2048x512 .f32) (funext fun x => Fin.ext ?_)
  match x with
  | ⟨0, _⟩ => show cc1_transform_4 (grid1.coords ⟨n, hn⟩) 0 * 1 + 1 * 0 = n / 16; omega
  | ⟨1, _⟩ => show cc1_transform_4 (grid1.coords ⟨n, hn⟩) 1 * 512 + 1 * r.val = 512 * (n / 4 % 4) + r.val; omega
  | ⟨2, _⟩ => show cc1_transform_4 (grid1.coords ⟨n, hn⟩) 2 * 512 + 1 * f.val = f.val; omega

/-- The output-weight window holds the whole array. -/
theorem blk_ow (c : Dev nD) (n : ℕ) (hn : n < 128) :
    (iblk1 V a c 5 ⟨n, hn⟩ : Vec Ideal S1536x512 .bf16) = (V c main_v1 : Vec Ideal S1536x512 .bf16) := by
  obtain ⟨⟨e0, e1⟩, -, -⟩ := idx_w ⟨n, hn⟩
  refine funext fun (y : S1536x512.Idx) => ?_
  show (V c main_v1 : Vec Ideal S1536x512 .bf16) ((((cfg1 a).win 5).blk ⟨n, hn⟩).view.emb y) = _
  refine congrArg (V c main_v1 : Vec Ideal S1536x512 .bf16) (funext fun x => Fin.ext ?_)
  match x with
  | ⟨0, _⟩ => show cc1_transform_5 (grid1.coords ⟨n, hn⟩) 0 * 1536 + 1 * (y 0).val = (y 0).val; omega
  | ⟨1, _⟩ => show cc1_transform_5 (grid1.coords ⟨n, hn⟩) 1 * 512 + 1 * (y 1).val = (y 1).val; omega

/-- The second layer norm's gain window holds the whole vector. -/
theorem blk_g (c : Dev nD) (n : ℕ) (hn : n < 128) :
    (iblk1 V a c 6 ⟨n, hn⟩ : Vec Ideal S512 .f32) = (V c main_arg7 : Vec Ideal S512 .f32) := by
  obtain ⟨-, e0, -⟩ := idx_w ⟨n, hn⟩
  refine funext fun (y : S512.Idx) => ?_
  show (V c main_arg7 : Vec Ideal S512 .f32) ((((cfg1 a).win 6).blk ⟨n, hn⟩).view.emb y) = _
  refine congrArg (V c main_arg7 : Vec Ideal S512 .f32) (funext fun x => Fin.ext ?_)
  match x with
  | ⟨0, _⟩ => show cc1_transform_6 (grid1.coords ⟨n, hn⟩) 0 * 512 + 1 * (y 0).val = (y 0).val; omega

/-- The second layer norm's bias window holds the whole vector. -/
theorem blk_b (c : Dev nD) (n : ℕ) (hn : n < 128) :
    (iblk1 V a c 7 ⟨n, hn⟩ : Vec Ideal S512 .f32) = (V c main_arg8 : Vec Ideal S512 .f32) := by
  obtain ⟨-, -, e0⟩ := idx_w ⟨n, hn⟩
  refine funext fun (y : S512.Idx) => ?_
  show (V c main_arg8 : Vec Ideal S512 .f32) ((((cfg1 a).win 7).blk ⟨n, hn⟩).view.emb y) = _
  refine congrArg (V c main_arg8 : Vec Ideal S512 .f32) (funext fun x => Fin.ext ?_)
  match x with
  | ⟨0, _⟩ => show cc1_transform_7 (grid1.coords ⟨n, hn⟩) 0 * 512 + 1 * (y 0).val = (y 0).val; omega

/-- The length word the body reads at position n is the table's entry of the position's sequence. -/
theorem lenAt1_eq (n : ℕ) (hn : n < 128) : lenAt1 a ⟨n, hn⟩ = (a.1 0 : Vec Ideal S8 .i32) (ValueIdx.ix1 (seqOf n hn)) := by
  unfold lenAt1 lenAt
  exact congrArg (a.1 0 : Vec Ideal S8 .i32) (funext fun x => Fin.ext (by
    match x with
    | ⟨0, _⟩ => exact (coord_b ⟨n, hn⟩ : (grid1.coords ⟨n, hn⟩ 0).val = n / 16)))

end Blocks

/-! ## The step in terms of the arrays -/

/-- Keeping a score where the mask bit is set and putting zero elsewhere is multiplying it by the bit as a number. -/
theorem select_mask (sl : Spec.Lens) (b : Fin 8) (n m : Fin 2048) (s : EReal) :
    Scalar.select (Spec.maskOf sl b n m) s (Ideal.ofBits .f32 0x00000000#32) = s * Spec.maskF sl b n m := by
  by_cases h : Spec.maskOf sl b n m = 1#1
  · rw [Spec.maskF_of_one h, h, ValueIdx.select_one, mul_one]
  · have h0 := ValueIdx.eq_zero_of_ne_one h
    rw [Spec.maskF_of_zero h0, h0, ValueIdx.select_zero, mul_zero, Ideal.ofBits_zero_f32]

/-- One key position's term of the attention sum of query position n, head h, lane d. -/
def term (q k v : Vec Ideal S8x2048x512 .bf16) (sl : Vec Ideal S8 .i32) (b : Fin 8) (n : Fin 2048) (h : Fin 8) (d : Fin 64)
    (m : Fin 2048) : EReal :=
  (Spec.score q k b h n m * Spec.maskF sl b n m) * v (ix3 b m (Spec.hd h d))

section Step

variable (V : (c : Dev nD) → (b : Ref sig .tc) → Buf (Elt Ideal) ((c : Thread nD τ).loc b)) (a : (pcfg1 (F := Ideal)).Adm)

/-- THE STEP OVER THE ARRAYS: at position n the step adds, at row r, head h, lane d, the terms of query position
    512·qi + r over the 512 key positions of tile kvi. -/
theorem accStep_arr (c : Dev nD) (q k v : Vec Ideal S8x2048x512 .bf16) (sl : Vec Ideal S8 .i32)
    (hq : V c main_v2_2 = q) (hk : V c main_v2_3 = k) (hv : V c main_v2_1 = v) (hsl : a.1 0 = sl)
    (n : ℕ) (hn : n < 128) (S : Vec Ideal S512x512 .f32) (r : Fin 512) (h : Fin 8) (d : Fin 64) :
    accStep (F := Ideal) (BitVec.ofNat 32 (n / 4 % 4)) (BitVec.ofNat 32 (n % 4)) (lenAt1 a ⟨n, hn⟩)
        (iblk1 V a c 0 ⟨n, hn⟩) (iblk1 V a c 1 ⟨n, hn⟩) (iblk1 V a c 2 ⟨n, hn⟩) S (ix2 r (Spec.hd h d))
      = S (ix2 r (Spec.hd h d)) + ∑ cc : Fin 512, term q k v sl (seqOf n hn) (qpos n r) h d (kpos n cc) := by
  refine (accStep_apply (n / 4 % 4) (n % 4) (lenAt1 a ⟨n, hn⟩) (iblk1 V a c 0 ⟨n, hn⟩) (iblk1 V a c 1 ⟨n, hn⟩) (iblk1 V a c 2 ⟨n, hn⟩) S r h d).trans ?_
  refine congrArg (S (ix2 r (Spec.hd h d)) + ·) (Finset.sum_congr rfl fun cc _ => ?_)
  rw [blk_v V a c n hn cc (Spec.hd h d), hv, lenAt1_eq a n hn, hsl]
  unfold term Spec.score
  refine Eq.trans ?_ (congrArg (· * v (ix3 (seqOf n hn) (kpos n cc) (Spec.hd h d))) (select_mask sl (seqOf n hn) (qpos n r) (kpos n cc) _))
  refine congrArg (fun s => Scalar.select (maskW (512 * (n / 4 % 4) + r.val) (512 * (n % 4) + cc.val) (sl (ValueIdx.ix1 (seqOf n hn)))) (Spec.silu (s * Spec.c8th)) (Ideal.ofBits .f32 0x00000000#32) * v (ix3 (seqOf n hn) (kpos n cc) (Spec.hd h d))) ?_
  exact Finset.sum_congr rfl fun e _ => by rw [blk_q V a c n hn r (Spec.hd h e), hq, blk_k V a c n hn cc (Spec.hd h e), hk]

end Step

end Cert.KernelIdeal.Val

end
-- ==== Proof.Val.R1Val.lean ====
/-
  The attention kernel's carried accumulator after each grid point.

  At position n = (b·4 + qi)·4 + kvi the accumulator holds, at row r, head h, lane d, the attention terms of query
  position 512·qi + r over the key tiles 0 … kvi that are not after the query tile, summed tile by tile: it is reset at
  kvi = 0, a tile is added when kvi ≤ qi, and nothing changes otherwise. At kvi = 3 every tile after the query tile is
  masked off by the causal comparison, so the accumulator is the whole attention sum over the 2048 key positions.
-/
import proofs.«419744_j566935683421_1_alg».proof.Proof.KI.Pay
import proofs.«419744_j566935683421_1_alg».proof.Proof.KI.R1Dat
import proofs.«419744_j566935683421_1_alg».proof.Proof.Val.AttnAlgebra
import proofs.«419744_j566935683421_1_alg».proof.Proof.Val.R1ValC
import proofs.«419744_j566935683421_1_alg».proof.Proof.Val.Spec
import proofs.«419744_j566935683421_1_alg».proof.Proof.Val.SpecLaws
import Idealize.ShloMosaic.Lib.Pipeline.Value
import Idealize.ShloMosaic.Lib.ValueIdx
import Idealize.ShloMosaic.PureOps.Ideal.Laws

noncomputable section

namespace Cert.KernelIdeal.Val

open Idealize.ShloMosaic Idealize.ShloMosaic.TcCoe Idealize.SL.Sem Cert.KernelIdeal Cert.KernelIdeal.Gen Cert.KernelIdeal.Hand
open Idealize.ShloMosaic.Pipeline (Dat)
open Idealize.ShloMosaic.ValueIdx (ix2 ix3)

/-- The reset value is zero everywhere. -/
theorem zeroAcc_apply (j : S512x512.Idx) : zeroAcc (F := Ideal) j = 0 := by
  unfold zeroAcc k1_pay1
  show shapeCast S512x512 (broadcast S512x512 (Scalar.ofBits (F := Ideal) .f32 0x00000000#32)) shapeCasts_S512x512_S512x512 j = 0
  rw [shapeCast_self]
  exact Ideal.ofBits_zero_f32

/-- The running tile sum at the first key tile. -/
theorem upTo_at_zero {M : Type*} [AddCommMonoid M] (T : Fin 4 → M) (qi kvi : ℕ) (h0 : kvi = 0) :
    AttnAlgebra.upTo T qi kvi = T 0 := by
  subst h0; exact AttnAlgebra.upTo_zero T qi

/-- The running tile sum at a later key tile, from the one before. -/
theorem upTo_at_succ {M : Type*} [AddCommMonoid M] (T : Fin 4 → M) (qi kvi kvi' : ℕ) (h : kvi' + 1 = kvi) (hk : kvi < 4) :
    AttnAlgebra.upTo T qi kvi = if kvi ≤ qi then AttnAlgebra.upTo T qi kvi' + T ⟨kvi, hk⟩ else AttnAlgebra.upTo T qi kvi' := by
  subst h; exact AttnAlgebra.upTo_succ T qi kvi' hk

section Value

variable (V : (c : Dev nD) → (b : Ref sig .tc) → Buf (Elt Ideal) ((c : Thread nD τ).loc b)) (a : (pcfg1 (F := Ideal)).Adm)

/-- What position n does to an accumulator S, at row r, head h, lane d: it adds the terms of key tile kvi when that tile is
    not after the query tile. -/
theorem point_apply (c : Dev nD) (q k v : Vec Ideal S8x2048x512 .bf16) (sl : Vec Ideal S8 .i32)
    (hq : V c main_v2_2 = q) (hk : V c main_v2_3 = k) (hv : V c main_v2_1 = v) (hsl : a.1 0 = sl)
    (n : ℕ) (hn : n < 128) (S : Vec Ideal S512x512 .f32) (r : Fin 512) (h : Fin 8) (d : Fin 64) :
    (if n % 4 ≤ n / 4 % 4 then
        accStep (F := Ideal) (BitVec.ofNat 32 (n / 4 % 4)) (BitVec.ofNat 32 (n % 4)) (lenAt1 a ⟨n, hn⟩)
          (iblk1 V a c 0 ⟨n, hn⟩) (iblk1 V a c 1 ⟨n, hn⟩) (iblk1 V a c 2 ⟨n, hn⟩) S
      else S) (ix2 r (Spec.hd h d))
      = if n % 4 ≤ n / 4 % 4 then S (ix2 r (Spec.hd h d)) + ∑ cc : Fin 512, term q k v sl (seqOf n hn) (qpos n r) h d (kpos n cc)
        else S (ix2 r (Spec.hd h d)) := by
  split
  · exact accStep_arr V a c q k v sl hq hk hv hsl n hn S r h d
  · rfl

/-- The recursion of the accumulator, over naturals. -/
theorem acc_rec (c : Dev nD) (n : ℕ) (hn : n < 128) :
    (outsAt1 V a c n hn).2
      = (if n % 4 ≤ n / 4 % 4 then
          accStep (F := Ideal) (BitVec.ofNat 32 (n / 4 % 4)) (BitVec.ofNat 32 (n % 4)) (lenAt1 a ⟨n, hn⟩)
            (iblk1 V a c 0 ⟨n, hn⟩) (iblk1 V a c 1 ⟨n, hn⟩) (iblk1 V a c 2 ⟨n, hn⟩)
            (if n % 4 = 0 then zeroAcc else (outsAt1 V a c (n - 1) (Nat.lt_of_le_of_lt (Nat.sub_le _ _) hn)).2)
        else (if n % 4 = 0 then zeroAcc else (outsAt1 V a c (n - 1) (Nat.lt_of_le_of_lt (Nat.sub_le _ _) hn)).2)) :=
  outsAt1_snd V a c ⟨n, hn⟩

/-- The tile sums of query position 512·qi + r of position n, head h, lane d. -/
abbrev tiles (q k v : Vec Ideal S8x2048x512 .bf16) (sl : Vec Ideal S8 .i32) (n : ℕ) (hn : n < 128) (r : Fin 512) (h : Fin 8) (d : Fin 64) :
    Fin 4 → EReal :=
  fun kv => ∑ cc : Fin 512, term q k v sl (seqOf n hn) (qpos n r) h d (AttnAlgebra.pos kv cc)

/-- THE INVARIANT: after position n = (b·4 + qi)·4 + kvi the accumulator holds, at row r and lane d of head h, the attention
    terms of the key tiles 0 … kvi that are not after the query tile, summed tile by tile. -/
theorem scratch_eq (c : Dev nD) (q k v : Vec Ideal S8x2048x512 .bf16) (sl : Vec Ideal S8 .i32)
    (hq : V c main_v2_2 = q) (hk : V c main_v2_3 = k) (hv : V c main_v2_1 = v) (hsl : a.1 0 = sl)
    (n : ℕ) : ∀ (hn : n < 128) (r : Fin 512) (h : Fin 8) (d : Fin 64),
    (outsAt1 V a c n hn).2 (ix2 r (Spec.hd h d)) = AttnAlgebra.upTo (tiles q k v sl n hn r h d) (n / 4 % 4) (n % 4) := by
  induction n with
  | zero =>
    intro hn r h d
    rw [acc_rec V a c 0 hn]
    rw [if_pos (show 0 % 4 = 0 from rfl)]
    refine (point_apply V a c q k v sl hq hk hv hsl 0 hn zeroAcc r h d).trans ?_
    rw [if_pos (show 0 % 4 ≤ 0 / 4 % 4 from Nat.le_refl _), zeroAcc_apply, zero_add, upTo_at_zero _ _ _ rfl]
    refine Finset.sum_congr rfl fun cc _ => congrArg (term q k v sl (seqOf 0 hn) (qpos 0 r) h d) (Fin.ext ?_)
    show 512 * (0 % 4) + cc.val = 512 * 0 + cc.val
    omega
  | succ n ih =>
    intro hn r h d
    have hn' : n < 128 := Nat.lt_of_succ_lt hn
    rw [acc_rec V a c (n + 1) hn]
    by_cases h0 : (n + 1) % 4 = 0
    · rw [if_pos h0]
      refine (point_apply V a c q k v sl hq hk hv hsl (n + 1) hn zeroAcc r h d).trans ?_
      rw [if_pos (show (n + 1) % 4 ≤ (n + 1) / 4 % 4 by omega), zeroAcc_apply, zero_add, upTo_at_zero _ _ _ h0]
      refine Finset.sum_congr rfl fun cc _ => congrArg (term q k v sl (seqOf (n + 1) hn) (qpos (n + 1) r) h d) (Fin.ext ?_)
      show 512 * ((n + 1) % 4) + cc.val = 512 * 0 + cc.val
      omega
    · rw [if_neg h0]
      refine (point_apply V a c q k v sl hq hk hv hsl (n + 1) hn (outsAt1 V a c n hn').2 r h d).trans ?_
      have eb : seqOf n hn' = seqOf (n + 1) hn := Fin.ext (by show n / 16 = (n + 1) / 16; omega)
      have eq : qpos n r = qpos (n + 1) r := Fin.ext (by show 512 * (n / 4 % 4) + r.val = 512 * ((n + 1) / 4 % 4) + r.val; omega)
      have eqi : n / 4 % 4 = (n + 1) / 4 % 4 := by omega
      have eT : tiles q k v sl n hn' r h d = tiles q k v sl (n + 1) hn r h d := by
        show (fun kv => ∑ cc : Fin 512, term q k v sl (seqOf n hn') (qpos n r) h d (AttnAlgebra.pos kv cc)) = _
        rw [eb, eq]
      rw [ih hn' r h d, eT, eqi, upTo_at_succ (tiles q k v sl (n + 1) hn r h d) ((n + 1) / 4 % 4) ((n + 1) % 4) (n % 4) (by omega) (by omega)]

/-- A key position of a tile after the query tile is masked off: its term is zero. -/
theorem term_after (q k v : Vec Ideal S8x2048x512 .bf16) (sl : Vec Ideal S8 .i32) (b : Fin 8) (n : ℕ) (r : Fin 512) (h : Fin 8) (d : Fin 64)
    (kv : Fin 4) (cc : Fin 512) (hlt : n / 4 % 4 < kv.val) :
    term q k v sl b (qpos n r) h d (AttnAlgebra.pos kv cc) = 0 := by
  have hm : Spec.maskOf sl b (qpos n r) (AttnAlgebra.pos kv cc) = 0#1 := by
    refine ValueIdx.eq_zero_of_ne_one fun h1 => ?_
    have := ((Spec.maskOf_eq_one_iff sl b (qpos n r) (AttnAlgebra.pos kv cc)).mp h1).1
    have hr := r.isLt
    have : 512 * kv.val + cc.val ≤ 512 * (n / 4 % 4) + r.val := this
    omega
  unfold term
  rw [Spec.maskF_of_zero hm, mul_zero, zero_mul]

/-- AT THE LAST KEY TILE the accumulator row is the attention row of the query position: the whole sum over the 2048 key
    positions. -/
theorem scratch_last (c : Dev nD) (q k v : Vec Ideal S8x2048x512 .bf16) (sl : Vec Ideal S8 .i32)
    (hq : V c main_v2_2 = q) (hk : V c main_v2_3 = k) (hv : V c main_v2_1 = v) (hsl : a.1 0 = sl)
    (n : ℕ) (hn : n < 128) (h3 : n % 4 = 3) (r e : Fin 512) :
    (outsAt1 V a c n hn).2 (ix2 r e) = Spec.attnRow q k v sl (seqOf n hn) (qpos n r) e := by
  have he : e = Spec.hd ⟨e.val / 64, by omega⟩ ⟨e.val % 64, Nat.mod_lt _ (by decide)⟩ := Fin.ext (by show e.val = e.val / 64 * 64 + e.val % 64; omega)
  have hs := scratch_eq V a c q k v sl hq hk hv hsl n hn r ⟨e.val / 64, by omega⟩ ⟨e.val % 64, Nat.mod_lt _ (by decide)⟩
  rw [← he] at hs
  rw [hs, h3]
  exact AttnAlgebra.upTo_last_eq_sum
    (fun m => term q k v sl (seqOf n hn) (qpos n r) ⟨e.val / 64, by omega⟩ ⟨e.val % 64, Nat.mod_lt _ (by decide)⟩ m) (n / 4 % 4)
    (fun kv cc hlt => term_after q k v sl (seqOf n hn) n r _ _ kv cc hlt)

end Value

end Cert.KernelIdeal.Val

end
-- ==== Proof.Val.FinBlkAt.lean ====
/-
  The output tile of the attention kernel at an index.

  From the finished accumulator (512 rows of 512 lanes) the kernel layer-normalises every row (mean and variance over
  the lanes, the variance offset added, the reciprocal square root, gain and bias), multiplies by u, lays u, x and
  that product side by side as 1536 features, multiplies the features by the 1536 x 512 output weights and adds x.
  Read at one entry (r, e), over the extended reals: the sum over the 1536 features splits into the three blocks of
  512, and the entry is the u row times rows 0..511 of the weights, plus the x row times rows 512..1023, plus the
  gated normalised row times rows 1024..1535, plus x at (r, e).
-/
import proofs.«419744_j566935683421_1_alg».proof.Proof.KI.Pay
import proofs.«419744_j566935683421_1_alg».proof.Proof.Val.MatmulAt
import proofs.«419744_j566935683421_1_alg».proof.Proof.Val.R0ValA
import proofs.«419744_j566935683421_1_alg».proof.Proof.Val.Spec
import proofs.«419744_j566935683421_1_alg».proof.Proof.Val.SpecLaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.ValueIdx Idealize.SL.Sem
open Cert.KernelIdeal Cert.KernelIdeal.Gen Cert.KernelIdeal.Hand

/-! ## Layer normalisation of the rows of a 512 x 512 matrix -/

/-- The column of the rows' means. -/
def mMean (a : FVec Ideal S512x512 .f32) : FVec Ideal S512x1 .f32 :=
  divf (shapeCast S512x1 (multiReduction (F := Ideal) .add [1] S512 a 0x00000000#32 reduces_S512x512_S512 (.inl rfl) rfl) shapeCasts_S512_S512x1)
    (broadcast S512x1 (Scalar.ofBits (F := Ideal) .f32 0x44000000#32))

/-- The rows minus their means. -/
def mCentred (a : FVec Ideal S512x512 .f32) : FVec Ideal S512x512 .f32 :=
  subf a (broadcastTo S512x512 (mMean a) broadcasts_S512x1_S512x512)

/-- The column of the rows' variances. -/
def mVar (a : FVec Ideal S512x512 .f32) : FVec Ideal S512x1 .f32 :=
  divf (shapeCast S512x1 (multiReduction (F := Ideal) .add [1] S512 (mulf (mCentred a) (mCentred a)) 0x00000000#32 reduces_S512x512_S512 (.inl rfl) rfl) shapeCasts_S512_S512x1)
    (broadcast S512x1 (Scalar.ofBits (F := Ideal) .f32 0x44000000#32))

/-- The normalised rows, scaled and shifted. -/
def mLn (a : FVec Ideal S512x512 .f32) (g b : Vec Ideal S512 .f32) : FVec Ideal S512x512 .f32 :=
  addf (mulf (mulf (mCentred a)
          (broadcastTo S512x512 (rsqrt (addf (mVar a) (broadcast S512x1 (Scalar.ofBits (F := Ideal) .f32 0x358637BD#32)))) broadcasts_S512x1_S512x512))
        (broadcastTo S512x512 (shapeCast S1x512 g shapeCasts_S512_S1x512) broadcasts_S1x512_S512x512))
    (broadcastTo S512x512 (shapeCast S1x512 b shapeCasts_S512_S1x512) broadcasts_S1x512_S512x512)

/-- Row r of a matrix. -/
abbrev mRow (a : FVec Ideal S512x512 .f32) (r : Fin 512) : Fin 512 → EReal := fun l => a (ix2 r l)

theorem mMean_apply (a : FVec Ideal S512x512 .f32) (r : Fin 512) (u : Fin 1) : mMean a (ix2 r u) = Spec.mean (mRow a r) := by
  unfold mMean Spec.mean
  show Ideal.div (shapeCast S512x1 _ shapeCasts_S512_S512x1 (ix2 r u)) Spec.c512 = _
  refine congrArg (fun z => Ideal.div z Spec.c512) ?_
  refine (shapeCast_a_a1_apply _ shapeCasts_S512_S512x1 r u).trans ?_
  exact rowSum_apply a (.inl rfl) rfl r

theorem mCentred_apply (a : FVec Ideal S512x512 .f32) (r j : Fin 512) :
    mCentred a (ix2 r j) = mRow a r j - Spec.mean (mRow a r) := by
  unfold mCentred
  show a (ix2 r j) - broadcastTo S512x512 (mMean a) broadcasts_S512x1_S512x512 (ix2 r j) = _
  rw [broadcastTo_a1_ab_apply, mMean_apply]

theorem mVar_apply (a : FVec Ideal S512x512 .f32) (r : Fin 512) (u : Fin 1) : mVar a (ix2 r u) = Spec.var (mRow a r) := by
  unfold mVar Spec.var
  show Ideal.div (shapeCast S512x1 _ shapeCasts_S512_S512x1 (ix2 r u)) Spec.c512 = _
  refine congrArg (fun z => Ideal.div z Spec.c512) ?_
  refine (shapeCast_a_a1_apply _ shapeCasts_S512_S512x1 r u).trans ?_
  refine (rowSum_apply (mulf (mCentred a) (mCentred a)) (.inl rfl) rfl r).trans ?_
  refine Finset.sum_congr rfl fun k _ => ?_
  show mCentred a (ix2 r k) * mCentred a (ix2 r k) = _
  rw [mCentred_apply]

/-- The normalised matrix at (r, e) is the layer normalisation of row r at e. -/
theorem mLn_apply (a : FVec Ideal S512x512 .f32) (g b : Vec Ideal S512 .f32) (r e : Fin 512) :
    mLn a g b (ix2 r e) = Spec.ln (mRow a r) (fun j => g (ValueIdx.ix1 j)) (fun j => b (ValueIdx.ix1 j)) e := by
  unfold mLn Spec.ln
  show mCentred a (ix2 r e)
        * broadcastTo S512x512 (rsqrt (addf (mVar a) (broadcast S512x1 (Scalar.ofBits (F := Ideal) .f32 0x358637BD#32)))) broadcasts_S512x1_S512x512 (ix2 r e)
        * broadcastTo S512x512 (shapeCast S1x512 g shapeCasts_S512_S1x512) broadcasts_S1x512_S512x512 (ix2 r e)
      + broadcastTo S512x512 (shapeCast S1x512 b shapeCasts_S512_S1x512) broadcasts_S1x512_S512x512 (ix2 r e) = _
  rw [mCentred_apply, broadcastTo_a1_ab_apply, broadcastTo_1b_ab_apply, broadcastTo_1b_ab_apply, shapeCast_a_1a_apply,
    shapeCast_a_1a_apply]
  show _ * Ideal.rsqrt (mVar a (ix2 r (0 : Fin 1)) + Spec.eps) * _ + _ = _
  rw [mVar_apply]

/-! ## The 1536 features of a row -/

/-- The three feature blocks: u, x, and u times the normalised accumulator. -/
def finFeat (acc : Vec Ideal S512x512 .f32) (g2 b2 : Vec Ideal S512 .f32) (u x : Vec Ideal S1x512x512 .f32) :
    Fin 3 → FVec Ideal S512x512 .f32 :=
  ![shapeCast S512x512 u shapeCasts_S1x512x512_S512x512, shapeCast S512x512 x shapeCasts_S1x512x512_S512x512,
    mulf (shapeCast S512x512 u shapeCasts_S1x512x512_S512x512) (mLn acc g2 b2)]

theorem finConcats (f : Fin 3 → FVec Ideal S512x512 .f32) :
    Shape.Concatenates ((List.ofFn fun n : Fin 3 => (⟨S512x512, f n⟩ : (s : Shape) × (s.Idx → Ideal .f32))).map (·.1)) S512x1536 1 :=
  concatenates_S512x512_S512x512_S512x512_S512x1536_d1

/-- The features side by side. -/
def finCat (acc : Vec Ideal S512x512 .f32) (g2 b2 : Vec Ideal S512 .f32) (u x : Vec Ideal S1x512x512 .f32) :
    FVec Ideal S512x1536 .f32 :=
  concatenate S512x1536 1 (List.ofFn fun n : Fin 3 => (⟨S512x512, finFeat acc g2 b2 u x n⟩ : (s : Shape) × (s.Idx → Ideal .f32)))
    (finConcats _)

/-- Feature K n + j of row r is entry (r, j) of block n. -/
theorem finCat_apply (acc : Vec Ideal S512x512 .f32) (g2 b2 : Vec Ideal S512 .f32) (u x : Vec Ideal S1x512x512 .f32)
    (r j : Fin 512) (n : Fin 3) (c : Fin 1536) (hc : c.val = 512 * n.val + j.val) :
    finCat acc g2 b2 u x (ix2 r c) = finFeat acc g2 b2 u x n (ix2 r j) := by
  have hj := j.isLt
  unfold finCat
  refine concatenate_ofFn_apply (t := S512x1536) (s₁ := S512x512) (1 : Fin 2) (finFeat acc g2 b2 u x) (finConcats _) rfl 512 rfl
    (ix2 r c) n ?_ (ix2 r j) ?_ ?_
  · show c.val / 512 = n.val
    omega
  · show j.val = c.val % 512
    omega
  · intro b hb
    match b with
    | ⟨0, _⟩ => rfl
    | ⟨1, _⟩ => exact absurd rfl hb

/-! ## The tile -/

/-- The tile is the features times the output weights, plus x. -/
theorem finTile_eq (acc : Vec Ideal S512x512 .f32) (g2 b2 : Vec Ideal S512 .f32) (u x : Vec Ideal S1x512x512 .f32)
    (ow : Vec Ideal S1536x512 .bf16) :
    k1_pay18 (F := Ideal) acc g2 b2 u x ow
      = addf (matmul (φ₂ := .bf16) dot_S512x1536_S1536x512_S512x512_1_0_0_1_n_n none
            (truncf .bf16 (finCat acc g2 b2 u x) bitsLt_bf16_f32) ow
            (constant (F := Ideal) S512x512 .f32 0x00000000#32))
          (shapeCast S512x512 x shapeCasts_S1x512x512_S512x512) := by
  unfold k1_pay18
  dsimp only
  rw [shapeCast_self]
  rfl

/-- THE OUTPUT TILE AT (r, e). -/
theorem finBlk_apply (acc : Vec Ideal S512x512 .f32) (g2 b2 : Vec Ideal S512 .f32) (u x : Vec Ideal S1x512x512 .f32) (ow : Vec Ideal S1536x512 .bf16) (r e : Fin 512) :
    finBlk (F := Ideal) acc g2 b2 u x ow (ix3 (0 : Fin 1) r e)
      = ((∑ j : Fin 512, u (ix3 (0 : Fin 1) r j) * ow (ix2 (⟨j.val, by have := j.isLt; omega⟩ : Fin 1536) e))
        + (∑ j : Fin 512, x (ix3 (0 : Fin 1) r j) * ow (ix2 (⟨512 + j.val, by have := j.isLt; omega⟩ : Fin 1536) e))
        + (∑ j : Fin 512, (u (ix3 (0 : Fin 1) r j) * Spec.ln (fun l => acc (ix2 r l)) (fun l => g2 (ValueIdx.ix1 l)) (fun l => b2 (ValueIdx.ix1 l)) j)
            * ow (ix2 (⟨1024 + j.val, by have := j.isLt; omega⟩ : Fin 1536) e)))
        + x (ix3 (0 : Fin 1) r e) := by
  have hx : ∀ j : Fin 512, shapeCast S512x512 x shapeCasts_S1x512x512_S512x512 (ix2 r j) = x (ix3 (0 : Fin 1) r j) :=
    fun j => shapeCast_1ab_ab_apply x shapeCasts_S1x512x512_S512x512 r j
  have hu : ∀ j : Fin 512, shapeCast S512x512 u shapeCasts_S1x512x512_S512x512 (ix2 r j) = u (ix3 (0 : Fin 1) r j) :=
    fun j => shapeCast_1ab_ab_apply u shapeCasts_S1x512x512_S512x512 r j
  unfold finBlk k1_pay2
  refine (shapeCast_ab_1ab_apply _ shapeCasts_S512x512_S1x512x512 (0 : Fin 1) r e).trans ?_
  rw [finTile_eq]
  show matmul (φ₂ := .bf16) dot_S512x1536_S1536x512_S512x512_1_0_0_1_n_n none (truncf .bf16 (finCat acc g2 b2 u x) bitsLt_bf16_f32)
          ow (constant (F := Ideal) S512x512 .f32 0x00000000#32) (ix2 r e)
        + shapeCast S512x512 x shapeCasts_S1x512x512_S512x512 (ix2 r e) = _
  rw [matmulC_apply, hx e, Spec.sum_blocks]
  refine congrArg (· + x (ix3 (0 : Fin 1) r e)) ?_
  refine congrArg₂ (· + ·) (congrArg₂ (· + ·) ?_ ?_) ?_
  · refine Finset.sum_congr rfl fun j _ => congrArg (· * _) ?_
    show finCat acc g2 b2 u x (ix2 r _) = _
    exact (finCat_apply acc g2 b2 u x r j 0 _ (by show j.val = 512 * 0 + j.val; omega)).trans (hu j)
  · refine Finset.sum_congr rfl fun j _ => congrArg (· * _) ?_
    show finCat acc g2 b2 u x (ix2 r _) = _
    exact (finCat_apply acc g2 b2 u x r j 1 _ (by show 512 + j.val = 512 * 1 + j.val; omega)).trans (hx j)
  · refine Finset.sum_congr rfl fun j _ => congrArg (· * _) ?_
    show finCat acc g2 b2 u x (ix2 r _) = _
    refine (finCat_apply acc g2 b2 u x r j 2 _ (by show 1024 + j.val = 512 * 2 + j.val; omega)).trans ?_
    show shapeCast S512x512 u shapeCasts_S1x512x512_S512x512 (ix2 r j) * mLn acc g2 b2 (ix2 r j) = _
    rw [hu j, mLn_apply]

end Cert.KernelIdeal.Val

end
-- ==== Proof.Val.R1Cover.lean ====
/-
  The value of the attention region's result array: the blocks its last key-tile points write back tile the array,
  and each is the layer's output on its rows.

  The grid has 8 x 4 x 4 points; point t = (4 b + qi) 4 + kvi.  The output window sits at block (b, qi, 0) and is
  written back exactly at the points with kvi = 3, so row n of batch row b is written by the point
  (4 b + n / 512) 4 + 3, and those blocks cover the array.  At such a point the output tile is computed from the
  finished accumulator: the u and x rows it reads are rows (b, 512 qi + r) of the arrays, the weights and the
  layer-norm vectors are the whole arrays, and the accumulator's row r is the attention row of position 512 qi + r;
  so its entry (r, e) is the layer's output at (b, 512 qi + r, e).
-/
import proofs.«419744_j566935683421_1_alg».proof.Proof.KI.R1Dat
import proofs.«419744_j566935683421_1_alg».proof.Proof.Val.R1ValC
import proofs.«419744_j566935683421_1_alg».proof.Proof.Val.R1Val
import proofs.«419744_j566935683421_1_alg».proof.Proof.Val.FinBlkAt
import proofs.«419744_j566935683421_1_alg».proof.Proof.Val.Spec
import proofs.«419744_j566935683421_1_alg».proof.Proof.Val.SpecLaws
import proofs.«419744_j566935683421_1_alg».proof.Proof.Gen.KernelIdeal.Launch
import Idealize.ShloMosaic.Lib.Pipeline.Value
import Idealize.ShloMosaic.Lib.ValueIdx

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b)) (a : (pcfg1 (F := Ideal)).Adm)

/-! ## The output window over the grid -/

/-- The output window sits at block (t / 16, t / 4 % 4, 0): batch row, query tile, all features. -/
theorem idx8_facts1 : ∀ t : Fin (cfg1 a).N,
    ((cfg1 a).win 8).index t (0 : Fin 3) = t.val / 16 ∧ ((cfg1 a).win 8).index t (1 : Fin 3) = t.val / 4 % 4
      ∧ ((cfg1 a).win 8).index t (2 : Fin 3) = 0 :=
  fun t => (idx_q t).2.2.2

/-- The last key-tile point of the query tile that holds index i: batch row i₀, query tile i₁ / 512, key tile 3. -/
def ptOf1 (i : S8x2048x512.Idx) : Fin (cfg1 a).N := ⟨((i 0).val * 4 + (i 1).val / 512) * 4 + 3, by
  have h0 : (i 0).val < 8 := (i 0).isLt
  have h1 : (i 1).val < 2048 := (i 1).isLt
  have : (cfg1 a).N = 128 := N_1
  omega⟩

/-- Index i lies in the block at block index (n / 16, n / 4 % 4, 0) when n is the last key-tile point of i's query tile. -/
theorem blk1_arith (idx : Fin 3 → ℕ) (i : S8x2048x512.Idx) (n : ℕ) (hn : n = ((i 0).val * 4 + (i 1).val / 512) * 4 + 3)
    (h0 : idx 0 = n / 16) (h1 : idx 1 = n / 4 % 4) (h2 : idx 2 = 0) :
    ∀ ax : Fin 3, idx ax * S1x512x512.size ax ≤ (i ax).val ∧ (i ax).val < idx ax * S1x512x512.size ax + S1x512x512.size ax := by
  intro ax
  have hi0 : (i 0).val < 8 := (i 0).isLt
  have hi1 : (i 1).val < 2048 := (i 1).isLt
  have hi2 : (i 2).val < 512 := (i 2).isLt
  match ax with
  | ⟨0, _⟩ => show idx 0 * 1 ≤ (i 0).val ∧ (i 0).val < idx 0 * 1 + 1; omega
  | ⟨1, _⟩ => show idx 1 * 512 ≤ (i 1).val ∧ (i 1).val < idx 1 * 512 + 512; omega
  | ⟨2, _⟩ => show idx 2 * 512 ≤ (i 2).val ∧ (i 2).val < idx 2 * 512 + 512; omega

/-- An index of the result array is in point t's block iff each coordinate is in the block's range on its axis. -/
theorem mem_blk1_8 (t : Fin (cfg1 a).N) (i : S8x2048x512.Idx) :
    i ∈ (((cfg1 a).win 8).blk t).view.set ↔ ∀ ax : Fin 3, ((cfg1 a).win 8).index t ax * S1x512x512.size ax ≤ (i ax).val
      ∧ (i ax).val < ((cfg1 a).win 8).index t ax * S1x512x512.size ax + S1x512x512.size ax := by
  have h : (((cfg1 a).win 8).blk t).view.set = (((cfg1 a).win 8).rect t).set := View.set_slice_whole main_v3 _
  rw [h]
  exact Rect.mem_set_unit

/-- Every index of the result array is in the block of a point that writes it back: the last key-tile point of
    its query tile. -/
theorem cover1_8 (i : S8x2048x512.Idx) :
    ∃ t : Fin (cfg1 a).N, ((cfg1 a).win 8).flush t = true ∧ i ∈ (((cfg1 a).win 8).blk t).view.set := by
  have htv : (ptOf1 a i).val = ((i 0).val * 4 + (i 1).val / 512) * 4 + 3 := rfl
  obtain ⟨e0, e1, e2⟩ := idx8_facts1 a (ptOf1 a i)
  refine ⟨ptOf1 a i, (flush1_8 a _).mpr (by rw [htv]; omega), ?_⟩
  rw [mem_blk1_8]
  exact blk1_arith (((cfg1 a).win 8).index (ptOf1 a i)) i _ htv e0 e1 e2

/-! ## What a last key-tile point writes back -/

/-- Where entry (u, r, e) of the block at block index (n / 16, n / 4 % 4, 0) lies in the array. -/
theorem emb1_arith (idx : Fin 3 → ℕ) (n : ℕ) (hn : n < 128) (h0 : idx 0 = n / 16) (h1 : idx 1 = n / 4 % 4) (h2 : idx 2 = 0)
    (u0 : Fin 1) (r e : Fin 512) (k : S8x2048x512.Idx)
    (hk : ∀ ax : Fin 3, (k ax).val = idx ax * S1x512x512.size ax + 1 * (ix3 u0 r e ax).val) :
    k = ix3 (seqOf n hn) (qpos n r) e := by
  funext ax; apply Fin.ext
  match ax with
  | ⟨0, _⟩ => have := hk 0; show (k 0).val = n / 16; change (k 0).val = idx 0 * 1 + 1 * u0.val at this; omega
  | ⟨1, _⟩ => have := hk 1; show (k 1).val = 512 * (n / 4 % 4) + r.val; change (k 1).val = idx 1 * 512 + 1 * r.val at this; omega
  | ⟨2, _⟩ => have := hk 2; show (k 2).val = e.val; change (k 2).val = idx 2 * 512 + 1 * e.val at this; omega

/-! ## The output tile as the result's entries -/

/-- The output tile computed from accumulator contents `acc` is, at row r, the result's row at position n of batch
    row b, when the tile's u and x rows are the arrays' rows there, the weights and the layer-norm vectors are the
    arrays', and the accumulator's row r is the attention row of that position. -/
theorem finBlk_outOf (acc : Vec Ideal S512x512 .f32) (G B : Vec Ideal S512 .f32) (Ub Xb : Vec Ideal S1x512x512 .f32)
    (OW : Vec Ideal S1536x512 .bf16) (q k v : Vec Ideal S8x2048x512 .bf16) (u x : Vec Ideal S8x2048x512 .f32)
    (ow : Vec Ideal S1536x512 .bf16) (g2 b2 : Vec Ideal S512 .f32) (sl : Vec Ideal S8 .i32) (b : Fin 8) (n : Fin 2048) (r e : Fin 512)
    (hG : G = g2) (hB : B = b2) (hOW : OW = ow)
    (hU : ∀ f : Fin 512, Ub (ix3 0 r f) = u (ix3 b n f)) (hX : ∀ f : Fin 512, Xb (ix3 0 r f) = x (ix3 b n f))
    (hS : ∀ l : Fin 512, acc (ix2 r l) = Spec.attnRow q k v sl b n l) :
    finBlk (F := Ideal) acc G B Ub Xb OW (ix3 0 r e) = Spec.outOf q k v u x ow g2 b2 sl b n e := by
  subst hG hB hOW
  rw [finBlk_apply, Spec.outOf_split]
  simp only [hU, hX]
  unfold Spec.gated
  rw [show (fun l => acc (ix2 r l)) = Spec.attnRow q k v sl b n from funext hS]

section Core

variable (c : Dev nD) (q k v : Vec Ideal S8x2048x512 .bf16) (u x : Vec Ideal S8x2048x512 .f32)
  (ow : Vec Ideal S1536x512 .bf16) (g2 b2 : Vec Ideal S512 .f32) (sl : Vec Ideal S8 .i32)
  (hacc : ∀ (n : ℕ) (hn : n < 128), n % 4 = 3 → ∀ r e : Fin 512,
    (outsAt1 V a c n hn).2 (ix2 r e) = Spec.attnRow q k v sl (seqOf n hn) (qpos n r) e)
  (hbu : ∀ (n : ℕ) (hn : n < 128) (r f : Fin 512),
    (iblk1 V a c 3 ⟨n, hn⟩ : Vec Ideal S1x512x512 .f32) (ix3 0 r f) = u (ix3 (seqOf n hn) (qpos n r) f))
  (hbx : ∀ (n : ℕ) (hn : n < 128) (r f : Fin 512),
    (iblk1 V a c 4 ⟨n, hn⟩ : Vec Ideal S1x512x512 .f32) (ix3 0 r f) = x (ix3 (seqOf n hn) (qpos n r) f))
  (hbow : ∀ (n : ℕ) (hn : n < 128), (iblk1 V a c 5 ⟨n, hn⟩ : Vec Ideal S1536x512 .bf16) = ow)
  (hbg : ∀ (n : ℕ) (hn : n < 128), (iblk1 V a c 6 ⟨n, hn⟩ : Vec Ideal S512 .f32) = g2)
  (hbb : ∀ (n : ℕ) (hn : n < 128), (iblk1 V a c 7 ⟨n, hn⟩ : Vec Ideal S512 .f32) = b2)
include hacc hbu hbx hbow hbg hbb

/-- WHAT A LAST KEY-TILE POINT WRITES BACK is its block of the result: the output tile is computed from the
    finished accumulator, whose rows are the attention rows of the query tile's positions. -/
theorem flushed1_8_of (t : Fin (cfg1 a).N) (h3 : t.val % 4 = 3) :
    (dat1 V a c).flushed 8 t = (((cfg1 a).win 8).blk t).view.read (Elt Ideal)
      (fun i : S8x2048x512.Idx => Spec.outOf q k v u x ow g2 b2 sl (i 0) (i 1) (i 2)) := by
  obtain ⟨n, hn⟩ := t
  show ((cfg1 a).win 8).cut ((cfg1 a).grid.coords ⟨n, hn⟩) ((dat1 V a c).after 8 ⟨n, hn⟩) = _
  rw [after1_8, outsAt1_fst]
  obtain ⟨e0, e1, e2⟩ := idx8_facts1 a ⟨n, hn⟩
  refine funext fun (j : S1x512x512.Idx) => ?_
  obtain ⟨u0, r, e, rfl⟩ : ∃ (u0 : Fin 1) (r e : Fin 512), j = ix3 u0 r e := ⟨j 0, j 1, j 2, eq_ix3 j⟩
  obtain rfl : u0 = 0 := Subsingleton.elim _ _
  show finBlk (F := Ideal) (outsAt1 V a c n hn).2 (iblk1 V a c 6 ⟨n, hn⟩) (iblk1 V a c 7 ⟨n, hn⟩) (iblk1 V a c 3 ⟨n, hn⟩)
        (iblk1 V a c 4 ⟨n, hn⟩) (iblk1 V a c 5 ⟨n, hn⟩) (ix3 0 r e)
      = (fun i : S8x2048x512.Idx => Spec.outOf q k v u x ow g2 b2 sl (i 0) (i 1) (i 2))
          ((((cfg1 a).win 8).blk ⟨n, hn⟩).view.emb (ix3 0 r e))
  rw [emb1_arith (((cfg1 a).win 8).index ⟨n, hn⟩) n hn e0 e1 e2 0 r e
    ((((cfg1 a).win 8).blk ⟨n, hn⟩).view.emb (ix3 0 r e)) (fun ax => rfl)]
  exact finBlk_outOf (outsAt1 V a c n hn).2 (iblk1 V a c 6 ⟨n, hn⟩) (iblk1 V a c 7 ⟨n, hn⟩) (iblk1 V a c 3 ⟨n, hn⟩)
    (iblk1 V a c 4 ⟨n, hn⟩) (iblk1 V a c 5 ⟨n, hn⟩) q k v u x ow g2 b2 sl (seqOf n hn) (qpos n r) r e
    (hbg n hn) (hbb n hn) (hbow n hn) (hbu n hn r) (hbx n hn r) (hacc n hn h3 r)

/-- THE RESULT ARRAY of the attention region, index by index, from what the last key-tile points write back:
    their blocks tile the array. -/
theorem arrAt1_out_of :
    (dat1 V a c).arrAt 8 (cfg1 a).N = fun i : S8x2048x512.Idx => Spec.outOf q k v u x ow g2 b2 sl (i 0) (i 1) (i 2) :=
  (dat1 V a c).arrAt_eq_of_cover 8 (fun i : S8x2048x512.Idx => Spec.outOf q k v u x ow g2 b2 sl (i 0) (i 1) (i 2))
    (fun t ht => flushed1_8_of V a c q k v u x ow g2 b2 sl hacc hbu hbx hbow hbg hbb t ((flush1_8 a t).mp ht)) (cover1_8 a)

end Core

/-! ## The result array, from the accumulator's value at the last key-tile points -/

/-- THE RESULT ARRAY of the attention region, given what the accumulator holds after each last key-tile point:
    the attention rows of the query tile's positions. -/
theorem arrAt1_out_of_scratch (c : Dev nD) (q k v : Vec Ideal S8x2048x512 .bf16) (u x : Vec Ideal S8x2048x512 .f32)
    (ow : Vec Ideal S1536x512 .bf16) (g2 b2 : Vec Ideal S512 .f32) (sl : Vec Ideal S8 .i32)
    (hu : V c main_v2_0 = u) (hx : V c main_arg0 = x) (how : V c main_v1 = ow) (hg : V c main_arg7 = g2) (hb : V c main_arg8 = b2)
    (hacc : ∀ (n : ℕ) (hn : n < 128), n % 4 = 3 → ∀ r e : Fin 512,
      (outsAt1 V a c n hn).2 (ix2 r e) = Spec.attnRow q k v sl (seqOf n hn) (qpos n r) e) :
    (dat1 V a c).arrAt 8 (cfg1 a).N = fun i : S8x2048x512.Idx => Spec.outOf q k v u x ow g2 b2 sl (i 0) (i 1) (i 2) :=
  arrAt1_out_of V a c q k v u x ow g2 b2 sl hacc
    (fun n hn r f => (blk_u V a c n hn r f).trans (congrFun hu _))
    (fun n hn r f => (blk_x V a c n hn r f).trans (congrFun hx _))
    (fun n hn => (blk_ow V a c n hn).trans how) (fun n hn => (blk_g V a c n hn).trans hg)
    (fun n hn => (blk_b V a c n hn).trans hb)

/-! ## The result array -/

/-- THE RESULT ARRAY of the attention region, index by index: the layer's output as a function of the q, k, v, u
    arrays the projection region left, the input x, the output weights, the second layer-norm vectors and the
    sequence lengths. -/
theorem arrAt1_out (c : Dev nD) (q k v : Vec Ideal S8x2048x512 .bf16) (u x : Vec Ideal S8x2048x512 .f32)
    (ow : Vec Ideal S1536x512 .bf16) (g2 b2 : Vec Ideal S512 .f32) (sl : Vec Ideal S8 .i32)
    (hq : V c main_v2_2 = q) (hk : V c main_v2_3 = k) (hv : V c main_v2_1 = v) (hu : V c main_v2_0 = u)
    (hx : V c main_arg0 = x) (how : V c main_v1 = ow) (hg : V c main_arg7 = g2) (hb : V c main_arg8 = b2)
    (hsl : a.1 0 = sl) :
    (dat1 V a c).arrAt 8 (cfg1 a).N = fun i : S8x2048x512.Idx => Spec.outOf q k v u x ow g2 b2 sl (i 0) (i 1) (i 2) :=
  arrAt1_out_of_scratch V a c q k v u x ow g2 b2 sl hu hx how hg hb
    (fun n hn h3 r e => scratch_last V a c q k v sl hq hk hv hsl n hn h3 r e)

end Cert.KernelIdeal.Val

end
-- ==== Proof.Val.Bridge.lean ====
/-
  The kernel program's result as a function of its nine arguments.

  After the run, the result array is what the attention kernel's output window wrote back.  Read through the two
  regions' values: the attention kernel's output is `Spec.outOf` of its q, k, v, u arrays, of x, the output weights,
  the second layer norm's weights and the sequence lengths; the q, k, v, u arrays are what the projection kernel left,
  `Spec.qArr … Spec.uArr` of x, the first layer norm's weights, the projection weights and the bias; the two weight
  matrices the kernels read are the arguments read at bf16, which at the ideal instance is the identity.  Together:
  `Spec.refOut` of the nine arguments.
-/
import proofs.«419744_j566935683421_1_alg».proof.Proof.KI.Launch
import proofs.«419744_j566935683421_1_alg».proof.Proof.Val.R0Val
import proofs.«419744_j566935683421_1_alg».proof.Proof.Val.R1Cover
import proofs.«419744_j566935683421_1_alg».proof.Proof.Val.Spec

noncomputable section

namespace Cert.KernelIdeal.Val

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ)

/-- Reading a float array at a narrower format changes nothing at the ideal instance. -/
theorem truncf_bf16_id {s : Shape} (x : FVec Ideal s .f32) : (truncf .bf16 x bitsLt_bf16_f32 : FVec Ideal s .bf16) = x := rfl

/-- An argument array as region 1 finds it: neither the host stretch nor the projection kernel writes it. -/
theorem Vin1_arg (c : Dev nD) (b : Ref sig .tc)
    (hb : b ∉ ([main_v2_0, main_v2_1, main_v2_2, main_v2_3] : List (Ref sig .tc))) (h0 : Vin0 m c b = m ((c.tc : Thread nD τ).loc b)) :
    Vin1 m c b = m ((c.tc : Thread nD τ).loc b) := (Vin1_of_arg m c b hb).trans h0

/-- THE KERNEL PROGRAM'S RESULT: what the attention kernel's output window has written back by the end of its grid is
    the specification's function of the nine arguments. -/
theorem result_eq (c : Dev nD) :
    (dat1 (Vin1 m) (admOf m 1) c).arrAt 8 (cfg1 (admOf m 1)).N
      = fun i : S8x2048x512.Idx => Spec.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (i 0) (i 1) (i 2) := by
  -- the projection weights as the projection kernel reads them
  have hw : Vin0 m c main_v0 = m ((c.tc : Thread nD τ).loc main_arg2) := (Vin0_v0 m c).trans (truncf_bf16_id _)
  -- the four arrays the projection kernel leaves
  have hu := arrAt0_u (Vin0 m) c _ _ _ _ _ (Vin0_arg0 m c) (Vin0_arg5 m c) (Vin0_arg6 m c) hw (Vin0_arg3 m c)
  have hv := arrAt0_v (Vin0 m) c _ _ _ _ _ (Vin0_arg0 m c) (Vin0_arg5 m c) (Vin0_arg6 m c) hw (Vin0_arg3 m c)
  have hq := arrAt0_q (Vin0 m) c _ _ _ _ _ (Vin0_arg0 m c) (Vin0_arg5 m c) (Vin0_arg6 m c) hw (Vin0_arg3 m c)
  have hk := arrAt0_k (Vin0 m) c _ _ _ _ _ (Vin0_arg0 m c) (Vin0_arg5 m c) (Vin0_arg6 m c) hw (Vin0_arg3 m c)
  -- the output weights as the attention kernel reads them
  have how : Vin1 m c main_v1 = m ((c.tc : Thread nD τ).loc main_arg4) :=
    (Vin1_of_arg m c main_v1 (by decide)).trans ((Vin0_v1 m c).trans (truncf_bf16_id _))
  rw [arrAt1_out (Vin1 m) (admOf m 1) c _ _ _ _ _ _ _ _ _
    ((Vin1_v2_2 m c).trans hq) ((Vin1_v2_3 m c).trans hk) ((Vin1_v2_1 m c).trans hv) ((Vin1_v2_0 m c).trans hu)
    (Vin1_arg m c main_arg0 (by decide) (Vin0_arg0 m c)) how
    (Vin1_arg m c main_arg7 (by decide) (Vin0_arg7 m c)) (Vin1_arg m c main_arg8 (by decide) (Vin0_arg8 m c))
    (admOf_tbl m c)]
  rfl

end Cert.KernelIdeal.Val

end
-- ==== Proof.Val.Ref.lean ====
/-
  The reference program computes the specification: read index by index, every stage of the reference is the
  corresponding function of Val/Spec.lean.
-/
import proofs.«419744_j566935683421_1_alg».proof.Proof.Gen.ReferenceIdeal.Read
import proofs.«419744_j566935683421_1_alg».proof.Proof.Val.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two index functions of rank 1 to 4 agree when they agree at every axis. -/
macro "idx1" : tactic => `(tactic| (funext a; match a with | ⟨0, _⟩ => rfl))
macro "idx2" : tactic => `(tactic| (funext a; match a with | ⟨0, _⟩ => rfl | ⟨1, _⟩ => rfl))
macro "idx3" : tactic => `(tactic| (funext a; match a with | ⟨0, _⟩ => rfl | ⟨1, _⟩ => rfl | ⟨2, _⟩ => rfl))
macro "idx4" : tactic => `(tactic| (funext a; match a with | ⟨0, _⟩ => rfl | ⟨1, _⟩ => rfl | ⟨2, _⟩ => rfl | ⟨3, _⟩ => rfl))

abbrev A3 := (⟨S8x2048x512, .f32⟩ : BufTy).Contents (Elt Ideal)
abbrev A1 := (⟨S512, .f32⟩ : BufTy).Contents (Elt Ideal)
abbrev AW := (⟨S512x2048, .f32⟩ : BufTy).Contents (Elt Ideal)
abbrev AB := (⟨S2048, .f32⟩ : BufTy).Contents (Elt Ideal)
abbrev AO := (⟨S1536x512, .f32⟩ : BufTy).Contents (Elt Ideal)
abbrev AL := (⟨S8, .i32⟩ : BufTy).Contents (Elt Ideal)

/-! ## First layer normalisation and the projection -/

/-- The mean of a row of x. -/
theorem mean_at (x : A3) (j : S8x2048x1.Idx) :
    val_main_v3 (F := Ideal) x j = Spec.mean (fun t => x (ix3 (n0 := 8) (n1 := 2048) (j 0) (j 1) t)) := by
  rw [val_main_v3_apply, val_main_v1_apply, val_main_v2_apply, val_main_v0_apply, val_main_cst_0_apply, val_main_cst_apply]
  simp only [Ideal.hostDivf_def, Ideal.ofBits_def, Ideal.ofBits_zero_f32, zero_add, Spec.mean]
  refine congrArg (Ideal.div · _) (Finset.sum_congr rfl fun k _ => congrArg x ?_)
  idx3

theorem i_v7 (j : S8x2048x1.Idx) (k : Fin 512) :
    idx_main_v7 (idx_main_v8 j) k = ix3 (n0 := 8) (n1 := 2048) (j 0) (j 1) k := by idx3

/-- The variance of a row of x. -/
theorem var_at (x : A3) (j : S8x2048x1.Idx) :
    val_main_v10 (F := Ideal) x j = Spec.var (fun t => x (ix3 (n0 := 8) (n1 := 2048) (j 0) (j 1) t)) := by
  simp only [val_main_v10_apply, val_main_v8_apply, val_main_v9_apply, val_main_cst_2_apply, val_main_v7_apply,
    val_main_cst_1_apply, val_main_v6_apply, val_main_v5_apply, val_main_v4_apply, mean_at, i_v7,
    Ideal.hostDivf_def, Ideal.ofBits_def, Ideal.ofBits_zero_f32, zero_add, Ideal.mulf_def, Ideal.subf_def, Spec.var]
  rfl

theorem i_v18 (b : Fin 8) (s : Fin 2048) (e : Fin 512) : idx_main_v18 (idx_main_v19 (ix3 b s e)) = ix1 e := by idx1
theorem i_v21 (b : Fin 8) (s : Fin 2048) (e : Fin 512) : idx_main_v21 (idx_main_v22 (ix3 b s e)) = ix1 e := by idx1

/-- The first layer normalisation. -/
theorem ln1_at (x : A3) (g1 b1 : A1) (b : Fin 8) (s : Fin 2048) (e : Fin 512) :
    val_main_v23 (F := Ideal) x g1 b1 (ix3 b s e)
      = Spec.ln (fun t => x (ix3 b s t)) (fun t => g1 (ix1 t)) (fun t => b1 (ix1 t)) e := by
  simp only [val_main_v23_apply, val_main_v20_apply, val_main_v22_apply, val_main_v21_apply, val_main_v17_apply,
    val_main_v19_apply, val_main_v18_apply, val_main_v12_apply, val_main_v11_apply, val_main_v16_apply,
    val_main_v15_apply, val_main_v14_apply, val_main_v13_apply, val_main_cst_3_apply, mean_at, var_at, i_v18, i_v21,
    Ideal.ofBits_def, Ideal.mulf_def, Ideal.subf_def, Ideal.addf_def, Ideal.hostUnary_rsqrt_def, Spec.ln]
  rfl

theorem i_l24 (b : Fin 8) (s : Fin 2048) (f : Fin 2048) (k : Fin 512) : lidx_main_v24 (ix3 b s f) k = ix3 b s k := by idx3
theorem i_r24 (b : Fin 8) (s : Fin 2048) (f : Fin 2048) (k : Fin 512) : ridx_main_v24 (ix3 b s f) k = ix2 k f := by idx2
theorem i_v25 (b : Fin 8) (s : Fin 2048) (f : Fin 2048) : idx_main_v25 (idx_main_v26 (ix3 b s f)) = ix1 f := by idx1

/-- The projection. -/
theorem proj_at (x : A3) (w : AW) (bias : AB) (g1 b1 : A1) (b : Fin 8) (s : Fin 2048) (f : Fin 2048) :
    val_main_v27 (F := Ideal) x w bias g1 b1 (ix3 b s f) = Spec.proj x g1 b1 w bias b s f := by
  simp only [val_main_v27_apply, val_main_v24_apply, val_main_v26_apply, val_main_v25_apply, i_l24, i_r24, i_v25,
    ln1_at, Ideal.addf_def, Spec.proj]

/-! ## The four blocks of the projection, and the heads -/

theorem i_v28 (b : Fin 8) (s : Fin 2048) (j : Fin 512) :
    idx_main_v28 (ix3 b s j) = ix3 b s (⟨j.val, by have := j.isLt; omega⟩ : Fin 2048) := by idx3
theorem i_v30 (b : Fin 8) (s : Fin 2048) (j : Fin 512) :
    idx_main_v30 (ix3 b s j) = ix3 b s (⟨512 + j.val, by have := j.isLt; omega⟩ : Fin 2048) := by idx3
theorem i_v31 (b : Fin 8) (s : Fin 2048) (j : Fin 512) :
    idx_main_v31 (ix3 b s j) = ix3 b s (⟨1024 + j.val, by have := j.isLt; omega⟩ : Fin 2048) := by idx3
theorem i_v32 (b : Fin 8) (s : Fin 2048) (j : Fin 512) :
    idx_main_v32 (ix3 b s j) = ix3 b s (⟨1536 + j.val, by have := j.isLt; omega⟩ : Fin 2048) := by idx3

/-- The u block: silu of columns 0–511. -/
theorem u_at (x : A3) (w : AW) (bias : AB) (g1 b1 : A1) (b : Fin 8) (s : Fin 2048) (j : Fin 512) :
    val_main_v29 (F := Ideal) x w bias g1 b1 (ix3 b s j) = Spec.uArr x g1 b1 w bias (ix3 b s j) := by
  simp only [val_main_v29_apply, val_main_call0_v5_apply, val_main_call0_v4_apply, val_main_call0_cst_0_apply,
    val_main_call0_v3_apply, val_main_call0_v2_apply, val_main_call0_cst_apply, val_main_call0_v1_apply,
    val_main_call0_v0_apply, val_main_v28_apply, i_v28, proj_at, Ideal.ofBits_def, Ideal.mulf_def, Ideal.addf_def,
    Ideal.hostDivf_def, Ideal.hostUnary_exp_def, Ideal.hostNegf_def, Ideal.negf_def, Spec.silu_eq]
  rfl

/-- The v block: columns 512–1023. -/
theorem v_at (x : A3) (w : AW) (bias : AB) (g1 b1 : A1) (b : Fin 8) (s : Fin 2048) (j : Fin 512) :
    val_main_v30 (F := Ideal) x w bias g1 b1 (ix3 b s j) = Spec.vArr x g1 b1 w bias (ix3 b s j) := by
  simp only [val_main_v30_apply, i_v30, proj_at]
  rfl

/-- The q block: columns 1024–1535. -/
theorem q_at (x : A3) (w : AW) (bias : AB) (g1 b1 : A1) (b : Fin 8) (s : Fin 2048) (j : Fin 512) :
    val_main_v31 (F := Ideal) x w bias g1 b1 (ix3 b s j) = Spec.qArr x g1 b1 w bias (ix3 b s j) := by
  simp only [val_main_v31_apply, i_v31, proj_at]
  rfl

/-- The k block: columns 1536–2047. -/
theorem k_at (x : A3) (w : AW) (bias : AB) (g1 b1 : A1) (b : Fin 8) (s : Fin 2048) (j : Fin 512) :
    val_main_v32 (F := Ideal) x w bias g1 b1 (ix3 b s j) = Spec.kArr x g1 b1 w bias (ix3 b s j) := by
  simp only [val_main_v32_apply, i_v32, proj_at]
  rfl

/-- Splitting the 512 features into 8 heads of 64 lanes and moving the head axis in front of the position axis reads
    feature 64 h + d of position n. -/
theorem i_v33 (b h : Fin 8) (n : Fin 2048) (d : Fin 64) :
    idx_main_v33 (idx_main_v34 (ix4 b h n d)) = ix3 b n (Spec.hd h d) := by
  have hb := b.isLt; have hh := h.isLt; have hn := n.isLt; have hd := d.isLt
  funext a
  match a with
  | ⟨0, _⟩ => exact Fin.ext (show (((b.val * 2048 + n.val) * 8 + h.val) * 64 + d.val) / 1048576 = b.val by omega)
  | ⟨1, _⟩ => exact Fin.ext (show (((b.val * 2048 + n.val) * 8 + h.val) * 64 + d.val) / 512 % 2048 = n.val by omega)
  | ⟨2, _⟩ => exact Fin.ext (show (((b.val * 2048 + n.val) * 8 + h.val) * 64 + d.val) % 512 = h.val * 64 + d.val by omega)
theorem i_v35 (b h : Fin 8) (n : Fin 2048) (d : Fin 64) :
    idx_main_v35 (idx_main_v36 (ix4 b h n d)) = ix3 b n (Spec.hd h d) := i_v33 b h n d
theorem i_v37 (b h : Fin 8) (n : Fin 2048) (d : Fin 64) :
    idx_main_v37 (idx_main_v38 (ix4 b h n d)) = ix3 b n (Spec.hd h d) := i_v33 b h n d

/-- q by heads. -/
theorem qh_at (x : A3) (w : AW) (bias : AB) (g1 b1 : A1) (b h : Fin 8) (n : Fin 2048) (d : Fin 64) :
    val_main_v34 (F := Ideal) x w bias g1 b1 (ix4 b h n d) = Spec.qArr x g1 b1 w bias (ix3 b n (Spec.hd h d)) := by
  rw [val_main_v34_apply, val_main_v33_apply, i_v33, q_at]

/-- k by heads. -/
theorem kh_at (x : A3) (w : AW) (bias : AB) (g1 b1 : A1) (b h : Fin 8) (n : Fin 2048) (d : Fin 64) :
    val_main_v36 (F := Ideal) x w bias g1 b1 (ix4 b h n d) = Spec.kArr x g1 b1 w bias (ix3 b n (Spec.hd h d)) := by
  rw [val_main_v36_apply, val_main_v35_apply, i_v35, k_at]

/-- v by heads. -/
theorem vh_at (x : A3) (w : AW) (bias : AB) (g1 b1 : A1) (b h : Fin 8) (n : Fin 2048) (d : Fin 64) :
    val_main_v38 (F := Ideal) x w bias g1 b1 (ix4 b h n d) = Spec.vArr x g1 b1 w bias (ix3 b n (Spec.hd h d)) := by
  rw [val_main_v38_apply, val_main_v37_apply, i_v37, v_at]

/-! ## Scores, mask and attention -/

theorem i_l39 (b h : Fin 8) (n m : Fin 2048) (k : Fin 64) : lidx_main_v39 (ix4 b h n m) k = ix4 b h n k := by idx4
theorem i_r39 (b h : Fin 8) (n m : Fin 2048) (k : Fin 64) : ridx_main_v39 (ix4 b h n m) k = ix4 b h m k := by idx4

/-- The scores: silu of q·k/8 over a head's 64 lanes. -/
theorem score_at (x : A3) (w : AW) (bias : AB) (g1 b1 : A1) (b h : Fin 8) (n m : Fin 2048) :
    val_main_v42 (F := Ideal) x w bias g1 b1 (ix4 b h n m)
      = Spec.score (Spec.qArr x g1 b1 w bias) (Spec.kArr x g1 b1 w bias) b h n m := by
  simp only [val_main_v42_apply, val_main_call1_v5_apply, val_main_call1_v4_apply, val_main_call1_cst_0_apply,
    val_main_call1_v3_apply, val_main_call1_v2_apply, val_main_call1_cst_apply, val_main_call1_v1_apply,
    val_main_call1_v0_apply, val_main_v41_apply, val_main_v40_apply, val_main_cst_4_apply, val_main_v39_apply,
    i_l39, i_r39, qh_at, kh_at, Ideal.ofBits_def, Ideal.mulf_def, Ideal.addf_def, Ideal.hostDivf_def,
    Ideal.hostUnary_exp_def, Ideal.hostNegf_def, Ideal.negf_def, Spec.silu_eq]
  rfl

theorem i_sl (b h : Fin 8) (n m : Fin 2048) :
    idx_main_v50 (idx_main_v52 (idx_main_v55 (idx_main_v57 (idx_main_v60 (idx_main_v61 (ix4 b h n m)))))) = ix1 b := by
  idx1

/-- The mask as a float: causal and before the sequence length. -/
theorem mask_at (sl : AL) (b h : Fin 8) (n m : Fin 2048) :
    val_main_v61 (F := Ideal) sl (ix4 b h n m) = Spec.maskF sl b n m := by
  simp only [val_main_v61_apply, val_main_v60_apply, val_main_v59_apply, val_main_v58_apply, val_main_v56_apply,
    val_main_v57_apply, val_main_v54_apply, val_main_v55_apply, val_main_v48_apply, val_main_v53_apply,
    val_main_v46_apply, val_main_v47_apply, val_main_v44_apply, val_main_v45_apply, val_main_v43_apply,
    val_main_v51_apply, val_main_v52_apply, val_main_v49_apply, val_main_v50_apply, i_sl]
  rfl

theorem i_l63 (b h : Fin 8) (n : Fin 2048) (d : Fin 64) (k : Fin 2048) : lidx_main_v63 (ix4 b h n d) k = ix4 b h n k := by idx4
theorem i_r63 (b h : Fin 8) (n : Fin 2048) (d : Fin 64) (k : Fin 2048) : ridx_main_v63 (ix4 b h n d) k = ix4 b h k d := by idx4

/-- Attention by heads: the masked scores times v. -/
theorem attn_at (x : A3) (sl : AL) (w : AW) (bias : AB) (g1 b1 : A1) (b h : Fin 8) (n : Fin 2048) (d : Fin 64) :
    val_main_v63 (F := Ideal) x sl w bias g1 b1 (ix4 b h n d)
      = Spec.attnOf (Spec.qArr x g1 b1 w bias) (Spec.kArr x g1 b1 w bias) (Spec.vArr x g1 b1 w bias) sl b n h d := by
  simp only [val_main_v63_apply, i_l63, i_r63, val_main_v62_apply, score_at, mask_at, vh_at, Ideal.mulf_def, Spec.attnOf]

/-- Moving the head axis back behind the position axis and merging heads and lanes reads head f / 64, lane f % 64. -/
theorem i_v64 (b : Fin 8) (n : Fin 2048) (f : Fin 512) :
    idx_main_v64 (idx_main_v65 (ix3 b n f))
      = ix4 b (⟨f.val / 64, by have := f.isLt; omega⟩ : Fin 8) n (⟨f.val % 64, Nat.mod_lt _ (by decide)⟩ : Fin 64) := by
  have hb := b.isLt; have hn := n.isLt; have hf := f.isLt
  funext a
  match a with
  | ⟨0, _⟩ => exact Fin.ext (show ((b.val * 2048 + n.val) * 512 + f.val) / 1048576 = b.val by omega)
  | ⟨1, _⟩ => exact Fin.ext (show ((b.val * 2048 + n.val) * 512 + f.val) / 64 % 8 = f.val / 64 by omega)
  | ⟨2, _⟩ => exact Fin.ext (show ((b.val * 2048 + n.val) * 512 + f.val) / 512 % 2048 = n.val by omega)
  | ⟨3, _⟩ => exact Fin.ext (show ((b.val * 2048 + n.val) * 512 + f.val) % 64 = f.val % 64 by omega)

/-- The attention rows of 512 features. -/
theorem attnRow_at (x : A3) (sl : AL) (w : AW) (bias : AB) (g1 b1 : A1) (b : Fin 8) (n : Fin 2048) (f : Fin 512) :
    val_main_v65 (F := Ideal) x sl w bias g1 b1 (ix3 b n f)
      = Spec.attnRow (Spec.qArr x g1 b1 w bias) (Spec.kArr x g1 b1 w bias) (Spec.vArr x g1 b1 w bias) sl b n f := by
  rw [val_main_v65_apply, val_main_v64_apply, i_v64, attn_at]
  rfl

/-! ## Second layer normalisation, the gate, the concatenation and the output -/

section
variable (x : A3) (sl : AL) (w : AW) (bias : AB) (g1 b1 g2 b2 : A1)

/-- The attention rows of batch row b, position n, as the specification states them. -/
local notation "ROW" => Spec.attnRow (Spec.qArr x g1 b1 w bias) (Spec.kArr x g1 b1 w bias) (Spec.vArr x g1 b1 w bias) sl

theorem i_v66 (b : Fin 8) (n : Fin 2048) (z : Fin 1) (k : Fin 512) :
    idx_main_v66 (idx_main_v67 (ix3 b n z)) k = ix3 b n k := by idx3
theorem i_v73 (b : Fin 8) (n : Fin 2048) (z : Fin 1) (k : Fin 512) :
    idx_main_v73 (idx_main_v74 (ix3 b n z)) k = ix3 b n k := by idx3
theorem i_v70 (b : Fin 8) (n : Fin 2048) (e : Fin 512) : idx_main_v70 (ix3 b n e) = ix3 b n (0 : Fin 1) := by idx3
theorem i_v77 (b : Fin 8) (n : Fin 2048) (e : Fin 512) : idx_main_v77 (ix3 b n e) = ix3 b n (0 : Fin 1) := by idx3
theorem i_v82 (b : Fin 8) (n : Fin 2048) (e : Fin 512) : idx_main_v82 (ix3 b n e) = ix3 b n (0 : Fin 1) := by idx3
theorem i_v84 (b : Fin 8) (n : Fin 2048) (e : Fin 512) : idx_main_v84 (idx_main_v85 (ix3 b n e)) = ix1 e := by idx1
theorem i_v87 (b : Fin 8) (n : Fin 2048) (e : Fin 512) : idx_main_v87 (idx_main_v88 (ix3 b n e)) = ix1 e := by idx1

/-- The mean of an attention row. -/
theorem mean2_at (b : Fin 8) (n : Fin 2048) (z : Fin 1) :
    val_main_v69 (F := Ideal) x sl w bias g1 b1 (ix3 b n z) = Spec.mean (ROW b n) := by
  simp only [val_main_v69_apply, val_main_v67_apply, val_main_v68_apply, val_main_cst_6_apply, val_main_v66_apply,
    val_main_cst_5_apply, i_v66, attnRow_at, Ideal.hostDivf_def, Ideal.ofBits_def, Ideal.ofBits_zero_f32, zero_add,
    Spec.mean]

/-- The variance of an attention row. -/
theorem var2_at (b : Fin 8) (n : Fin 2048) (z : Fin 1) :
    val_main_v76 (F := Ideal) x sl w bias g1 b1 (ix3 b n z) = Spec.var (ROW b n) := by
  simp only [val_main_v76_apply, val_main_v74_apply, val_main_v75_apply, val_main_cst_8_apply, val_main_v73_apply,
    val_main_cst_7_apply, val_main_v72_apply, val_main_v71_apply, val_main_v70_apply, i_v73, i_v70, attnRow_at,
    mean2_at, Ideal.hostDivf_def, Ideal.ofBits_def, Ideal.ofBits_zero_f32, zero_add, Ideal.mulf_def, Ideal.subf_def,
    Spec.var]

/-- The second layer normalisation. -/
theorem ln2_at (b : Fin 8) (n : Fin 2048) (e : Fin 512) :
    val_main_v89 (F := Ideal) x sl w bias g1 b1 g2 b2 (ix3 b n e)
      = Spec.ln (ROW b n) (fun t => g2 (ix1 t)) (fun t => b2 (ix1 t)) e := by
  simp only [val_main_v89_apply, val_main_v86_apply, val_main_v88_apply, val_main_v87_apply, val_main_v83_apply,
    val_main_v85_apply, val_main_v84_apply, val_main_v78_apply, val_main_v77_apply, val_main_v82_apply,
    val_main_v81_apply, val_main_v80_apply, val_main_v79_apply, val_main_cst_9_apply, i_v77, i_v82, i_v84, i_v87,
    attnRow_at, mean2_at, var2_at, Ideal.ofBits_def, Ideal.mulf_def, Ideal.subf_def, Ideal.addf_def,
    Ideal.hostUnary_rsqrt_def, Spec.ln]

/-- The gated rows: u times the normalised attention rows. -/
theorem gated_at (b : Fin 8) (n : Fin 2048) (j : Fin 512) :
    val_main_v90 (F := Ideal) x sl w bias g1 b1 g2 b2 (ix3 b n j)
      = Spec.gated (Spec.qArr x g1 b1 w bias) (Spec.kArr x g1 b1 w bias) (Spec.vArr x g1 b1 w bias)
          (Spec.uArr x g1 b1 w bias) g2 b2 sl b n j := by
  simp only [val_main_v90_apply, u_at, ln2_at, Ideal.mulf_def, Spec.gated]

/-- Off the joined axis a piece of the concatenation is read at the same coordinates. -/
theorem cat_off (b : Fin 8) (n : Fin 2048) (f : Fin 1536) (j : Fin 512) (c : Fin S8x2048x512.rank)
    (hc : c.cast (rfl : S8x2048x512.rank = S8x2048x1536.rank) ≠ (2 : Fin 3)) :
    ((ix3 b n j : S8x2048x512.Idx) c).val
      = ((ix3 b n f : S8x2048x1536.Idx) (c.cast (rfl : S8x2048x512.rank = S8x2048x1536.rank))).val := by
  match c with
  | ⟨0, _⟩ => rfl
  | ⟨1, _⟩ => rfl
  | ⟨2, _⟩ => exact absurd rfl hc

/-- The first 512 features of the concatenation are u's. -/
theorem cat0 (b : Fin 8) (n : Fin 2048) (f : Fin 1536) (j : Fin 512) (hf : 0 + j.val = f.val) :
    val_main_v91 (F := Ideal) x sl w bias g1 b1 g2 b2 (ix3 b n f) = val_main_v29 (F := Ideal) x w bias g1 b1 (ix3 b n j) := by
  unfold val_main_v91
  refine concatenate_apply_piece (t := S8x2048x1536) (a := (2 : Fin 3)) (xs := _) (h := _) (j := ix3 b n f) (k := 0)
    (hk := ?_) (s₁ := S8x2048x512) (x₁ := val_main_v29 (F := Ideal) x w bias g1 b1) (hxk := ?_) (hr := rfl) (pre := 0)
    (hpre := ?_) (i := ix3 b n j) (hi := cat_off b n f j) (ha := hf)
  · show 0 < 3; omega
  · rfl
  · rfl

/-- The next 512 are x's. -/
theorem cat1 (b : Fin 8) (n : Fin 2048) (f : Fin 1536) (j : Fin 512) (hf : 512 + j.val = f.val) :
    val_main_v91 (F := Ideal) x sl w bias g1 b1 g2 b2 (ix3 b n f) = x (ix3 b n j) := by
  unfold val_main_v91
  refine concatenate_apply_piece (t := S8x2048x1536) (a := (2 : Fin 3)) (xs := _) (h := _) (j := ix3 b n f) (k := 1)
    (hk := ?_) (s₁ := S8x2048x512) (x₁ := x) (hxk := ?_) (hr := rfl) (pre := 512)
    (hpre := ?_) (i := ix3 b n j) (hi := cat_off b n f j) (ha := hf)
  · show 1 < 3; omega
  · rfl
  · rfl

/-- The last 512 are the gated rows'. -/
theorem cat2 (b : Fin 8) (n : Fin 2048) (f : Fin 1536) (j : Fin 512) (hf : 1024 + j.val = f.val) :
    val_main_v91 (F := Ideal) x sl w bias g1 b1 g2 b2 (ix3 b n f)
      = val_main_v90 (F := Ideal) x sl w bias g1 b1 g2 b2 (ix3 b n j) := by
  unfold val_main_v91
  refine concatenate_apply_piece (t := S8x2048x1536) (a := (2 : Fin 3)) (xs := _) (h := _) (j := ix3 b n f) (k := 2)
    (hk := ?_) (s₁ := S8x2048x512) (x₁ := val_main_v90 (F := Ideal) x sl w bias g1 b1 g2 b2) (hxk := ?_) (hr := rfl)
    (pre := 1024) (hpre := ?_) (i := ix3 b n j) (hi := cat_off b n f j) (ha := hf)
  · show 2 < 3; omega
  · rfl
  · rfl

/-- The concatenation [u | x | u · LN(attn)]. -/
theorem y_at (b : Fin 8) (n : Fin 2048) (f : Fin 1536) :
    val_main_v91 (F := Ideal) x sl w bias g1 b1 g2 b2 (ix3 b n f)
      = Spec.yOf (Spec.qArr x g1 b1 w bias) (Spec.kArr x g1 b1 w bias) (Spec.vArr x g1 b1 w bias)
          (Spec.uArr x g1 b1 w bias) x g2 b2 sl b n f := by
  have hf := f.isLt
  unfold Spec.yOf
  by_cases h1 : f.val < 512
  · rw [if_pos h1, cat0 x sl w bias g1 b1 g2 b2 b n f ⟨f.val, h1⟩ (by show 0 + f.val = f.val; omega), u_at]
    exact congrArg (fun t => Spec.uArr x g1 b1 w bias (ix3 b n t)) (Fin.ext (show f.val = f.val % 512 by omega))
  · by_cases h2 : f.val < 1024
    · rw [if_neg h1, if_pos h2,
        cat1 x sl w bias g1 b1 g2 b2 b n f ⟨f.val - 512, by omega⟩ (by show 512 + (f.val - 512) = f.val; omega)]
      exact congrArg (fun t => x (ix3 b n t)) (Fin.ext (show f.val - 512 = f.val % 512 by omega))
    · rw [if_neg h1, if_neg h2,
        cat2 x sl w bias g1 b1 g2 b2 b n f ⟨f.val - 1024, by omega⟩ (by show 1024 + (f.val - 1024) = f.val; omega),
        gated_at]
      exact congrArg (Spec.gated (Spec.qArr x g1 b1 w bias) (Spec.kArr x g1 b1 w bias) (Spec.vArr x g1 b1 w bias)
        (Spec.uArr x g1 b1 w bias) g2 b2 sl b n) (Fin.ext (show f.val - 1024 = f.val % 512 by omega))

theorem i_l92 (b : Fin 8) (n : Fin 2048) (e : Fin 512) (k : Fin 1536) : lidx_main_v92 (ix3 b n e) k = ix3 b n k := by idx3
theorem i_r92 (b : Fin 8) (n : Fin 2048) (e : Fin 512) (k : Fin 1536) : ridx_main_v92 (ix3 b n e) k = ix2 k e := by idx2

/-- The result at (b, n, e). -/
theorem out_at (ow : AO) (b : Fin 8) (n : Fin 2048) (e : Fin 512) :
    val_main_v93 (F := Ideal) x sl w bias ow g1 b1 g2 b2 (ix3 b n e) = Spec.refOut x sl w bias ow g1 b1 g2 b2 b n e := by
  simp only [val_main_v93_apply, val_main_v92_apply, i_l92, i_r92, y_at, Ideal.addf_def, Spec.refOut, Spec.outOf]

end

/-- The reference's result array is the specification's function of the nine arguments. -/
theorem ref_eq (x : (⟨S8x2048x512, .f32⟩ : BufTy).Contents (Elt Ideal)) (sl : (⟨S8, .i32⟩ : BufTy).Contents (Elt Ideal))
    (w : (⟨S512x2048, .f32⟩ : BufTy).Contents (Elt Ideal)) (bias : (⟨S2048, .f32⟩ : BufTy).Contents (Elt Ideal))
    (ow : (⟨S1536x512, .f32⟩ : BufTy).Contents (Elt Ideal)) (g1 b1 g2 b2 : (⟨S512, .f32⟩ : BufTy).Contents (Elt Ideal)) :
    val_main_v93 (F := Ideal) x sl w bias ow g1 b1 g2 b2
      = fun i => Spec.refOut x sl w bias ow g1 b1 g2 b2 (i 0) (i 1) (i 2) := by
  funext i
  exact (congrArg (val_main_v93 (F := Ideal) x sl w bias ow g1 b1 g2 b2) (eq_ix3 i)).trans
    (out_at x sl w bias g1 b1 g2 b2 ow (i 0) (i 1) (i 2))

end Cert.ReferenceIdeal.RefValue

end
-- ==== Proof.lean ====
/-
  The certificate's five claims for the two-kernel attention layer against its jnp reference.

  The kernel program runs a host stretch (the two weight matrices read at bf16), then the projection kernel
  (layer norm, projection, silu; it leaves u, v, q, k), then the attention kernel (for each query tile the masked
  silu-scores against every key tile up to the diagonal, accumulated tile by tile; then layer norm, gating, the
  output projection and the residual).  The reference computes the same layer with whole-array operations.
  At the ideal instance both results are the function `Spec.refOut` of the nine arguments: a change of float
  format is the identity, a tile-by-tile accumulation is the whole sum, a key tile beyond the diagonal contributes
  only masked (zero) terms, and selecting by the mask is multiplying by its 0/1 value (x·1 = x and x·0 = 0 on every
  extended real, so no finiteness of the inputs is used).

  The three frames: each kernel program's run (every weakly fair execution ends, nothing faults) with the result
  dropped, at the word-level instance and at the ideal one; the reference's generated run likewise.
-/
import proofs.«419744_j566935683421_1_alg».proof.Defs
import proofs.«419744_j566935683421_1_alg».proof.Proof.Gen.Kernel
import proofs.«419744_j566935683421_1_alg».proof.Proof.Gen.KernelIdeal
import proofs.«419744_j566935683421_1_alg».proof.Proof.Gen.ReferenceIdeal
import proofs.«419744_j566935683421_1_alg».proof.Proof.Gen.Pre_finite_inputs
import proofs.«419744_j566935683421_1_alg».proof.Proof.Gen.ReferenceIdeal.Run
import proofs.«419744_j566935683421_1_alg».proof.Proof.Gen.ReferenceIdeal.Read
import proofs.«419744_j566935683421_1_alg».proof.Proof.K.Launch
import proofs.«419744_j566935683421_1_alg».proof.Proof.KI.Launch
import proofs.«419744_j566935683421_1_alg».proof.Proof.Val.Bridge
import proofs.«419744_j566935683421_1_alg».proof.Proof.Val.Ref
import Idealize.ShloMosaic.Adequacy
import Idealize.ShloMosaic.Init

noncomputable section

namespace Cert.Proof

open Idealize.ShloMosaic Idealize.ShloMosaic.TcCoe Idealize.SL.Sem

/-- The word-level kernel program's frame. -/
theorem frame_p : Cert.frame_Kernel := fun m ρ _ => Cert.Kernel.Hand.frame (F := Bits) m ρ

/-- The idealized kernel program's frame. -/
theorem frame_pi : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the specification's function of the (agreeing) arguments in their result. -/
theorem algebraic : Cert.algebraic_KernelIdeal_ReferenceIdeal := by
  intro m ρ m' ρ' _ hagree
  refine ⟨fun c => fun i : Cert.KernelIdeal.S8x2048x512.Idx => Cert.Spec.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (i 0) (i 1) (i 2), ?_, ?_⟩
  · exact (θ_run Cert.KernelIdeal.defs _ _).mono (fun _ h c => ⟨(h c).1.trans (Cert.KernelIdeal.Val.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v93_eq, Cert.ReferenceIdeal.RefValue.ref_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
